-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x16 : Shape := ⟨2, ![600000, 16]⟩
abbrev S1x16 : Shape := ⟨2, ![1, 16]⟩
abbrev S600000 : Shape := ⟨1, ![600000]⟩
abbrev S128x128 : Shape := ⟨2, ![128, 128]⟩
abbrev S128 : Shape := ⟨1, ![128]⟩
abbrev S16x128 : Shape := ⟨2, ![16, 128]⟩
abbrev S400x128 : Shape := ⟨2, ![400, 128]⟩
abbrev S128x5 : Shape := ⟨2, ![128, 5]⟩
abbrev S5 : Shape := ⟨1, ![5]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S1x16 : S_.BroadcastsInDim S1x16 (![] : Fin 0 → Fin S1x16.rank)
  reducesTo_S1x16_S_d0_1 : S1x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S400x128 : S_.BroadcastsInDim S400x128 (![] : Fin 0 → Fin S400x128.rank)
  reducesTo_S400x128_S_d0_1 : S400x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S600000 : S_.BroadcastsInDim S600000 (![] : Fin 0 → Fin S600000.rank)
  reducesTo_S600000_S_d0 : S600000.ReducesTo [0] S_

variable [Facts]

def fn_part4 {F : FTy → Type} [FloatOps F] (main_arg3 : IVec S600000 32) (main_arg4 : IVec S600000 32) (main_v67 : IVec S_ 1) : IVec S_ 1 :=
  let main_c_26 : IVec S_ 32 := constantI S_ 32 50000#32
  let main_v68 : IVec S600000 32 := broadcastInDim S600000 ![] bcast_S_S600000 main_c_26
  let main_v69 : IVec S600000 1 := cmpi .slt main_arg3 main_v68
  let main_c_27 : IVec S_ 1 := constantI S_ 1 1#1
  let main_v70 : IVec S_ 1 := (fun x v => Host.reduce IntOp.andi x v reducesTo_S600000_S_d0 h_S_) main_v69 main_c_27
  let main_v71 : IVec S_ 1 := andi main_v67 main_v70
  let main_c_28 : IVec S_ 32 := constantI S_ 32 0#32
  let main_v72 : IVec S600000 32 := broadcastInDim S600000 ![] bcast_S_S600000 main_c_28
  let main_v73 : IVec S600000 1 := cmpi .sge main_arg4 main_v72
  let main_c_29 : IVec S_ 1 := constantI S_ 1 1#1
  let main_v74 : IVec S_ 1 := (fun x v => Host.reduce IntOp.andi x v reducesTo_S600000_S_d0 h_S_) main_v73 main_c_29
  let main_v75 : IVec S_ 1 := andi main_v71 main_v74
  let main_c_30 : IVec S_ 32 := constantI S_ 32 50000#32
  let main_v76 : IVec S600000 32 := broadcastInDim S600000 ![] bcast_S_S600000 main_c_30
  let main_v77 : IVec S600000 1 := cmpi .slt main_arg4 main_v76
  let main_c_31 : IVec S_ 1 := constantI S_ 1 1#1
  let main_v78 : IVec S_ 1 := (fun x v => Host.reduce IntOp.andi x v reducesTo_S600000_S_d0 h_S_) main_v77 main_c_31
  let main_v79 : IVec S_ 1 := andi main_v75 main_v78
  main_v79

def fn_part3 {F : FTy → Type} [FloatOps F] (main_arg3 : IVec S600000 32) (main_arg4 : IVec S600000 32) (main_arg13 : FVec F S128x5 .f32) (main_arg14 : FVec F S5 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x5 .f32 := Host.absf main_arg13
  let main_cst_20 : FVec F S_ .f32 := constant S_ .f32 0x7F800000#32
  let main_v55 : FVec F S128x5 .f32 := broadcastInDim S128x5 ![] bcast_S_S128x5 main_cst_20
  let main_v56 : IVec S128x5 1 := cmpf .olt main_v54 main_v55
  let main_c_21 : IVec S_ 1 := constantI S_ 1 1#1
  let main_v57 : IVec S_ 1 := (fun x v => Host.reduce IntOp.andi x v reducesTo_S128x5_S_d0_1 h_S_) main_v56 main_c_21
  let main_v58 : IVec S_ 1 := andi main_v53 main_v57
  let main_v59 : FVec F S5 .f32 := Host.absf main_arg14
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  let main_c_24 : IVec S_ 32 := constantI S_ 32 0#32
  let main_v64 : IVec S600000 32 := broadcastInDim S600000 ![] bcast_S_S600000 main_c_24
  let main_v65 : IVec S600000 1 := cmpi .sge main_arg3 main_v64
  let main_c_25 : IVec S_ 1 := constantI S_ 1 1#1
  let main_v66 : IVec S_ 1 := (fun x v => Host.reduce IntOp.andi x v reducesTo_S600000_S_d0 h_S_) main_v65 main_c_25
  let main_v67 : IVec S_ 1 := andi main_v63 main_v66
  fn_part4 (F := F) main_arg3 main_arg4 main_v67

def fn_part2 {F : FTy → Type} [FloatOps F] (main_arg3 : IVec S600000 32) (main_arg4 : IVec S600000 32) (main_arg9 : FVec F S400x128 .f32) (main_arg10 : FVec F S128 .f32) (main_arg11 : FVec F S400x128 .f32) (main_arg12 : FVec F S128 .f32) (main_arg13 : FVec F S128x5 .f32) (main_arg14 : FVec F S5 .f32) (main_v33 : IVec S_ 1) : IVec S_ 1 :=
  let main_v34 : FVec F S400x128 .f32 := Host.absf main_arg9
  let main_cst_12 : FVec F S_ .f32 := constant S_ .f32 0x7F800000#32
  let main_v35 : FVec F S400x128 .f32 := broadcastInDim S400x128 ![] bcast_S_S400x128 main_cst_12
  let main_v36 : IVec S400x128 1 := cmpf .olt main_v34 main_v35
  let main_c_13 : IVec S_ 1 := constantI S_ 1 1#1
  let main_v37 : IVec S_ 1 := (fun x v => Host.reduce IntOp.andi x v reducesTo_S400x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S400x128 .f32 := Host.absf main_arg11
  let main_cst_16 : FVec F S_ .f32 := constant S_ .f32 0x7F800000#32
  let main_v45 : FVec F S400x128 .f32 := broadcastInDim S400x128 ![] bcast_S_S400x128 main_cst_16
  let main_v46 : IVec S400x128 1 := cmpf .olt main_v44 main_v45
  let main_c_17 : IVec S_ 1 := constantI S_ 1 1#1
  let main_v47 : IVec S_ 1 := (fun x v => Host.reduce IntOp.andi x v reducesTo_S400x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg4 main_arg13 main_arg14 main_v48 main_v49 main_v50

def fn_part1 {F : FTy → Type} [FloatOps F] (main_arg3 : IVec S600000 32) (main_arg4 : IVec S600000 32) (main_arg6 : FVec F S128 .f32) (main_arg7 : FVec F S16x128 .f32) (main_arg8 : FVec F S128 .f32) (main_arg9 : FVec F S400x128 .f32) (main_arg10 : FVec F S128 .f32) (main_arg11 : FVec F S400x128 .f32) (main_arg12 : FVec F S128 .f32) (main_arg13 : FVec F S128x5 .f32) (main_arg14 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S16x128 .f32 := Host.absf main_arg7
  let main_cst_8 : FVec F S_ .f32 := constant S_ .f32 0x7F800000#32
  let main_v25 : FVec F S16x128 .f32 := broadcastInDim S16x128 ![] bcast_S_S16x128 main_cst_8
  let main_v26 : IVec S16x128 1 := cmpf .olt main_v24 main_v25
  let main_c_9 : IVec S_ 1 := constantI S_ 1 1#1
  let main_v27 : IVec S_ 1 := (fun x v => Host.reduce IntOp.andi x v reducesTo_S16x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg4 main_arg9 main_arg10 main_arg11 main_arg12 main_arg13 main_arg14 main_v33

def fn {F : FTy → Type} [FloatOps F] (main_arg0 : FVec F S50000x128 .f32) (main_arg1 : FVec F S600000x16 .f32) (main_arg2 : FVec F S1x16 .f32) (main_arg3 : IVec S600000 32) (main_arg4 : IVec S600000 32) (main_arg5 : FVec F S128x128 .f32) (main_arg6 : FVec F S128 .f32) (main_arg7 : FVec F S16x128 .f32) (main_arg8 : FVec F S128 .f32) (main_arg9 : FVec F S400x128 .f32) (main_arg10 : FVec F S128 .f32) (main_arg11 : FVec F S400x128 .f32) (main_arg12 : FVec F S128 .f32) (main_arg13 : FVec F S128x5 .f32) (main_arg14 : FVec F S5 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x16 .f32 := Host.absf main_arg1
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg4 main_arg6 main_arg7 main_arg8 main_arg9 main_arg10 main_arg11 main_arg12 main_arg13 main_arg14 main_v13 main_v16
-- ==== Kernel.lean ====
abbrev S50000x128 : Shape := ⟨2, ![50000, 128]⟩
abbrev S600000x16 : Shape := ⟨2, ![600000, 16]⟩
abbrev S1x16 : Shape := ⟨2, ![1, 16]⟩
abbrev S600000 : Shape := ⟨1, ![600000]⟩
abbrev S128x128 : Shape := ⟨2, ![128, 128]⟩
abbrev S128 : Shape := ⟨1, ![128]⟩
abbrev S16x128 : Shape := ⟨2, ![16, 128]⟩
abbrev S400x128 : Shape := ⟨2, ![400, 128]⟩
abbrev S128x5 : Shape := ⟨2, ![128, 5]⟩
abbrev S5 : Shape := ⟨1, ![5]⟩
abbrev S1x128 : Shape := ⟨2, ![1, 128]⟩
abbrev S5000x128 : Shape := ⟨2, ![5000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S10000x16 : Shape := ⟨2, ![10000, 16]⟩
abbrev S10000x128 : Shape := ⟨2, ![10000, 128]⟩
abbrev S50000x5 : Shape := ⟨2, ![50000, 5]⟩

abbrev nBuf : Space → Nat
  | .hbm => 105
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S600000x16, .f32⟩
  | .hbm, ⟨2, _⟩ => ⟨S1x16, .f32⟩
  | .hbm, ⟨3, _⟩ => ⟨S600000, .i32⟩
  | .hbm, ⟨4, _⟩ => ⟨S600000, .i32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S128, .f32⟩
  | .hbm, ⟨9, _⟩ => ⟨S400x128, .f32⟩
  | .hbm, ⟨10, _⟩ => ⟨S128, .f32⟩
  | .hbm, ⟨11, _⟩ => ⟨S400x128, .f32⟩
  | .hbm, ⟨12, _⟩ => ⟨S128, .f32⟩
  | .hbm, ⟨13, _⟩ => ⟨S128x5, .f32⟩
  | .hbm, ⟨14, _⟩ => ⟨S5, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S16x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S16x128, .f32⟩
  | .hbm, ⟨23, _⟩ => ⟨S16x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S1, .i32⟩
  | .hbm, ⟨46, _⟩ => ⟨S_, .i32⟩
  | .hbm, ⟨47, _⟩ => ⟨S600000x1, .i32⟩
  | .hbm, ⟨48, _⟩ => ⟨S600000x1, .i1⟩
  | .hbm, ⟨49, _⟩ => ⟨S1x1, .i32⟩
  | .hbm, ⟨50, _⟩ => ⟨S600000x1, .i32⟩
  | .hbm, ⟨51, _⟩ => ⟨S600000x1, .i1⟩
  | .hbm, ⟨52, _⟩ => ⟨S600000x1, .i1⟩
  | .hbm, ⟨53, _⟩ => ⟨S_, .i1⟩
  | .hbm, ⟨54, _⟩ => ⟨S600000, .i1⟩
  | .hbm, ⟨55, _⟩ => ⟨S600000x128, .f32⟩
  | .hbm, ⟨56, _⟩ => ⟨S600000x128, .i1⟩
  | .hbm, ⟨57, _⟩ => ⟨S_, .f32⟩
  | .hbm, ⟨58, _⟩ => ⟨S600000x128, .f32⟩
  | .hbm, ⟨59, _⟩ => ⟨S600000x128, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S1, .i32⟩
  | .hbm, ⟨69, _⟩ => ⟨S_, .i32⟩
  | .hbm, ⟨70, _⟩ => ⟨S600000x1, .i32⟩
  | .hbm, ⟨71, _⟩ => ⟨S600000x1, .i1⟩
  | .hbm, ⟨72, _⟩ => ⟨S1x1, .i32⟩
  | .hbm, ⟨73, _⟩ => ⟨S600000x1, .i32⟩
  | .hbm, ⟨74, _⟩ => ⟨S600000x1, .i1⟩
  | .hbm, ⟨75, _⟩ => ⟨S600000x1, .i1⟩
  | .hbm, ⟨76, _⟩ => ⟨S_, .i1⟩
  | .hbm, ⟨77, _⟩ => ⟨S600000, .i1⟩
  | .hbm, ⟨78, _⟩ => ⟨S600000x128, .f32⟩
  | .hbm, ⟨79, _⟩ => ⟨S600000x128, .i1⟩
  | .hbm, ⟨80, _⟩ => ⟨S_, .f32⟩
  | .hbm, ⟨81, _⟩ => ⟨S600000x128, .f32⟩
  | .hbm, ⟨82, _⟩ => ⟨S600000x128, .f32⟩
  | .hbm, ⟨83, _⟩ => ⟨S600000x128, .f32⟩
  | .hbm, ⟨84, _⟩ => ⟨S_, .f32⟩
  | .hbm, ⟨85, _⟩ => ⟨S50000x128, .f32⟩
  | .hbm, ⟨86, _⟩ => ⟨S600000x1, .i32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S600000x1, .i32⟩
  | .hbm, ⟨91, _⟩ => ⟨S50000x128, .f32⟩
  | .hbm, ⟨92, _⟩ => ⟨S_, .f32⟩
  | .hbm, ⟨93, _⟩ => ⟨S128x128, .f32⟩
  | .hbm, ⟨94, _⟩ => ⟨S_, .i32⟩
  | .hbm, ⟨95, _⟩ => ⟨S1, .i32⟩
  | .hbm, ⟨96, _⟩ => ⟨S128x128, .f32⟩
  | .hbm, ⟨97, _⟩ => ⟨S_, .f32⟩
  | .hbm, ⟨98, _⟩ => ⟨S128, .f32⟩
  | .hbm, ⟨99, _⟩ => ⟨S_, .i32⟩
  | .hbm, ⟨100, _⟩ => ⟨S1, .i32⟩
  | .hbm, ⟨101, _⟩ => ⟨S128, .f32⟩
  | .hbm, ⟨102, _⟩ => ⟨S1x128, .f32⟩
  | .hbm, ⟨103, _⟩ => ⟨S50000x128, .f32⟩
  | .hbm, ⟨104, _⟩ => ⟨S50000x5, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S10000x16, .f32⟩
  | .local _ .vmem, ⟨14, _⟩ => ⟨S10000x16, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S16x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v20 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v21 : Ref sig .tc := ⟨.hbm, 82, rfl⟩
abbrev main_v22 : Ref sig .tc := ⟨.hbm, 83, rfl⟩
abbrev main_cst : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst_0 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_1 : Ref sig .tc := ⟨.hbm, 92, rfl⟩
abbrev main_v29 : Ref sig .tc := ⟨.hbm, 93, rfl⟩
abbrev main_c : Ref sig .tc := ⟨.hbm, 94, rfl⟩
abbrev main_v30 : Ref sig .tc := ⟨.hbm, 95, rfl⟩
abbrev main_v31 : Ref sig .tc := ⟨.hbm, 96, rfl⟩
abbrev main_cst_2 : Ref sig .tc := ⟨.hbm, 97, rfl⟩
abbrev main_v32 : Ref sig .tc := ⟨.hbm, 98, rfl⟩
abbrev main_c_3 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S400x128_S128x128_0_0 : S400x128.Slices ![0, 0] S128x128
  slices_S400x128_S128x128_128_0 : S400x128.Slices ![128, 0] S128x128
  slices_S400x128_S128x128_256_0 : S400x128.Slices ![256, 0] S128x128
  slices_S400x128_S16x128_384_0 : S400x128.Slices ![384, 0] S16x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  bcast_S_S50000x128 : S_.BroadcastsInDim S50000x128 (![] : Fin 0 → Fin S50000x128.rank)
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S5000x128_S5000x128 : S5000x128.ShapeCasts S5000x128
  slices_S50000x128_S50000x5_0_0 : S50000x128.Slices ![0, 0] S50000x5
  dot_S16x128_S128x128_S16x128_1_0_0_1_n_n_wf : DotDims.WF S16x128 S128x128 S16x128 [1] [0] [0] [1] [] []
  dot_S1x128_S128x128_S1x128_1_0_0_1_n_n_wf : DotDims.WF S1x128 S128x128 S1x128 [1] [0] [0] [1] [] []
  dot_S1x16_S16x128_S1x128_1_0_0_1_n_n_wf : DotDims.WF S1x16 S16x128 S1x128 [1] [0] [0] [1] [] []
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  dot_S10000x16_S16x128_S10000x128_1_0_0_1_n_n_wf : DotDims.WF S10000x16 S16x128 S10000x128 [1] [0] [0] [1] [] []
  scatter_S50000x128_S600000x1_S600000x128_1_0_0_1_wf : ScatterDims.WF S50000x128 S600000x1 S600000x128 [1] [0] [0] 1
  scatter_S128x128_S1_S128x5_01_n_1_0_wf : ScatterDims.WF S128x128 S1 S128x5 [0, 1] [] [1] 0
  scatter_S128_S1_S5_0_n_0_0_wf : ScatterDims.WF S128 S1 S5 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S600000x16.size a
  hwx1_0 : ∀ i : grid1.Coords, EltTy.bits .f32 = 32 ∨ (Rect.block (s := S600000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S600000x128.size a
  hwx1_1 : ∀ i : grid1.Coords, EltTy.bits .f32 = 32 ∨ (Rect.block (s := S600000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S600000x128.size a
  hwx1_2 : ∀ i : grid1.Coords, EltTy.bits .f32 = 32 ∨ (Rect.block (s := S600000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S16x128.size a
  hwx1_3 : ∀ i : grid1.Coords, EltTy.bits .f32 = 32 ∨ (Rect.block (s := S16x128) S16x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S600000x128.size a
  hwx1_5 : ∀ i : grid1.Coords, EltTy.bits .f32 = 32 ∨ (Rect.block (s := S600000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)

variable [Facts₀]

def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x16_S16x128_S1x128_1_0_0_1_n_n : DotDims S1x16 S16x128 S1x128 where
  lhsContracting := [1]
  rhsContracting := [0]
  lhsNonContracting := [0]
  rhsNonContracting := [1]
  lhsBatch := []
  rhsBatch := []
  wf := dot_S1x16_S16x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S128x128_S1_S128x5_01_n_1_0 : ScatterDims S128x128 S1 S128x5 where
  updateWindowDims := [0, 1]
  insertedWindowDims := []
  scatterDimsToOperandDims := [1]
  indexVectorDim := 0
  wf := scatter_S128x128_S1_S128x5_01_n_1_0_wf
def scatter_S128_S1_S5_0_n_0_0 : ScatterDims S128 S1 S5 where
  updateWindowDims := [0]
  insertedWindowDims := []
  scatterDimsToOperandDims := [0]
  indexVectorDim := 0
  wf := scatter_S128_S1_S5_0_n_0_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_2) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S16x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19_2) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v36) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x16 : Shape := ⟨2, ![600000, 16]⟩
abbrev S1x16 : Shape := ⟨2, ![1, 16]⟩
abbrev S600000 : Shape := ⟨1, ![600000]⟩
abbrev S128x128 : Shape := ⟨2, ![128, 128]⟩
abbrev S128 : Shape := ⟨1, ![128]⟩
abbrev S16x128 : Shape := ⟨2, ![16, 128]⟩
abbrev S400x128 : Shape := ⟨2, ![400, 128]⟩
abbrev S128x5 : Shape := ⟨2, ![128, 5]⟩
abbrev S5 : Shape := ⟨1, ![5]⟩
abbrev S1x128 : Shape := ⟨2, ![1, 128]⟩
abbrev S600000x128 : Shape := ⟨2, ![600000, 128]⟩
abbrev S50000x16 : Shape := ⟨2, ![50000, 16]⟩
abbrev S_ : Shape := ⟨0, ![]⟩
abbrev S600000x1 : Shape := ⟨2, ![600000, 1]⟩
abbrev S600000x400 : Shape := ⟨2, ![600000, 400]⟩
abbrev S50000x400 : Shape := ⟨2, ![50000, 400]⟩
abbrev S50000x5 : Shape := ⟨2, ![50000, 5]⟩
abbrev S1x5 : Shape := ⟨2, ![1, 5]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x16, .f32⟩
  | .hbm, ⟨2, _⟩ => ⟨S1x16, .f32⟩
  | .hbm, ⟨3, _⟩ => ⟨S600000, .i32⟩
  | .hbm, ⟨4, _⟩ => ⟨S600000, .i32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S128, .f32⟩
  | .hbm, ⟨9, _⟩ => ⟨S400x128, .f32⟩
  | .hbm, ⟨10, _⟩ => ⟨S128, .f32⟩
  | .hbm, ⟨11, _⟩ => ⟨S400x128, .f32⟩
  | .hbm, ⟨12, _⟩ => ⟨S128, .f32⟩
  | .hbm, ⟨13, _⟩ => ⟨S128x5, .f32⟩
  | .hbm, ⟨14, _⟩ => ⟨S5, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S600000x128, .f32⟩
  | .hbm, ⟨20, _⟩ => ⟨S1x128, .f32⟩
  | .hbm, ⟨21, _⟩ => ⟨S600000x128, .f32⟩
  | .hbm, ⟨22, _⟩ => ⟨S600000x128, .f32⟩
  | .hbm, ⟨23, _⟩ => ⟨S600000x16, .f32⟩
  | .hbm, ⟨24, _⟩ => ⟨S50000x16, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S600000x400, .f32⟩
  | .hbm, ⟨44, _⟩ => ⟨S600000x128, .f32⟩
  | .hbm, ⟨45, _⟩ => ⟨S1x128, .f32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S50000x400, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x5, .f32⟩
  | .hbm, ⟨62, _⟩ => ⟨S1x5, .f32⟩
  | .hbm, ⟨63, _⟩ => ⟨S50000x5, .f32⟩
  | .hbm, ⟨64, _⟩ => ⟨S50000x5, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S1x16_S600000x16_0_1 : S1x16.BroadcastsInDim S600000x16 (![0, 1] : Fin 2 → Fin S600000x16.rank)
  bcast_S1x16_S50000x16_0_1 : S1x16.BroadcastsInDim S50000x16 (![0, 1] : Fin 2 → Fin S50000x16.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x16_S600000x400_d1 : Shape.Concatenates [S600000x128, S600000x128, S600000x128, S600000x16] S600000x400 1
  bcast_S_S50000x128 : S_.BroadcastsInDim S50000x128 (![] : Fin 0 → Fin S50000x128.rank)
  concatenates_S50000x128_S50000x128_S50000x128_S50000x16_S50000x400_d1 : Shape.Concatenates [S50000x128, S50000x128, S50000x128, S50000x16] S50000x400 1
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  dot_S50000x128_S128x128_S50000x128_1_0_0_1_n_n_wf : DotDims.WF S50000x128 S128x128 S50000x128 [1] [0] [0] [1] [] []
  dot_S600000x16_S16x128_S600000x128_1_0_0_1_n_n_wf : DotDims.WF S600000x16 S16x128 S600000x128 [1] [0] [0] [1] [] []
  gather_S50000x128_S600000x1_S600000x128_1_0_n_n_0_1_1128_wf : GatherDims.WF S50000x128 S600000x1 S600000x128 [1] [0] [] [0] [] 1 ![1, 128]
  dot_S600000x400_S400x128_S600000x128_1_0_0_1_n_n_wf : DotDims.WF S600000x400 S400x128 S600000x128 [1] [0] [0] [1] [] []
  scatter_S50000x128_S600000x1_S600000x128_1_0_0_1_wf : ScatterDims.WF S50000x128 S600000x1 S600000x128 [1] [0] [0] 1
  dot_S50000x400_S400x128_S50000x128_1_0_0_1_n_n_wf : DotDims.WF S50000x400 S400x128 S50000x128 [1] [0] [0] [1] [] []
  dot_S50000x128_S128x5_S50000x5_1_0_0_1_n_n_wf : DotDims.WF S50000x128 S128x5 S50000x5 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x400_S400x128_S600000x128_1_0_0_1_n_n : DotDims S600000x400 S400x128 S600000x128 where
  lhsContracting := [1]
  rhsContracting := [0]
  lhsNonContracting := [0]
  rhsNonContracting := [1]
  lhsBatch := []
  rhsBatch := []
  wf := dot_S600000x400_S400x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x400_S400x128_S50000x128_1_0_0_1_n_n : DotDims S50000x400 S400x128 S50000x128 where
  lhsContracting := [1]
  rhsContracting := [0]
  lhsNonContracting := [0]
  rhsNonContracting := [1]
  lhsBatch := []
  rhsBatch := []
  wf := dot_S50000x400_S400x128_S50000x128_1_0_0_1_n_n_wf
def dot_S50000x128_S128x5_S50000x5_1_0_0_1_n_n : DotDims S50000x128 S128x5 S50000x5 where
  lhsContracting := [1]
  rhsContracting := [0]
  lhsNonContracting := [0]
  rhsNonContracting := [1]
  lhsBatch := []
  rhsBatch := []
  wf := dot_S50000x128_S128x5_S50000x5_1_0_0_1_n_n_wf

class Facts : Prop extends Facts₀ where

variable [Facts]
-- ==== Proof.Spec.lean ====
/-
  The graph-network layer both programs compute, written index by index over the extended reals.

  Inputs: node features X [50000,128], edge features E [600000,16], one row of globals g [1,16], the encoders
  (Wne, bne), (Wee, bee), the edge update (Weu [400,128], beu), the node update (Wnu [400,128], bnu) and the
  head (Wout [128,5], bout).  Each edge e reads one node row for its sender, rs e, and one for its receiver, rr e;
  the two segment sums over the updated edges are kept as functions SA, RA of the whole edge array, since both
  programs apply the same one to their edge array.

  The reference's form: encode nodes and edges, join [edge, sender row, receiver row, globals] into 400 columns
  and multiply by Weu; join [node, sent sum, received sum, globals] and multiply by Wnu; apply the head.
  The kernel's form: the 400 rows of Weu and Wnu are cut into three blocks of 128 rows and a tail of 16; the
  edge encoder is folded into the first block (wcomb), the globals' tail and the biases into one row (bcomb,
  bnuc), and the node rows are projected before they are read per edge (proj).
-/
import Idealize.ShloMosaic.Lib.ValueIdx
import Idealize.ShloMosaic.PureOps.Ideal

noncomputable section

open scoped BigOperators

namespace GraphNet

open Idealize.ShloMosaic Idealize.ShloMosaic.ValueIdx

/-- An a × b array of extended reals. -/
abbrev Mat (a b : Nat) := (⟨2, ![a, b]⟩ : Shape).Idx → EReal
/-- A length-a vector of extended reals. -/
abbrev Row (a : Nat) := (⟨1, ![a]⟩ : Shape).Idx → EReal

/-- Row o + j of a 400-row matrix: the j-th row of the block of 128 rows that starts at row o. -/
def blk (o : Nat) (ho : o + 128 ≤ 400) (j : Fin 128) : Fin 400 := ⟨o + j.val, by have := j.isLt; omega⟩
/-- Row 384 + k: the k-th of the last 16 rows. -/
def tail16 (k : Fin 16) : Fin 400 := ⟨384 + k.val, by have := k.isLt; omega⟩

/-- Four pieces of widths 128, 128, 128, 16 laid side by side, read at column c. -/
def cat4 (f0 f1 f2 : Fin 128 → EReal) (f3 : Fin 16 → EReal) (c : Fin 400) : EReal :=
  if h0 : c.val < 128 then f0 ⟨c.val, h0⟩
  else if h1 : c.val < 256 then f1 ⟨c.val - 128, by omega⟩
  else if h2 : c.val < 384 then f2 ⟨c.val - 256, by omega⟩
  else f3 ⟨c.val - 384, by have := c.isLt; omega⟩

section

variable (X : Mat 50000 128) (E : Mat 600000 16) (g : Mat 1 16)
  (Wne : Mat 128 128) (bne : Row 128) (Wee : Mat 16 128) (bee : Row 128)
  (Weu : Mat 400 128) (beu : Row 128) (Wnu : Mat 400 128) (bnu : Row 128)
  (Wout : Mat 128 5) (bout : Row 5)
  (rs rr : Fin 600000 → Fin 50000)
  (SA RA : Mat 600000 128 → Mat 50000 128)

/-- The encoded node n, column j: X[n,:] · Wne[:,j] + bne[j]. -/
def enc (n : Fin 50000) (j : Fin 128) : EReal := (∑ k : Fin 128, X (ix2 n k) * Wne (ix2 k j)) + bne (ix1 j)
/-- The encoded edge e, column j: E[e,:] · Wee[:,j] + bee[j]. -/
def eenc (e : Fin 600000) (j : Fin 128) : EReal := (∑ k : Fin 16, E (ix2 e k) * Wee (ix2 k j)) + bee (ix1 j)

/-! ## The reference's form -/

/-- The updated edge e, column l: [edge e, node rs e, node rr e, globals] · Weu[:,l] + beu[l]. -/
def newEdgesRef (e : Fin 600000) (l : Fin 128) : EReal :=
  (∑ c : Fin 400, cat4 (eenc E Wee bee e) (enc X Wne bne (rs e)) (enc X Wne bne (rr e)) (fun k => g (ix2 0 k)) c * Weu (ix2 c l))
    + beu (ix1 l)
/-- The updated edges as one array. -/
def edgesArrRef : Mat 600000 128 := fun i => newEdgesRef X E g Wne bne Wee bee Weu beu rs rr (i 0) (i 1)
/-- The updated node n, column l: [node n, sent sum, received sum, globals] · Wnu[:,l] + bnu[l]. -/
def newNodesRef (n : Fin 50000) (l : Fin 128) : EReal :=
  (∑ c : Fin 400, cat4 (enc X Wne bne n)
      (fun j => SA (edgesArrRef X E g Wne bne Wee bee Weu beu rs rr) (ix2 n j))
      (fun j => RA (edgesArrRef X E g Wne bne Wee bee Weu beu rs rr) (ix2 n j))
      (fun k => g (ix2 0 k)) c * Wnu (ix2 c l))
    + bnu (ix1 l)
/-- The result at node n, column o: the updated node through the head. -/
def outRef (n : Fin 50000) (o : Fin 5) : EReal :=
  (∑ l : Fin 128, newNodesRef X E g Wne bne Wee bee Weu beu Wnu bnu rs rr SA RA n l * Wout (ix2 l o)) + bout (ix1 o)

/-! ## The kernel's form -/

/-- The edge encoder folded into the first 128 rows of Weu. -/
def wcomb (k : Fin 16) (l : Fin 128) : EReal := ∑ j : Fin 128, Wee (ix2 k j) * Weu (ix2 (blk 0 (by omega) j) l)
/-- The edge update's constant row: the encoder's bias through the first block, the update's bias, the globals through the tail. -/
def bcomb (l : Fin 128) : EReal :=
  ((∑ j : Fin 128, bee (ix1 j) * Weu (ix2 (blk 0 (by omega) j) l)) + beu (ix1 l)) + ∑ k : Fin 16, g (ix2 0 k) * Weu (ix2 (tail16 k) l)
/-- The node update's constant row: its bias plus the globals through the tail of Wnu. -/
def bnuc (l : Fin 128) : EReal := bnu (ix1 l) + ∑ k : Fin 16, g (ix2 0 k) * Wnu (ix2 (tail16 k) l)
/-- The encoded node n through the block of W that starts at row o. -/
def proj (W : Mat 400 128) (o : Nat) (ho : o + 128 ≤ 400) (n : Fin 50000) (l : Fin 128) : EReal :=
  ∑ j : Fin 128, enc X Wne bne n j * W (ix2 (blk o ho j) l)
/-- The updated edge e, column l, the kernel's way. -/
def newEdgesKer (e : Fin 600000) (l : Fin 128) : EReal :=
  (((∑ k : Fin 16, E (ix2 e k) * wcomb Wee Weu k l) + proj X Wne bne Weu 128 (by omega) (rs e) l)
      + proj X Wne bne Weu 256 (by omega) (rr e) l)
    + bcomb g bee Weu beu l
/-- The kernel's updated edges as one array. -/
def edgesArrKer : Mat 600000 128 := fun i => newEdgesKer X E g Wne bne Wee bee Weu beu rs rr (i 0) (i 1)
/-- The updated node n, column l, the kernel's way. -/
def newNodesKer (n : Fin 50000) (l : Fin 128) : EReal :=
  ((proj X Wne bne Wnu 0 (by omega) n l
      + ∑ j : Fin 128, SA (edgesArrKer X E g Wne bne Wee bee Weu beu rs rr) (ix2 n j) * Wnu (ix2 (blk 128 (by omega) j) l))
      + ∑ j : Fin 128, RA (edgesArrKer X E g Wne bne Wee bee Weu beu rs rr) (ix2 n j) * Wnu (ix2 (blk 256 (by omega) j) l))
    + bnuc g Wnu bnu l
/-- The kernel's result at node n, column o (the head's first five columns). -/
def outKer (n : Fin 50000) (o : Fin 5) : EReal :=
  (∑ l : Fin 128, newNodesKer X E g Wne bne Wee bee Weu beu Wnu bnu rs rr SA RA n l * Wout (ix2 l o)) + bout (ix1 o)

end

end GraphNet

end
-- ==== Proof.KArgs.lean ====
/-
  The kernel program's argument arrays on a core, named as the graph network's inputs: node and edge features, the
  globals' row, the sender and receiver index vectors, and the weights and biases of the two encoders, the two
  updates and the head.
-/
import proofs.«426872_j55293408968886_3_alg».proof.Proof.Gen.KernelIdeal.Frame
import proofs.«426872_j55293408968886_3_alg».proof.Proof.Spec

noncomputable section

namespace Cert.KernelIdeal.Hand

open Cert.KernelIdeal Cert.KernelIdeal.Gen
open Idealize.ShloMosaic Idealize.ShloMosaic.TcCoe Idealize.SL.Sem Idealize.ShloMosaic.ValueIdx
open GraphNet (Mat Row)

variable (m : (ℓ : Loc nD τ sig) → Buf (Elt Ideal) ℓ)

/-- Node features. -/
abbrev aX (c : Dev nD) : Mat 50000 128 := m ((c : Thread nD τ).loc main_arg0)
/-- Edge features. -/
abbrev aE (c : Dev nD) : Mat 600000 16 := m ((c : Thread nD τ).loc main_arg1)
/-- The globals' one row. -/
abbrev aG (c : Dev nD) : Mat 1 16 := m ((c : Thread nD τ).loc main_arg2)
/-- Each edge's sender. -/
abbrev aSnd (c : Dev nD) : IVec ⟨1, ![600000]⟩ 32 := m ((c : Thread nD τ).loc main_arg3)
/-- Each edge's receiver. -/
abbrev aRcv (c : Dev nD) : IVec ⟨1, ![600000]⟩ 32 := m ((c : Thread nD τ).loc main_arg4)
abbrev aWne (c : Dev nD) : Mat 128 128 := m ((c : Thread nD τ).loc main_arg5)
abbrev aBne (c : Dev nD) : Row 128 := m ((c : Thread nD τ).loc main_arg6)
abbrev aWee (c : Dev nD) : Mat 16 128 := m ((c : Thread nD τ).loc main_arg7)
abbrev aBee (c : Dev nD) : Row 128 := m ((c : Thread nD τ).loc main_arg8)
abbrev aWeu (c : Dev nD) : Mat 400 128 := m ((c : Thread nD τ).loc main_arg9)
abbrev aBeu (c : Dev nD) : Row 128 := m ((c : Thread nD τ).loc main_arg10)
abbrev aWnu (c : Dev nD) : Mat 400 128 := m ((c : Thread nD τ).loc main_arg11)
abbrev aBnu (c : Dev nD) : Row 128 := m ((c : Thread nD τ).loc main_arg12)
abbrev aWout (c : Dev nD) : Mat 128 5 := m ((c : Thread nD τ).loc main_arg13)
abbrev aBout (c : Dev nD) : Row 5 := m ((c : Thread nD τ).loc main_arg14)

end Cert.KernelIdeal.Hand

end
-- ==== Proof.Ops.lean ====
/-
  The two index-driven operations both programs apply, named once so that the two sides meet in one term.

  takeIndex a is the index column a row gather is given: the index vector a with a negative entry moved up by the
  table's 50000 rows, laid as a 600000 × 1 column.  A gather of whole rows of a 50000 × 128 table at that column
  reads, for result row e, one table row, rowsOf a e (the start index clamped into the table, as the gather
  clamps it).  segSum a u is the segment sum of the 600000 × 128 array u by the index vector a into 50000 rows:
  a scatter-add of u's rows into zeros at the rows a names.
-/
import proofs.«426872_j55293408968886_3_alg».proof.Proof.Spec
import Idealize.ShloMosaic.PureOps

noncomputable section

namespace GraphNet

open Idealize.ShloMosaic Idealize.ShloMosaic.ValueIdx

abbrev S0 : Shape := ⟨0, ![]⟩
abbrev SE1 : Shape := ⟨1, ![600000]⟩
abbrev SEc : Shape := ⟨2, ![600000, 1]⟩
abbrev SEL : Shape := ⟨2, ![600000, 128]⟩
abbrev SNL : Shape := ⟨2, ![50000, 128]⟩

theorem bcast_S0_SE1 : S0.BroadcastsInDim SE1 (![] : Fin 0 → Fin SE1.rank) := by decide
theorem bcast_SE1_SEc : SE1.BroadcastsInDim SEc (![0] : Fin 1 → Fin SEc.rank) := by decide
theorem bcast_S0_SNL : S0.BroadcastsInDim SNL (![] : Fin 0 → Fin SNL.rank) := by decide
theorem rowGather_wf : GatherDims.WF SNL SEc SEL [1] [0] [] [0] [] 1 ![1, 128] := by decide
theorem rowScatter_wf : ScatterDims.WF SNL SEc SEL [1] [0] [0] 1 := by decide

/-- The index column of a row gather: negative entries wrapped by 50000, as a 600000 × 1 column. -/
def takeIndex (a : IVec SE1 32) : IVec SEc 32 :=
  broadcastInDim SEc ![0] bcast_SE1_SEc
    (select (cmpi .slt a (broadcastInDim SE1 ![] bcast_S0_SE1 (constantI S0 32 0#32)))
      (addi a (broadcastInDim SE1 ![] bcast_S0_SE1 (constantI S0 32 50000#32))) a)

/-- The dimension numbers of a gather of whole rows: one start index per result row, on the table's row axis. -/
def rowDims : GatherDims SNL SEc SEL where
  offsetDims := [1]
  collapsedSliceDims := [0]
  operandBatchingDims := []
  startIndicesBatchingDims := []
  startIndexMap := [0]
  indexVectorDim := 1
  sliceSizes := ![1, 128]
  wf := rowGather_wf

/-- The table row a row gather at the index column idx reads for result row e. -/
def gatherRow (idx : IVec SEc 32) (e : Fin 600000) : Fin 50000 :=
  rowDims.operandIdx (ix2 e (0 : Fin 128)) idx 0

/-- The table row edge e reads under the index vector a. -/
def rowsOf (a : IVec SE1 32) (e : Fin 600000) : Fin 50000 := gatherRow (takeIndex a) e

/-- The dimension numbers of a scatter of whole rows. -/
def rowScatterDims : ScatterDims SNL SEc SEL where
  updateWindowDims := [1]
  insertedWindowDims := [0]
  scatterDimsToOperandDims := [0]
  indexVectorDim := 1
  wf := rowScatter_wf

/-- The segment sum of u's 600000 rows by the index vector a, into 50000 rows that start at zero. -/
def segSum (a : IVec SE1 32) (u : Mat 600000 128) : Mat 50000 128 :=
  Host.scatterAdd (F := Ideal) rowScatterDims (broadcastInDim SNL ![] bcast_S0_SNL (constant (F := Ideal) S0 .f32 0x00000000#32))
    (broadcastInDim SEc ![0] bcast_SE1_SEc a) u

end GraphNet

end
-- ==== Proof.KHost0.lean ====
/-
  The host operations before the first call, read at an index: the row blocks cut out of the two 400 × 128
  update weights, the edge encoder folded into the first block of the edge update, the two constant rows, and the
  encoder bias as a row.
-/
import proofs.«426872_j55293408968886_3_alg».proof.Proof.KArgs
import proofs.«426872_j55293408968886_3_alg».proof.Proof.Ops
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open GraphNet (Mat Row blk tail16)

variable (m : (ℓ : Loc nD τ sig) → Buf (Elt Ideal) ℓ) (ρ : Dev nD → PrngReg)

/-! ## The host operations at an index -/

/-- The 16 × 128 by 128 × 128 product: the left operand's row is the result's row. -/
theorem lhs_w_0 (i : S16x128.Idx) (q : dot_S16x128_S128x128_S16x128_1_0_0_1_n_n.contr.Idx) :
    (dot_S16x128_S128x128_S16x128_1_0_0_1_n_n.lhsIdx i q 0).val = (i 0).val := by
  unfold DotDims.lhsIdx
  rw [dif_neg (show ¬(0 : Fin S16x128.rank) ∈ dot_S16x128_S128x128_S16x128_1_0_0_1_n_n.lhsBatch by decide), dif_pos (show (0 : Fin S16x128.rank) ∈ dot_S16x128_S128x128_S16x128_1_0_0_1_n_n.lhsNonContracting by decide)]
  rfl
/-- The 16 × 128 by 128 × 128 product: the left operand's column is the contraction coordinate. -/
theorem lhs_w_1 (i : S16x128.Idx) (q : dot_S16x128_S128x128_S16x128_1_0_0_1_n_n.contr.Idx) :
    (dot_S16x128_S128x128_S16x128_1_0_0_1_n_n.lhsIdx i q 1).val = (q ⟨0, by decide⟩).val :=
  dot_S16x128_S128x128_S16x128_1_0_0_1_n_n.lhsIdx_val_of_single rfl i q
/-- The 16 × 128 by 128 × 128 product: the right operand's row is the contraction coordinate. -/
theorem rhs_w_0 (i : S16x128.Idx) (q : dot_S16x128_S128x128_S16x128_1_0_0_1_n_n.contr.Idx) :
    (dot_S16x128_S128x128_S16x128_1_0_0_1_n_n.rhsIdx i q 0).val = (q ⟨0, by decide⟩).val :=
  dot_S16x128_S128x128_S16x128_1_0_0_1_n_n.rhsIdx_val_of_single rfl i q
/-- The 16 × 128 by 128 × 128 product: the right operand's column is the result's column. -/
theorem rhs_w_1 (i : S16x128.Idx) (q : dot_S16x128_S128x128_S16x128_1_0_0_1_n_n.contr.Idx) :
    (dot_S16x128_S128x128_S16x128_1_0_0_1_n_n.rhsIdx i q 1).val = (i 1).val := by
  unfold DotDims.rhsIdx
  rw [dif_neg (show ¬(1 : Fin S128x128.rank) ∈ dot_S16x128_S128x128_S16x128_1_0_0_1_n_n.rhsBatch by decide), dif_pos (show (1 : Fin S128x128.rank) ∈ dot_S16x128_S128x128_S16x128_1_0_0_1_n_n.rhsNonContracting by decide)]
  rfl
/-- The 16 × 128 by 128 × 128 product read at an index: the sum over the contracted axis of the products. -/
theorem dot_w_apply (x : FVec Ideal S16x128 .f32) (y : FVec Ideal S128x128 .f32) (a : Fin 16) (b : Fin 128) :
    Host.dotGeneral (F := Ideal) dot_S16x128_S128x128_S16x128_1_0_0_1_n_n none x y (ix2 a b) = ∑ k : Fin 128, x (ix2 a k) * y (ix2 k b) := by
  simp only [Host.dotGeneral]
  rw [Ideal.dotGeneral_apply, ← Equiv.sum_comp (ValueIdx.contrEquiv1 dot_S16x128_S128x128_S16x128_1_0_0_1_n_n 128 rfl rfl).symm]
  refine Finset.sum_congr rfl fun k _ => ?_
  have hk := ValueIdx.contrEquiv1_symm_val dot_S16x128_S128x128_S16x128_1_0_0_1_n_n 128 rfl rfl k
  have el : dot_S16x128_S128x128_S16x128_1_0_0_1_n_n.lhsIdx (ix2 a b) ((ValueIdx.contrEquiv1 dot_S16x128_S128x128_S16x128_1_0_0_1_n_n 128 rfl rfl).symm k) = ix2 a k := funext fun d => Fin.ext (by
    match d with
    | ⟨0, _⟩ => exact lhs_w_0 _ _
    | ⟨1, _⟩ => exact (lhs_w_1 _ _).trans hk)
  have er : dot_S16x128_S128x128_S16x128_1_0_0_1_n_n.rhsIdx (ix2 a b) ((ValueIdx.contrEquiv1 dot_S16x128_S128x128_S16x128_1_0_0_1_n_n 128 rfl rfl).symm k) = ix2 k b := funext fun d => Fin.ext (by
    match d with
    | ⟨0, _⟩ => exact (rhs_w_0 _ _).trans hk
    | ⟨1, _⟩ => exact rhs_w_1 _ _)
  rw [el, er]

/-- The 1 × 128 by 128 × 128 product: the left operand's row is the result's row. -/
theorem lhs_b_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
/-- The 1 × 128 by 128 × 128 product: the left operand's column is the contraction coordinate. -/
theorem lhs_b_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
/-- The 1 × 128 by 128 × 128 product: the right operand's row is the contraction coordinate. -/
theorem rhs_b_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
/-- The 1 × 128 by 128 × 128 product: the right operand's column is the result's column. -/
theorem rhs_b_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl
/-- The 1 × 128 by 128 × 128 product read at an index: the sum over the contracted axis of the products. -/
theorem dot_b_apply (x : FVec Ideal S1x128 .f32) (y : FVec Ideal S128x128 .f32) (a : Fin 1) (b : Fin 128) :
    Host.dotGeneral (F := Ideal) dot_S1x128_S128x128_S1x128_1_0_0_1_n_n none x y (ix2 a b) = ∑ k : Fin 128, x (ix2 a k) * y (ix2 k b) := by
  simp only [Host.dotGeneral]
  rw [Ideal.dotGeneral_apply, ← Equiv.sum_comp (ValueIdx.contrEquiv1 dot_S1x128_S128x128_S1x128_1_0_0_1_n_n 128 rfl rfl).symm]
  refine Finset.sum_congr rfl fun k _ => ?_
  have hk := ValueIdx.contrEquiv1_symm_val dot_S1x128_S128x128_S1x128_1_0_0_1_n_n 128 rfl rfl k
  have el : dot_S1x128_S128x128_S1x128_1_0_0_1_n_n.lhsIdx (ix2 a b) ((ValueIdx.contrEquiv1 dot_S1x128_S128x128_S1x128_1_0_0_1_n_n 128 rfl rfl).symm k) = ix2 a k := funext fun d => Fin.ext (by
    match d with
    | ⟨0, _⟩ => exact lhs_b_0 _ _
    | ⟨1, _⟩ => exact (lhs_b_1 _ _).trans hk)
  have er : dot_S1x128_S128x128_S1x128_1_0_0_1_n_n.rhsIdx (ix2 a b) ((ValueIdx.contrEquiv1 dot_S1x128_S128x128_S1x128_1_0_0_1_n_n 128 rfl rfl).symm k) = ix2 k b := funext fun d => Fin.ext (by
    match d with
    | ⟨0, _⟩ => exact (rhs_b_0 _ _).trans hk
    | ⟨1, _⟩ => exact rhs_b_1 _ _)
  rw [el, er]

/-- The 1 × 16 by 16 × 128 product: the left operand's row is the result's row. -/
theorem lhs_g_0 (i : S1x128.Idx) (q : dot_S1x16_S16x128_S1x128_1_0_0_1_n_n.contr.Idx) :
    (dot_S1x16_S16x128_S1x128_1_0_0_1_n_n.lhsIdx i q 0).val = (i 0).val := by
  unfold DotDims.lhsIdx
  rw [dif_neg (show ¬(0 : Fin S1x16.rank) ∈ dot_S1x16_S16x128_S1x128_1_0_0_1_n_n.lhsBatch by decide), dif_pos (show (0 : Fin S1x16.rank) ∈ dot_S1x16_S16x128_S1x128_1_0_0_1_n_n.lhsNonContracting by decide)]
  rfl
/-- The 1 × 16 by 16 × 128 product: the left operand's column is the contraction coordinate. -/
theorem lhs_g_1 (i : S1x128.Idx) (q : dot_S1x16_S16x128_S1x128_1_0_0_1_n_n.contr.Idx) :
    (dot_S1x16_S16x128_S1x128_1_0_0_1_n_n.lhsIdx i q 1).val = (q ⟨0, by decide⟩).val :=
  dot_S1x16_S16x128_S1x128_1_0_0_1_n_n.lhsIdx_val_of_single rfl i q
/-- The 1 × 16 by 16 × 128 product: the right operand's row is the contraction coordinate. -/
theorem rhs_g_0 (i : S1x128.Idx) (q : dot_S1x16_S16x128_S1x128_1_0_0_1_n_n.contr.Idx) :
    (dot_S1x16_S16x128_S1x128_1_0_0_1_n_n.rhsIdx i q 0).val = (q ⟨0, by decide⟩).val :=
  dot_S1x16_S16x128_S1x128_1_0_0_1_n_n.rhsIdx_val_of_single rfl i q
/-- The 1 × 16 by 16 × 128 product: the right operand's column is the result's column. -/
theorem rhs_g_1 (i : S1x128.Idx) (q : dot_S1x16_S16x128_S1x128_1_0_0_1_n_n.contr.Idx) :
    (dot_S1x16_S16x128_S1x128_1_0_0_1_n_n.rhsIdx i q 1).val = (i 1).val := by
  unfold DotDims.rhsIdx
  rw [dif_neg (show ¬(1 : Fin S16x128.rank) ∈ dot_S1x16_S16x128_S1x128_1_0_0_1_n_n.rhsBatch by decide), dif_pos (show (1 : Fin S16x128.rank) ∈ dot_S1x16_S16x128_S1x128_1_0_0_1_n_n.rhsNonContracting by decide)]
  rfl
/-- The 1 × 16 by 16 × 128 product read at an index: the sum over the contracted axis of the products. -/
theorem dot_g_apply (x : FVec Ideal S1x16 .f32) (y : FVec Ideal S16x128 .f32) (a : Fin 1) (b : Fin 128) :
    Host.dotGeneral (F := Ideal) dot_S1x16_S16x128_S1x128_1_0_0_1_n_n none x y (ix2 a b) = ∑ k : Fin 16, x (ix2 a k) * y (ix2 k b) := by
  simp only [Host.dotGeneral]
  rw [Ideal.dotGeneral_apply, ← Equiv.sum_comp (ValueIdx.contrEquiv1 dot_S1x16_S16x128_S1x128_1_0_0_1_n_n 16 rfl rfl).symm]
  refine Finset.sum_congr rfl fun k _ => ?_
  have hk := ValueIdx.contrEquiv1_symm_val dot_S1x16_S16x128_S1x128_1_0_0_1_n_n 16 rfl rfl k
  have el : dot_S1x16_S16x128_S1x128_1_0_0_1_n_n.lhsIdx (ix2 a b) ((ValueIdx.contrEquiv1 dot_S1x16_S16x128_S1x128_1_0_0_1_n_n 16 rfl rfl).symm k) = ix2 a k := funext fun d => Fin.ext (by
    match d with
    | ⟨0, _⟩ => exact lhs_g_0 _ _
    | ⟨1, _⟩ => exact (lhs_g_1 _ _).trans hk)
  have er : dot_S1x16_S16x128_S1x128_1_0_0_1_n_n.rhsIdx (ix2 a b) ((ValueIdx.contrEquiv1 dot_S1x16_S16x128_S1x128_1_0_0_1_n_n 16 rfl rfl).symm k) = ix2 k b := funext fun d => Fin.ext (by
    match d with
    | ⟨0, _⟩ => exact (rhs_g_0 _ _).trans hk
    | ⟨1, _⟩ => exact rhs_g_1 _ _)
  rw [el, er]

/-- A block of rows of a 400 × 128 array that starts at row o, read at an index: the array at row o + p. -/
theorem slice_rows_apply {R : Nat} (o : Nat) (W : Mat 400 128) (h : S400x128.Slices ![o, 0] ⟨2, ![R, 128]⟩)
    (p : Fin R) (q : Fin 128) (r : Fin 400) (hr : r.val = o + p.val) :
    extractStridedSlice (α := EReal) ⟨2, ![R, 128]⟩ ![o, 0] W h (ix2 p q) = W (ix2 r q) := by
  refine extractStridedSlice_apply _ _ _ _ _ fun a => ?_
  match a with
  | ⟨0, _⟩ => exact hr
  | ⟨1, _⟩ => show q.val = 0 + q.val; omega

/-! ## What the stretch leaves in each buffer, as one array -/

/-- The node encoder's bias as a row, as one array. -/
theorem arr_v18 (c : Dev nD) : (W1 m ρ c (Proc.devRef .tc main_v18) : Mat 1 128)
    = shapeCast (α := EReal) S1x128 (aBne m c) shapeCasts_S128_S1x128 := by
  show StableHlo.after hostOps0 _ _ = _
  after_results
  rfl

/-- Rows 128..255 of the edge update's weight, as one array. -/
theorem arr_v1 (c : Dev nD) : (W1 m ρ c (Proc.devRef .tc main_v1) : Mat 128 128)
    = extractStridedSlice (α := EReal) S128x128 ![128, 0] (aWeu m c) slices_S400x128_S128x128_128_0 := by
  show StableHlo.after hostOps0 _ _ = _
  after_results

/-- Rows 256..383 of the edge update's weight, as one array. -/
theorem arr_v2 (c : Dev nD) : (W1 m ρ c (Proc.devRef .tc main_v2) : Mat 128 128)
    = extractStridedSlice (α := EReal) S128x128 ![256, 0] (aWeu m c) slices_S400x128_S128x128_256_0 := by
  show StableHlo.after hostOps0 _ _ = _
  after_results

/-- Rows 0..127 of the node update's weight, as one array. -/
theorem arr_v4 (c : Dev nD) : (W1 m ρ c (Proc.devRef .tc main_v4) : Mat 128 128)
    = extractStridedSlice (α := EReal) S128x128 ![0, 0] (aWnu m c) slices_S400x128_S128x128_0_0 := by
  show StableHlo.after hostOps0 _ _ = _
  after_results

/-- Rows 128..255 of the node update's weight, as one array. -/
theorem arr_v5 (c : Dev nD) : (W1 m ρ c (Proc.devRef .tc main_v5) : Mat 128 128)
    = extractStridedSlice (α := EReal) S128x128 ![128, 0] (aWnu m c) slices_S400x128_S128x128_128_0 := by
  show StableHlo.after hostOps0 _ _ = _
  after_results

/-- Rows 256..383 of the node update's weight, as one array. -/
theorem arr_v6 (c : Dev nD) : (W1 m ρ c (Proc.devRef .tc main_v6) : Mat 128 128)
    = extractStridedSlice (α := EReal) S128x128 ![256, 0] (aWnu m c) slices_S400x128_S128x128_256_0 := by
  show StableHlo.after hostOps0 _ _ = _
  after_results

/-- The edge encoder's weight through the first row block of the edge update's weight, as one array. -/
theorem arr_v8 (c : Dev nD) : (W1 m ρ c (Proc.devRef .tc main_v8) : Mat 16 128)
    = Host.dotGeneral (F := Ideal) (φ₁ := .f32) (φ₂ := .f32) dot_S16x128_S128x128_S16x128_1_0_0_1_n_n none (aWee m c)
        (extractStridedSlice (α := EReal) S128x128 ![0, 0] (aWeu m c) slices_S400x128_S128x128_0_0) := by
  show StableHlo.after hostOps0 _ _ = _
  after_results

/-- The node update's constant row, as one array. -/
theorem arr_v17 (c : Dev nD) : (W1 m ρ c (Proc.devRef .tc main_v17) : Mat 1 128)
    = addf (F := Ideal) (φ := .f32) (shapeCast (α := EReal) S1x128 (aBnu m c) shapeCasts_S128_S1x128)
            (Host.dotGeneral (F := Ideal) (φ₁ := .f32) (φ₂ := .f32) dot_S1x16_S16x128_S1x128_1_0_0_1_n_n none (aG m c)
              (extractStridedSlice (α := EReal) S16x128 ![384, 0] (aWnu m c) slices_S400x128_S16x128_384_0)) := by
  show StableHlo.after hostOps0 _ _ = _
  after_results
  rfl

/-- The edge update's constant row, as one array. -/
theorem arr_v14 (c : Dev nD) : (W1 m ρ c (Proc.devRef .tc main_v14) : Mat 1 128)
    = addf (F := Ideal) (φ := .f32) (addf (F := Ideal) (φ := .f32) (Host.dotGeneral (F := Ideal) (φ₁ := .f32) (φ₂ := .f32) dot_S1x128_S128x128_S1x128_1_0_0_1_n_n none
                    (shapeCast (α := EReal) S1x128 (aBee m c) shapeCasts_S128_S1x128)
                    (extractStridedSlice (α := EReal) S128x128 ![0, 0] (aWeu m c) slices_S400x128_S128x128_0_0))
                  (shapeCast (α := EReal) S1x128 (aBeu m c) shapeCasts_S128_S1x128))
            (Host.dotGeneral (F := Ideal) (φ₁ := .f32) (φ₂ := .f32) dot_S1x16_S16x128_S1x128_1_0_0_1_n_n none (aG m c)
              (extractStridedSlice (α := EReal) S16x128 ![384, 0] (aWeu m c) slices_S400x128_S16x128_384_0)) := by
  show StableHlo.after hostOps0 _ _ = _
  after_results_simp
  rfl

/-! ## The same, read at an index -/

/-- The node encoder's bias as a 1 × 128 row. -/
theorem W1_v18 (c : Dev nD) (q : Fin 128) :
    (W1 m ρ c (Proc.devRef .tc main_v18) : Mat 1 128) (ix2 (0 : Fin 1) q) = aBne m c (ix1 q) := by
  rw [arr_v18]
  exact shapeCast_a_1a_apply _ _ 0 q
/-- Rows 128..255 of the edge update's weight. -/
theorem W1_v1 (c : Dev nD) (p q : Fin 128) :
    (W1 m ρ c (Proc.devRef .tc main_v1) : Mat 128 128) (ix2 p q) = aWeu m c (ix2 (blk 128 (by omega) p) q) := by
  rw [arr_v1]
  exact slice_rows_apply 128 _ _ p q _ rfl
/-- Rows 256..383 of the edge update's weight. -/
theorem W1_v2 (c : Dev nD) (p q : Fin 128) :
    (W1 m ρ c (Proc.devRef .tc main_v2) : Mat 128 128) (ix2 p q) = aWeu m c (ix2 (blk 256 (by omega) p) q) := by
  rw [arr_v2]
  exact slice_rows_apply 256 _ _ p q _ rfl
/-- Rows 0..127 of the node update's weight. -/
theorem W1_v4 (c : Dev nD) (p q : Fin 128) :
    (W1 m ρ c (Proc.devRef .tc main_v4) : Mat 128 128) (ix2 p q) = aWnu m c (ix2 (blk 0 (by omega) p) q) := by
  rw [arr_v4]
  exact slice_rows_apply 0 _ _ p q _ rfl
/-- Rows 128..255 of the node update's weight. -/
theorem W1_v5 (c : Dev nD) (p q : Fin 128) :
    (W1 m ρ c (Proc.devRef .tc main_v5) : Mat 128 128) (ix2 p q) = aWnu m c (ix2 (blk 128 (by omega) p) q) := by
  rw [arr_v5]
  exact slice_rows_apply 128 _ _ p q _ rfl
/-- Rows 256..383 of the node update's weight. -/
theorem W1_v6 (c : Dev nD) (p q : Fin 128) :
    (W1 m ρ c (Proc.devRef .tc main_v6) : Mat 128 128) (ix2 p q) = aWnu m c (ix2 (blk 256 (by omega) p) q) := by
  rw [arr_v6]
  exact slice_rows_apply 256 _ _ p q _ rfl
/-- The edge encoder folded into the first block of the edge update. -/
theorem W1_v8 (c : Dev nD) (k : Fin 16) (l : Fin 128) :
    (W1 m ρ c (Proc.devRef .tc main_v8) : Mat 16 128) (ix2 k l) = GraphNet.wcomb (aWee m c) (aWeu m c) k l := by
  rw [arr_v8, dot_w_apply]
  unfold GraphNet.wcomb
  show (∑ j : Fin 128, _ : EReal) = ∑ j : Fin 128, _
  refine Finset.sum_congr rfl fun j _ => ?_
  congr 1
  exact slice_rows_apply 0 _ _ j l _ rfl
/-- The edge update's constant row. -/
theorem W1_v14 (c : Dev nD) (l : Fin 128) :
    (W1 m ρ c (Proc.devRef .tc main_v14) : Mat 1 128) (ix2 (0 : Fin 1) l)
      = GraphNet.bcomb (aG m c) (aBee m c) (aWeu m c) (aBeu m c) l := by
  rw [arr_v14, addf_apply, addf_apply, dot_b_apply, dot_g_apply]
  unfold GraphNet.bcomb
  congr 1
  · congr 1
    · refine Finset.sum_congr rfl fun j _ => ?_
      congr 1
      · exact shapeCast_a_1a_apply _ _ 0 j
      · exact slice_rows_apply 0 _ _ j l _ rfl
    · exact shapeCast_a_1a_apply _ _ 0 l
  · refine Finset.sum_congr rfl fun k _ => ?_
    congr 1
    exact slice_rows_apply 384 _ _ k l _ rfl
/-- The node update's constant row. -/
theorem W1_v17 (c : Dev nD) (l : Fin 128) :
    (W1 m ρ c (Proc.devRef .tc main_v17) : Mat 1 128) (ix2 (0 : Fin 1) l)
      = GraphNet.bnuc (aG m c) (aWnu m c) (aBnu m c) l := by
  rw [arr_v17, addf_apply, dot_g_apply]
  unfold GraphNet.bnuc
  congr 1
  · exact shapeCast_a_1a_apply _ _ 0 l
  · refine Finset.sum_congr rfl fun k _ => ?_
    congr 1
    exact slice_rows_apply 384 _ _ k l _ rfl
/-- The host operations before the first call write none of the arguments the calls read. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

end Cert.KernelIdeal.Hand

end
-- ==== Proof.KRegion0.lean ====
/-
  The node-projection call: what its three result arrays hold when the call ends, for any buffer contents V the
  call is entered with.  Each grid point takes 5000 node rows; the body encodes them (features times the encoder
  weight, plus the bias row) and multiplies the encoded rows by one 128 × 128 block per result.  The ten points'
  blocks tile the 50000 rows, so each result array is one function of the arrays the call reads.
-/
import proofs.«426872_j55293408968886_3_alg».proof.Proof.KArgs
import proofs.«426872_j55293408968886_3_alg».proof.Proof.Ops
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open GraphNet (Mat Row blk tail16)

variable (V : (c : Dev nD) → (b : Ref sig .tc) → Buf (Elt Ideal) ((c : Thread nD τ).loc b))

/-- The arrays the call reads, as it finds them: node features, encoder weight, encoder bias row, three blocks. -/
abbrev r0X (c : Dev nD) : Mat 50000 128 := V c main_arg0
abbrev r0Wne (c : Dev nD) : Mat 128 128 := V c main_arg5
abbrev r0Bne (c : Dev nD) : Mat 1 128 := V c main_v18
abbrev r0Ws (c : Dev nD) : Mat 128 128 := V c main_v1
abbrev r0Wr (c : Dev nD) : Mat 128 128 := V c main_v2
abbrev r0Wn (c : Dev nD) : Mat 128 128 := V c main_v4
/-- The three result arrays when the call ends. -/
abbrev r0Out6 (c : Dev nD) : Mat 50000 128 := (dat0 (F := Ideal) V c).arrAt 6 cfg0.N
abbrev r0Out7 (c : Dev nD) : Mat 50000 128 := (dat0 (F := Ideal) V c).arrAt 7 cfg0.N
abbrev r0Out8 (c : Dev nD) : Mat 50000 128 := (dat0 (F := Ideal) V c).arrAt 8 cfg0.N

/-- The 5000 × 128 by 128 × 128 product's left operand index, axis 0: the result's row. -/
theorem dot0_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its left operand index, axis 1: the contraction coordinate. -/
theorem dot0_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Its right operand index, axis 0: the contraction coordinate. -/
theorem dot0_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its right operand index, axis 1: the result's column. -/
theorem dot0_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product into the zero accumulator, at row p and column q: the sum over the inner index. -/
theorem matmul0_apply (x : FVec Ideal S5000x128 .f32) (w : FVec Ideal S128x128 .f32) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot0_lhs_0 _ _
    | ⟨1, _⟩ => exact (dot0_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot0_rhs_0 _ _).trans hk
    | ⟨1, _⟩ => exact dot0_rhs_1 _ _)
  rw [el, er]

/-- The encoded rows (features times the encoder weight plus the bias row) at row p and column q. -/
theorem k0_pay1_apply (x0 : Vec Ideal S5000x128 .f32) (x1 : Vec Ideal S128x128 .f32) (x3 : Vec Ideal S1x128 .f32)
    (p : Fin 5000) (q : Fin 128) :
    k0_pay1 x0 x1 x3 (ix2 p q) = (∑ k : Fin 128, x0 (ix2 p k) * x1 (ix2 k q)) + x3 (ix2 (0 : Fin 1) q) := by
  unfold k0_pay1
  rw [shapeCast_self]
  refine (addf_apply _ _ _).trans ?_
  refine congrArg₂ (· + ·) (matmul0_apply x0 x1 p q) ?_
  exact broadcastTo_apply x3 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The sender-side payload at row p and column q: the encoded row times the block's column. -/
theorem k0_pay2_apply (x0 : Vec Ideal S5000x128 .f32) (x1 : Vec Ideal S128x128 .f32) (x3 : Vec Ideal S1x128 .f32)
    (x7 : Vec Ideal S128x128 .f32) (p : Fin 5000) (q : Fin 128) :
    k0_pay2 x0 x1 x3 x7 (ix2 p q)
      = ∑ j : Fin 128, ((∑ k : Fin 128, x0 (ix2 p k) * x1 (ix2 k j)) + x3 (ix2 (0 : Fin 1) j)) * x7 (ix2 j q) := by
  unfold k0_pay2
  rw [shapeCast_self]
  refine (matmul0_apply (k0_pay1 x0 x1 x3) x7 p q).trans ?_
  refine Finset.sum_congr rfl fun j _ => ?_
  rw [k0_pay1_apply]
/-- The receiver-side payload at row p and column q: the encoded row times the block's column. -/
theorem k0_pay3_apply (x0 : Vec Ideal S5000x128 .f32) (x1 : Vec Ideal S128x128 .f32) (x3 : Vec Ideal S1x128 .f32)
    (x11 : Vec Ideal S128x128 .f32) (p : Fin 5000) (q : Fin 128) :
    k0_pay3 x0 x1 x3 x11 (ix2 p q)
      = ∑ j : Fin 128, ((∑ k : Fin 128, x0 (ix2 p k) * x1 (ix2 k j)) + x3 (ix2 (0 : Fin 1) j)) * x11 (ix2 j q) := by
  unfold k0_pay3
  rw [shapeCast_self]
  refine (matmul0_apply (k0_pay1 x0 x1 x3) x11 p q).trans ?_
  refine Finset.sum_congr rfl fun j _ => ?_
  rw [k0_pay1_apply]
/-- The node's own payload at row p and column q: the encoded row times the block's column. -/
theorem k0_pay4_apply (x0 : Vec Ideal S5000x128 .f32) (x1 : Vec Ideal S128x128 .f32) (x3 : Vec Ideal S1x128 .f32)
    (x15 : Vec Ideal S128x128 .f32) (p : Fin 5000) (q : Fin 128) :
    k0_pay4 x0 x1 x3 x15 (ix2 p q)
      = ∑ j : Fin 128, ((∑ k : Fin 128, x0 (ix2 p k) * x1 (ix2 k j)) + x3 (ix2 (0 : Fin 1) j)) * x15 (ix2 j q) := by
  unfold k0_pay4
  rw [shapeCast_self]
  refine (matmul0_apply (k0_pay1 x0 x1 x3) x15 p q).trans ?_
  refine Finset.sum_congr rfl fun j _ => ?_
  rw [k0_pay1_apply]

/-- The zero offset vector is the constant zero. -/
theorem hz0 : (![0, 0] : Fin 2 → Nat) = fun _ => 0 := funext fun a => match a with
  | ⟨0, _⟩ => rfl
  | ⟨1, _⟩ => rfl

/-- The grid has ten points. -/
theorem cfg0_N : cfg0.N = 10 := by decide

/-- The row-blocked windows (the features and the three results) sit at block (t, 0) at point t. -/
theorem idx0_rows : ∀ t : Fin cfg0.N,
    win0_0.index t (0 : Fin 2) = t.val ∧ win0_0.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The resident windows (weights and the bias row) sit at block (0, 0) at every point. -/
theorem idx0_res : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The feature block of point t at (p, q) is the feature array at row 5000 t + p. -/
theorem iblk0_0_at (c : Dev nD) (t : Fin cfg0.N) (y : S5000x128.Idx) (i : S50000x128.Idx)
    (h0 : (i 0).val = t.val * 5000 + (y 0).val) (h1 : (i 1).val = (y 1).val) :
    (iblk0 (F := Ideal) V c 0 t : Vec Ideal S5000x128 .f32) y = r0X V c i := by
  obtain ⟨e0, e1, -⟩ := idx0_rows t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The encoder weight's block at every point is the whole weight. -/
theorem iblk0_1_at (c : Dev nD) (t : Fin cfg0.N) (y : S128x128.Idx) :
    (iblk0 (F := Ideal) V c 1 t : Vec Ideal S128x128 .f32) y = r0Wne V c y := by
  obtain ⟨e0, e1, -⟩ := idx0_res t
  unfold iblk0
  rw [View.read_apply]
  show V c main_arg5 _ = V c main_arg5 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias row's block at every point is the whole row. -/
theorem iblk0_2_at (c : Dev nD) (t : Fin cfg0.N) (y : S1x128.Idx) :
    (iblk0 (F := Ideal) V c 2 t : Vec Ideal S1x128 .f32) y = r0Bne V c y := by
  obtain ⟨-, -, e0, e1, -⟩ := idx0_res t
  unfold iblk0
  rw [View.read_apply]
  show V c main_v18 _ = V c main_v18 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The sender block's window at every point is the whole block. -/
theorem iblk0_3_at (c : Dev nD) (t : Fin cfg0.N) (y : S128x128.Idx) :
    (iblk0 (F := Ideal) V c 3 t : Vec Ideal S128x128 .f32) y = r0Ws V c y := by
  obtain ⟨-, -, -, -, e0, e1, -⟩ := idx0_res t
  unfold iblk0
  rw [View.read_apply]
  show V c main_v1 _ = V c main_v1 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The receiver block's window at every point is the whole block. -/
theorem iblk0_4_at (c : Dev nD) (t : Fin cfg0.N) (y : S128x128.Idx) :
    (iblk0 (F := Ideal) V c 4 t : Vec Ideal S128x128 .f32) y = r0Wr V c y := by
  obtain ⟨-, -, -, -, -, -, e0, e1, -⟩ := idx0_res t
  unfold iblk0
  rw [View.read_apply]
  show V c main_v2 _ = V c main_v2 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The node block's window at every point is the whole block. -/
theorem iblk0_5_at (c : Dev nD) (t : Fin cfg0.N) (y : S128x128.Idx) :
    (iblk0 (F := Ideal) V c 5 t : Vec Ideal S128x128 .f32) y = r0Wn V c y := by
  obtain ⟨-, -, -, -, -, -, -, -, e0, e1⟩ := idx0_res t
  unfold iblk0
  rw [View.read_apply]
  show V c main_v4 _ = V c main_v4 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The projection as a function of the index: the encoded row of node (i 0) times column (i 1) of a 128 × 128 block. -/
abbrev r0Proj (X : Mat 50000 128) (Wne : Mat 128 128) (B : Mat 1 128) (W : Mat 128 128) : Mat 50000 128 :=
  fun i => ∑ j : Fin 128, ((∑ k : Fin 128, X (ix2 (i 0) k) * Wne (ix2 k j)) + B (ix2 (0 : Fin 1) j)) * W (ix2 j (i 1))

/-- The sender-side payload at any index of the block. -/
theorem k0_pay2_at (x0 : Vec Ideal S5000x128 .f32) (x1 : Vec Ideal S128x128 .f32) (x3 : Vec Ideal S1x128 .f32)
    (x7 : Vec Ideal S128x128 .f32) (y : S5000x128.Idx) :
    k0_pay2 x0 x1 x3 x7 y
      = ∑ j : Fin 128, ((∑ k : Fin 128, x0 (ix2 (y 0) k) * x1 (ix2 k j)) + x3 (ix2 (0 : Fin 1) j)) * x7 (ix2 j (y 1)) :=
  (congrArg (k0_pay2 x0 x1 x3 x7) (eq_ix2 y)).trans (k0_pay2_apply x0 x1 x3 x7 (y 0) (y 1))

/-- What point t writes back to result 0 is block t of the sender-side projection of the arrays the call reads. -/
theorem flushed0_6_eq (c : Dev nD) (t : Fin cfg0.N) :
    (dat0 (F := Ideal) V c).flushed 6 t
      = ((cfg0.win 6).blk t).view.read (Elt Ideal) (r0Proj (r0X V c) (r0Wne V c) (r0Bne V c) (r0Ws V c)) := by
  show (cfg0.win 6).cut (grid0.coords t) ((dat0 (F := Ideal) V c).after 6 t) = _
  rw [after0_6]
  unfold out0_6
  rw [View.canon_unit_zero hz0]
  simp only [View.ld_unit_zero (S := S5000x128) hz0, View.ld_unit_zero (S := S128x128) hz0, View.ld_unit_zero (S := S1x128) hz0]
  obtain ⟨-, -, e0, e1, -⟩ := idx0_rows t
  funext y
  show k0_pay2 (iblk0 V c 0 t) (iblk0 V c 1 t) (iblk0 V c 2 t) (iblk0 V c 3 t) y
    = r0Proj (r0X V c) (r0Wne V c) (r0Bne V c) (r0Ws V c) (((cfg0.win 6).blk t).view.emb y)
  refine (k0_pay2_at _ _ _ _ y).trans ?_
  have hr : ((((cfg0.win 6).blk t).view.emb y) 0).val = t.val * 5000 + (y 0).val := by
    show win0_6.index t (0 : Fin 2) * 5000 + 1 * (y 0).val = _; rw [e0]; omega
  have hc : ((((cfg0.win 6).blk t).view.emb y) 1).val = (y 1).val := by
    show win0_6.index t (1 : Fin 2) * 128 + 1 * (y 1).val = _; rw [e1]; omega
  refine Finset.sum_congr rfl fun j _ => ?_
  refine congrArg₂ (· * ·) (congrArg₂ (· + ·) (Finset.sum_congr rfl fun k _ => ?_) (iblk0_2_at V c t _)) ?_
  · exact congrArg₂ (· * ·) (iblk0_0_at V c t _ _ hr rfl) (iblk0_1_at V c t _)
  · exact (iblk0_3_at V c t _).trans (congrArg (r0Ws V c) (funext fun a => Fin.ext (match a with
      | ⟨0, _⟩ => rfl
      | ⟨1, _⟩ => hc.symm)))

/-- An index of result 0's array is in point t's block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19_0).slice (win0_6.rect t)).set ↔ _
  rw [View.set_slice_whole, Rect.mem_set_unit]
  exact Iff.rfl

/-- Every index of result 0's array is in the block of the point its row falls to. -/
theorem cover0_6_all (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [cfg0_N]; omega⟩, rfl⟩
  obtain ⟨-, -, e0, e1, -⟩ := idx0_rows t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- Result 0's array when the call ends is the sender-side projection. -/
theorem final0_6 (c : Dev nD) :
    r0Out6 V c = r0Proj (r0X V c) (r0Wne V c) (r0Bne V c) (r0Ws V c) :=
  (dat0 (F := Ideal) V c).arrAt_eq_of_cover 6 (r0Proj (r0X V c) (r0Wne V c) (r0Bne V c) (r0Ws V c))
    (fun t _ => flushed0_6_eq V c t) (cover0_6_all)

/-- The receiver-side payload at any index of the block. -/
theorem k0_pay3_at (x0 : Vec Ideal S5000x128 .f32) (x1 : Vec Ideal S128x128 .f32) (x3 : Vec Ideal S1x128 .f32)
    (x11 : Vec Ideal S128x128 .f32) (y : S5000x128.Idx) :
    k0_pay3 x0 x1 x3 x11 y
      = ∑ j : Fin 128, ((∑ k : Fin 128, x0 (ix2 (y 0) k) * x1 (ix2 k j)) + x3 (ix2 (0 : Fin 1) j)) * x11 (ix2 j (y 1)) :=
  (congrArg (k0_pay3 x0 x1 x3 x11) (eq_ix2 y)).trans (k0_pay3_apply x0 x1 x3 x11 (y 0) (y 1))

/-- What point t writes back to result 1 is block t of the receiver-side projection of the arrays the call reads. -/
theorem flushed0_7_eq (c : Dev nD) (t : Fin cfg0.N) :
    (dat0 (F := Ideal) V c).flushed 7 t
      = ((cfg0.win 7).blk t).view.read (Elt Ideal) (r0Proj (r0X V c) (r0Wne V c) (r0Bne V c) (r0Wr V c)) := by
  show (cfg0.win 7).cut (grid0.coords t) ((dat0 (F := Ideal) V c).after 7 t) = _
  rw [after0_7]
  unfold out0_7
  rw [View.canon_unit_zero hz0]
  simp only [View.ld_unit_zero (S := S5000x128) hz0, View.ld_unit_zero (S := S128x128) hz0, View.ld_unit_zero (S := S1x128) hz0]
  obtain ⟨-, -, -, -, e0, e1, -⟩ := idx0_rows t
  funext y
  show k0_pay3 (iblk0 V c 0 t) (iblk0 V c 1 t) (iblk0 V c 2 t) (iblk0 V c 4 t) y
    = r0Proj (r0X V c) (r0Wne V c) (r0Bne V c) (r0Wr V c) (((cfg0.win 7).blk t).view.emb y)
  refine (k0_pay3_at _ _ _ _ y).trans ?_
  have hr : ((((cfg0.win 7).blk t).view.emb y) 0).val = t.val * 5000 + (y 0).val := by
    show win0_7.index t (0 : Fin 2) * 5000 + 1 * (y 0).val = _; rw [e0]; omega
  have hc : ((((cfg0.win 7).blk t).view.emb y) 1).val = (y 1).val := by
    show win0_7.index t (1 : Fin 2) * 128 + 1 * (y 1).val = _; rw [e1]; omega
  refine Finset.sum_congr rfl fun j _ => ?_
  refine congrArg₂ (· * ·) (congrArg₂ (· + ·) (Finset.sum_congr rfl fun k _ => ?_) (iblk0_2_at V c t _)) ?_
  · exact congrArg₂ (· * ·) (iblk0_0_at V c t _ _ hr rfl) (iblk0_1_at V c t _)
  · exact (iblk0_4_at V c t _).trans (congrArg (r0Wr V c) (funext fun a => Fin.ext (match a with
      | ⟨0, _⟩ => rfl
      | ⟨1, _⟩ => hc.symm)))

/-- An index of result 1's array is in point t's block iff each coordinate is in the block's range on its axis. -/
theorem mem_blk0_7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v19_1).slice (win0_7.rect t)).set ↔ _
  rw [View.set_slice_whole, Rect.mem_set_unit]
  exact Iff.rfl

/-- Every index of result 1's array is in the block of the point its row falls to. -/
theorem cover0_7_all (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [cfg0_N]; omega⟩, rfl⟩
  obtain ⟨-, -, -, -, e0, e1, -⟩ := idx0_rows t
  refine ⟨t, flush0_7 t, ?_⟩
  rw [mem_blk0_7]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 128 ≤ (i 1).val ∧ (i 1).val < win0_7.index t (1 : Fin 2) * 128 + 128; rw [e1]; omega

/-- Result 1's array when the call ends is the receiver-side projection. -/
theorem final0_7 (c : Dev nD) :
    r0Out7 V c = r0Proj (r0X V c) (r0Wne V c) (r0Bne V c) (r0Wr V c) :=
  (dat0 (F := Ideal) V c).arrAt_eq_of_cover 7 (r0Proj (r0X V c) (r0Wne V c) (r0Bne V c) (r0Wr V c))
    (fun t _ => flushed0_7_eq V c t) (cover0_7_all)

/-- The node's own payload at any index of the block. -/
theorem k0_pay4_at (x0 : Vec Ideal S5000x128 .f32) (x1 : Vec Ideal S128x128 .f32) (x3 : Vec Ideal S1x128 .f32)
    (x15 : Vec Ideal S128x128 .f32) (y : S5000x128.Idx) :
    k0_pay4 x0 x1 x3 x15 y
      = ∑ j : Fin 128, ((∑ k : Fin 128, x0 (ix2 (y 0) k) * x1 (ix2 k j)) + x3 (ix2 (0 : Fin 1) j)) * x15 (ix2 j (y 1)) :=
  (congrArg (k0_pay4 x0 x1 x3 x15) (eq_ix2 y)).trans (k0_pay4_apply x0 x1 x3 x15 (y 0) (y 1))

/-- What point t writes back to result 2 is block t of the node's own projection of the arrays the call reads. -/
theorem flushed0_8_eq (c : Dev nD) (t : Fin cfg0.N) :
    (dat0 (F := Ideal) V c).flushed 8 t
      = ((cfg0.win 8).blk t).view.read (Elt Ideal) (r0Proj (r0X V c) (r0Wne V c) (r0Bne V c) (r0Wn V c)) := by
  show (cfg0.win 8).cut (grid0.coords t) ((dat0 (F := Ideal) V c).after 8 t) = _
  rw [after0_8]
  unfold out0_8
  rw [View.canon_unit_zero hz0]
  simp only [View.ld_unit_zero (S := S5000x128) hz0, View.ld_unit_zero (S := S128x128) hz0, View.ld_unit_zero (S := S1x128) hz0]
  obtain ⟨-, -, -, -, -, -, e0, e1⟩ := idx0_rows t
  funext y
  show k0_pay4 (iblk0 V c 0 t) (iblk0 V c 1 t) (iblk0 V c 2 t) (iblk0 V c 5 t) y
    = r0Proj (r0X V c) (r0Wne V c) (r0Bne V c) (r0Wn V c) (((cfg0.win 8).blk t).view.emb y)
  refine (k0_pay4_at _ _ _ _ y).trans ?_
  have hr : ((((cfg0.win 8).blk t).view.emb y) 0).val = t.val * 5000 + (y 0).val := by
    show win0_8.index t (0 : Fin 2) * 5000 + 1 * (y 0).val = _; rw [e0]; omega
  have hc : ((((cfg0.win 8).blk t).view.emb y) 1).val = (y 1).val := by
    show win0_8.index t (1 : Fin 2) * 128 + 1 * (y 1).val = _; rw [e1]; omega
  refine Finset.sum_congr rfl fun j _ => ?_
  refine congrArg₂ (· * ·) (congrArg₂ (· + ·) (Finset.sum_congr rfl fun k _ => ?_) (iblk0_2_at V c t _)) ?_
  · exact congrArg₂ (· * ·) (iblk0_0_at V c t _ _ hr rfl) (iblk0_1_at V c t _)
  · exact (iblk0_5_at V c t _).trans (congrArg (r0Wn V c) (funext fun a => Fin.ext (match a with
      | ⟨0, _⟩ => rfl
      | ⟨1, _⟩ => hc.symm)))

/-- An index of result 2's array is in point t's block iff each coordinate is in the block's range on its axis. -/
theorem mem_blk0_8 (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v19_2).slice (win0_8.rect t)).set ↔ _
  rw [View.set_slice_whole, Rect.mem_set_unit]
  exact Iff.rfl

/-- Every index of result 2's array is in the block of the point its row falls to. -/
theorem cover0_8_all (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [cfg0_N]; omega⟩, rfl⟩
  obtain ⟨-, -, -, -, -, -, e0, e1⟩ := idx0_rows t
  refine ⟨t, flush0_8 t, ?_⟩
  rw [mem_blk0_8]
  intro a
  match a with
  | ⟨0, _⟩ => show win0_8.index t (0 : Fin 2) * 5000 ≤ (i 0).val ∧ (i 0).val < win0_8.index t (0 : Fin 2) * 5000 + 5000; rw [e0, ht]; omega
  | ⟨1, _⟩ => show win0_8.index t (1 : Fin 2) * 128 ≤ (i 1).val ∧ (i 1).val < win0_8.index t (1 : Fin 2) * 128 + 128; rw [e1]; omega

/-- Result 2's array when the call ends is the node's own projection. -/
theorem final0_8 (c : Dev nD) :
    r0Out8 V c = r0Proj (r0X V c) (r0Wne V c) (r0Bne V c) (r0Wn V c) :=
  (dat0 (F := Ideal) V c).arrAt_eq_of_cover 8 (r0Proj (r0X V c) (r0Wne V c) (r0Bne V c) (r0Wn V c))
    (fun t _ => flushed0_8_eq V c t) (cover0_8_all)

/-- Result 0 (the sender-side projection) at node n, column l. -/
theorem arr0_6 (c : Dev nD) (n : Fin 50000) (l : Fin 128) :
    r0Out6 V c (ix2 n l)
      = ∑ j : Fin 128, ((∑ k : Fin 128, r0X V c (ix2 n k) * r0Wne V c (ix2 k j)) + r0Bne V c (ix2 (0 : Fin 1) j))
          * r0Ws V c (ix2 j l) := by
  rw [final0_6]

/-- Result 1 (the receiver-side projection) at node n, column l. -/
theorem arr0_7 (c : Dev nD) (n : Fin 50000) (l : Fin 128) :
    r0Out7 V c (ix2 n l)
      = ∑ j : Fin 128, ((∑ k : Fin 128, r0X V c (ix2 n k) * r0Wne V c (ix2 k j)) + r0Bne V c (ix2 (0 : Fin 1) j))
          * r0Wr V c (ix2 j l) := by
  rw [final0_7]

/-- Result 2 (the node's own projection) at node n, column l. -/
theorem arr0_8 (c : Dev nD) (n : Fin 50000) (l : Fin 128) :
    r0Out8 V c (ix2 n l)
      = ∑ j : Fin 128, ((∑ k : Fin 128, r0X V c (ix2 n k) * r0Wne V c (ix2 k j)) + r0Bne V c (ix2 (0 : Fin 1) j))
          * r0Wn V c (ix2 j l) := by
  rw [final0_8]

end Cert.KernelIdeal.Hand

end
-- ==== Proof.KRegion1.lean ====
/-
  The edge-combine call: what its result array holds when the call ends, for any buffer contents V the call is
  entered with.  Each grid point takes 10000 edge rows: the edge features times the folded 16 × 128 weight, plus the
  gathered sender row, plus the gathered receiver row, plus the constant row.  The sixty points' blocks tile the
  600000 rows.
-/
import proofs.«426872_j55293408968886_3_alg».proof.Proof.KArgs
import proofs.«426872_j55293408968886_3_alg».proof.Proof.Ops
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open GraphNet (Mat Row blk tail16)

/-- The product's left operand index, row axis: the output's row. -/
theorem k1_lhs_0 (i : S10000x128.Idx) (q : dot_S10000x16_S16x128_S10000x128_1_0_0_1_n_n.contr.Idx) :
    (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
/-- The product's left operand index, column axis: the contraction index. -/
theorem k1_lhs_1 (i : S10000x128.Idx) (q : dot_S10000x16_S16x128_S10000x128_1_0_0_1_n_n.contr.Idx) :
    (dot_S10000x16_S16x128_S10000x128_1_0_0_1_n_n.lhsIdx i q 1).val = (q ⟨0, by decide⟩).val :=
  dot_S10000x16_S16x128_S10000x128_1_0_0_1_n_n.lhsIdx_val_of_single rfl i q
/-- The product's right operand index, row axis: the contraction index. -/
theorem k1_rhs_0 (i : S10000x128.Idx) (q : dot_S10000x16_S16x128_S10000x128_1_0_0_1_n_n.contr.Idx) :
    (dot_S10000x16_S16x128_S10000x128_1_0_0_1_n_n.rhsIdx i q 0).val = (q ⟨0, by decide⟩).val :=
  dot_S10000x16_S16x128_S10000x128_1_0_0_1_n_n.rhsIdx_val_of_single rfl i q
/-- The product's right operand index, column axis: the output's column. -/
theorem k1_rhs_1 (i : S10000x128.Idx) (q : dot_S10000x16_S16x128_S10000x128_1_0_0_1_n_n.contr.Idx) :
    (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

/-- The 10000 × 16 by 16 × 128 product into the zero block, read at (p, q): the sum over the sixteen products. -/
theorem k1_matmul_apply (x0 : Vec Ideal S10000x16 .f32) (x1 : Vec Ideal S16x128 .f32) (p : Fin 10000) (q : Fin 128) :
    matmul (F := Ideal) (φ₁ := .f32) (φ₂ := .f32) dot_S10000x16_S16x128_S10000x128_1_0_0_1_n_n none x0 x1 (constant S10000x128 .f32 0x00000000#32) (ix2 p q)
      = ∑ k : Fin 16, x0 (ix2 p k) * x1 (ix2 k q) := by
  refine (Ideal.matmul_constant_zero_apply dot_S10000x16_S16x128_S10000x128_1_0_0_1_n_n none x0 x1 (ix2 p q)).trans ?_
  rw [← Equiv.sum_comp (contrEquiv1 dot_S10000x16_S16x128_S10000x128_1_0_0_1_n_n 16 rfl rfl).symm]
  refine Finset.sum_congr rfl fun k _ => ?_
  have hk := contrEquiv1_symm_val dot_S10000x16_S16x128_S10000x128_1_0_0_1_n_n 16 rfl rfl k
  have el : dot_S10000x16_S16x128_S10000x128_1_0_0_1_n_n.lhsIdx (ix2 p q) ((contrEquiv1 dot_S10000x16_S16x128_S10000x128_1_0_0_1_n_n 16 rfl rfl).symm k) = ix2 p k := funext fun a => Fin.ext (by
    match a with
    | ⟨0, _⟩ => exact k1_lhs_0 _ _
    | ⟨1, _⟩ => exact (k1_lhs_1 _ _).trans hk)
  have er : dot_S10000x16_S16x128_S10000x128_1_0_0_1_n_n.rhsIdx (ix2 p q) ((contrEquiv1 dot_S10000x16_S16x128_S10000x128_1_0_0_1_n_n 16 rfl rfl).symm k) = ix2 k q := funext fun a => Fin.ext (by
    match a with
    | ⟨0, _⟩ => exact (k1_rhs_0 _ _).trans hk
    | ⟨1, _⟩ => exact k1_rhs_1 _ _)
  rw [el, er]

/-- The 1 × 128 row broadcast to 10000 × 128, read at (p, q): the row's entry q. -/
theorem k1_bcast_apply (x : Vec Ideal S1x128 .f32) (p : Fin 10000) (q : Fin 128) :
    broadcastTo S10000x128 x broadcasts_S1x128_S10000x128 (ix2 p q) = x (ix2 (0 : Fin 1) q) :=
  broadcastTo_apply x broadcasts_S1x128_S10000x128 (ix2 p q) (ix2 (0 : Fin 1) q) (fun a => by
    match a with
    | ⟨0, _⟩ => rfl
    | ⟨1, _⟩ => rfl)

/-- The body's arithmetic read at (p, q): the sixteen-term product sum, plus the two gathered entries, plus the row's entry. -/
theorem k1_pay1_apply (x0 : Vec Ideal S10000x16 .f32) (x1 : Vec Ideal S16x128 .f32) (x4 x7 : Vec Ideal S10000x128 .f32)
    (x10 : Vec Ideal S1x128 .f32) (p : Fin 10000) (q : Fin 128) :
    k1_pay1 x0 x1 x4 x7 x10 (ix2 p q)
      = (((∑ k : Fin 16, x0 (ix2 p k) * x1 (ix2 k q)) + x4 (ix2 p q)) + x7 (ix2 p q)) + x10 (ix2 (0 : Fin 1) q) := by
  unfold k1_pay1
  simp only [shapeCast_self]
  rw [addf_apply, addf_apply, addf_apply, k1_matmul_apply, k1_bcast_apply]

variable (V : (c : Dev nD) → (b : Ref sig .tc) → Buf (Elt Ideal) ((c : Thread nD τ).loc b))

/-- The arrays the call reads, as it finds them: edge features, gathered sender and receiver rows, folded weight,
    constant row. -/
abbrev r1E (c : Dev nD) : Mat 600000 16 := V c main_arg1
abbrev r1Ps (c : Dev nD) : Mat 600000 128 := V c main_v20
abbrev r1Pr (c : Dev nD) : Mat 600000 128 := V c main_v21
abbrev r1W (c : Dev nD) : Mat 16 128 := V c main_v8
abbrev r1B (c : Dev nD) : Mat 1 128 := V c main_v14
/-- The result array when the call ends. -/
abbrev r1Out (c : Dev nD) : Mat 600000 128 := (dat1 (F := Ideal) V c).arrAt 5 cfg1.N

/-- The zero offsets of a whole-block access. -/
theorem hz1 : (![0, 0] : Fin 2 → Nat) = fun _ => 0 := funext fun a => by
  match a with
  | ⟨0, _⟩ => rfl
  | ⟨1, _⟩ => rfl

/-- The block index of each window at each of the sixty points: the row-blocked windows sit at block t of the rows,
    the resident ones at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The edge-feature block at point t, entry (p, k): row 10000 t + p of the edge features. -/
theorem iblk1_0_apply (c : Dev nD) (t : Fin cfg1.N) (p : Fin 10000) (k : Fin 16) (e : Fin 600000)
    (he : e.val = t.val * 10000 + p.val) :
    (iblk1 (F := Ideal) V c 0 t : Vec Ideal S10000x16 .f32) (ix2 p k) = r1E V c (ix2 e k) := by
  obtain ⟨h0, h1, -⟩ := idx_facts1 t
  unfold iblk1
  rw [View.read_apply]
  show r1E V c _ = r1E V c _
  refine congrArg (r1E V c) (funext fun a => Fin.ext ?_)
  match a with
  | ⟨0, _⟩ => show win1_0.index t (0 : Fin 2) * 10000 + 1 * p.val = e.val; rw [h0, he]; omega
  | ⟨1, _⟩ => show win1_0.index t (1 : Fin 2) * 16 + 1 * k.val = k.val; rw [h1]; omega

/-- The gathered sender block at point t, entry (p, q): row 10000 t + p of the gathered sender rows. -/
theorem iblk1_1_apply (c : Dev nD) (t : Fin cfg1.N) (p : Fin 10000) (q : Fin 128) (e : Fin 600000)
    (he : e.val = t.val * 10000 + p.val) :
    (iblk1 (F := Ideal) V c 1 t : Vec Ideal S10000x128 .f32) (ix2 p q) = r1Ps V c (ix2 e q) := by
  obtain ⟨-, -, h0, h1, -⟩ := idx_facts1 t
  unfold iblk1
  rw [View.read_apply]
  show r1Ps V c _ = r1Ps V c _
  refine congrArg (r1Ps V c) (funext fun a => Fin.ext ?_)
  match a with
  | ⟨0, _⟩ => show win1_1.index t (0 : Fin 2) * 10000 + 1 * p.val = e.val; rw [h0, he]; omega
  | ⟨1, _⟩ => show win1_1.index t (1 : Fin 2) * 128 + 1 * q.val = q.val; rw [h1]; omega

/-- The gathered receiver block at point t, entry (p, q): row 10000 t + p of the gathered receiver rows. -/
theorem iblk1_2_apply (c : Dev nD) (t : Fin cfg1.N) (p : Fin 10000) (q : Fin 128) (e : Fin 600000)
    (he : e.val = t.val * 10000 + p.val) :
    (iblk1 (F := Ideal) V c 2 t : Vec Ideal S10000x128 .f32) (ix2 p q) = r1Pr V c (ix2 e q) := by
  obtain ⟨-, -, -, -, h0, h1, -⟩ := idx_facts1 t
  unfold iblk1
  rw [View.read_apply]
  show r1Pr V c _ = r1Pr V c _
  refine congrArg (r1Pr V c) (funext fun a => Fin.ext ?_)
  match a with
  | ⟨0, _⟩ => show win1_2.index t (0 : Fin 2) * 10000 + 1 * p.val = e.val; rw [h0, he]; omega
  | ⟨1, _⟩ => show win1_2.index t (1 : Fin 2) * 128 + 1 * q.val = q.val; rw [h1]; omega

/-- The resident weight block at every point is the whole 16 × 128 weight. -/
theorem iblk1_3_apply (c : Dev nD) (t : Fin cfg1.N) (k : Fin 16) (q : Fin 128) :
    (iblk1 (F := Ideal) V c 3 t : Vec Ideal S16x128 .f32) (ix2 k q) = r1W V c (ix2 k q) := by
  obtain ⟨-, -, -, -, -, -, h0, h1, -⟩ := idx_facts1 t
  unfold iblk1
  rw [View.read_apply]
  show r1W V c _ = r1W V c _
  refine congrArg (r1W V c) (funext fun a => Fin.ext ?_)
  match a with
  | ⟨0, _⟩ => show win1_3.index t (0 : Fin 2) * 16 + 1 * k.val = k.val; rw [h0]; omega
  | ⟨1, _⟩ => show win1_3.index t (1 : Fin 2) * 128 + 1 * q.val = q.val; rw [h1]; omega

/-- The resident row block at every point is the whole 1 × 128 row. -/
theorem iblk1_4_apply (c : Dev nD) (t : Fin cfg1.N) (z : Fin 1) (q : Fin 128) :
    (iblk1 (F := Ideal) V c 4 t : Vec Ideal S1x128 .f32) (ix2 z q) = r1B V c (ix2 z q) := by
  obtain ⟨-, -, -, -, -, -, -, -, h0, h1, -⟩ := idx_facts1 t
  unfold iblk1
  rw [View.read_apply]
  show r1B V c _ = r1B V c _
  refine congrArg (r1B V c) (funext fun a => Fin.ext ?_)
  match a with
  | ⟨0, _⟩ => show win1_4.index t (0 : Fin 2) * 1 + 1 * z.val = z.val; rw [h0]; omega
  | ⟨1, _⟩ => show win1_4.index t (1 : Fin 2) * 128 + 1 * q.val = q.val; rw [h1]; omega

/-- The updated edge e, column l, as a function of the arrays the call reads. -/
def rhs1 (c : Dev nD) (e : Fin 600000) (l : Fin 128) : EReal :=
  (((∑ k : Fin 16, r1E V c (ix2 e k) * r1W V c (ix2 k l)) + r1Ps V c (ix2 e l)) + r1Pr V c (ix2 e l))
    + r1B V c (ix2 (0 : Fin 1) l)

/-- The whole result array as one function of the index. -/
def G1 (c : Dev nD) : Mat 600000 128 := fun i => rhs1 V c (i 0) (i 1)

/-- The body's arithmetic on the blocks of point t, read at a block index y: the updated edge 10000 t + y₀, column y₁. -/
theorem point1_5 (c : Dev nD) (t : Fin cfg1.N) (y : S10000x128.Idx) (e : Fin 600000)
    (he : e.val = t.val * 10000 + (y 0).val) :
    k1_pay1 (F := Ideal) (iblk1 V c 0 t) (iblk1 V c 3 t) (iblk1 V c 1 t) (iblk1 V c 2 t) (iblk1 V c 4 t) y
      = rhs1 V c e (y 1) := by
  refine (congrArg (k1_pay1 (F := Ideal) (iblk1 V c 0 t) (iblk1 V c 3 t) (iblk1 V c 1 t) (iblk1 V c 2 t) (iblk1 V c 4 t)) (eq_ix2 y)).trans ?_
  refine (k1_pay1_apply _ _ _ _ _ (y 0) (y 1)).trans ?_
  unfold rhs1
  rw [iblk1_1_apply V c t (y 0) (y 1) e he, iblk1_2_apply V c t (y 0) (y 1) e he, iblk1_4_apply V c t 0 (y 1)]
  refine congrArg (fun s => ((s + r1Ps V c (ix2 e (y 1))) + r1Pr V c (ix2 e (y 1))) + r1B V c (ix2 (0 : Fin 1) (y 1))) ?_
  refine Finset.sum_congr rfl fun k _ => ?_
  rw [iblk1_0_apply V c t (y 0) k e he, iblk1_3_apply V c t k (y 1)]

/-- What point t writes back is block t of the whole-array function. -/
theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S10000x16) hz1, View.ld_unit_zero (S := S10000x128) hz1,
    View.ld_unit_zero (S := S16x128) hz1, View.ld_unit_zero (S := S1x128) hz1]
  funext j
  obtain ⟨-, -, -, -, -, -, -, -, -, -, h0, h1⟩ := idx_facts1 t
  have hj0 : (j 0).val < 10000 := (j 0).isLt
  have ht : t.val < 60 := t.isLt
  show k1_pay1 (F := Ideal) (iblk1 V c 0 t) (iblk1 V c 3 t) (iblk1 V c 1 t) (iblk1 V c 2 t) (iblk1 V c 4 t)
      ((cfg1.win 5).xinj (grid1.coords t) j) = G1 V c (((cfg1.win 5).blk t).view.emb j)
  refine (point1_5 V c t ((cfg1.win 5).xinj (grid1.coords t) j) ⟨t.val * 10000 + (j 0).val, by omega⟩ rfl).trans ?_
  show rhs1 V c _ _ = rhs1 V c ((((cfg1.win 5).blk t).view.emb j) 0) ((((cfg1.win 5).blk t).view.emb j) 1)
  refine congrArg₂ (rhs1 V c) (Fin.ext ?_) (Fin.ext ?_)
  · show t.val * 10000 + (j 0).val = win1_5.index t (0 : Fin 2) * 10000 + 1 * (j 0).val
    rw [h0]; omega
  · show (j 1).val = win1_5.index t (1 : Fin 2) * 128 + 1 * (j 1).val
    rw [h1]; omega

/-- An index of the result array is in point t's block iff each coordinate is in the block's range on its axis. -/
theorem mem_blk1_5 (t : Fin cfg1.N) (i : S600000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v22).slice (win1_5.rect t)).set ↔ _
  rw [View.set_slice_whole, Rect.mem_set_unit]
  exact Iff.rfl

/-- Row n of the result array is in the block of point n / 10000: the sixty blocks tile the 600000 rows. -/
theorem covered1_5 (i : S600000x128.Idx) :
    ∃ t : Fin cfg1.N, (cfg1.win 5).flush t = true ∧ i ∈ ((cfg1.win 5).blk t).view.set := by
  have hi0 : (i 0).val < 600000 := (i 0).isLt
  have hi1 : (i 1).val < 128 := (i 1).isLt
  have hN : cfg1.N = 60 := rfl
  have hlt : (i 0).val / 10000 < cfg1.N := by rw [hN]; omega
  obtain ⟨-, -, -, -, -, -, -, -, -, -, h0, h1⟩ := idx_facts1 ⟨(i 0).val / 10000, hlt⟩
  refine ⟨⟨(i 0).val / 10000, hlt⟩, flush1_5 _, ?_⟩
  rw [mem_blk1_5]
  intro a
  match a with
  | ⟨0, _⟩ =>
    show win1_5.index ⟨(i 0).val / 10000, hlt⟩ (0 : Fin 2) * 10000 ≤ (i 0).val
      ∧ (i 0).val < win1_5.index ⟨(i 0).val / 10000, hlt⟩ (0 : Fin 2) * 10000 + 10000
    rw [h0]
    show (i 0).val / 10000 * 10000 ≤ (i 0).val ∧ (i 0).val < (i 0).val / 10000 * 10000 + 10000
    omega
  | ⟨1, _⟩ =>
    show win1_5.index ⟨(i 0).val / 10000, hlt⟩ (1 : Fin 2) * 128 ≤ (i 1).val
      ∧ (i 1).val < win1_5.index ⟨(i 0).val / 10000, hlt⟩ (1 : Fin 2) * 128 + 128
    rw [h1]
    omega

/-- The result array when the call ends is the whole-array function. -/
theorem final1_5 (c : Dev nD) : (dat1 (F := Ideal) V c).arrAt 5 cfg1.N = G1 V c :=
  (dat1 (F := Ideal) V c).arrAt_eq_of_cover 5 (G1 V c) (fun t _ => flushed1_5_eq V c t) covered1_5

/-- The updated edge e, column l. -/
theorem arr1_5 (c : Dev nD) (e : Fin 600000) (l : Fin 128) :
    r1Out V c (ix2 e l)
      = (((∑ k : Fin 16, r1E V c (ix2 e k) * r1W V c (ix2 k l)) + r1Ps V c (ix2 e l)) + r1Pr V c (ix2 e l))
        + r1B V c (ix2 (0 : Fin 1) l) := by
  show (dat1 (F := Ideal) V c).arrAt 5 cfg1.N (ix2 e l) = _
  rw [final1_5 V c]
  rfl

end Cert.KernelIdeal.Hand

end
-- ==== Proof.KRegion2.lean ====
/-
  The node-update call: what its result array holds when the call ends, for any buffer contents V the call is
  entered with.  Each grid point takes 5000 node rows: the node's own projection plus the sent sums times one block
  plus the received sums times another plus the constant row, and that through the padded 128 × 128 head plus the
  padded head bias.  The ten points' blocks tile the 50000 rows.
-/
import proofs.«426872_j55293408968886_3_alg».proof.Proof.KArgs
import proofs.«426872_j55293408968886_3_alg».proof.Proof.Ops
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open GraphNet (Mat Row blk tail16)

variable (V : (c : Dev nD) → (b : Ref sig .tc) → Buf (Elt Ideal) ((c : Thread nD τ).loc b))

/-- The arrays the call reads, as it finds them: own projection, sent and received sums, two blocks of the node
    update's weight, its constant row, the padded head weight and bias. -/
abbrev r2Pn (c : Dev nD) : Mat 50000 128 := V c main_v19_2
abbrev r2Sent (c : Dev nD) : Mat 50000 128 := V c main_v25
abbrev r2Recv (c : Dev nD) : Mat 50000 128 := V c main_v28
abbrev r2Ws (c : Dev nD) : Mat 128 128 := V c main_v5
abbrev r2Wr (c : Dev nD) : Mat 128 128 := V c main_v6
abbrev r2B (c : Dev nD) : Mat 1 128 := V c main_v17
abbrev r2Wo (c : Dev nD) : Mat 128 128 := V c main_v31
abbrev r2Bo (c : Dev nD) : Mat 1 128 := V c main_v35
/-- The result array when the call ends. -/
abbrev r2Out (c : Dev nD) : Mat 50000 128 := (dat2 (F := Ideal) V c).arrAt 8 cfg2.N

/-- The node-update product's left operand index, on its row axis: the result's row. -/
theorem pay2_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand index on its column axis: the contraction coordinate. -/
theorem pay2_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand index on its row axis: the contraction coordinate. -/
theorem pay2_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand index on its column axis: the result's column. -/
theorem pay2_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product accumulated into the zero splat, at row p and column q: the sum over the
    shared axis of the operands' products. -/
theorem pay2_mm_apply (a : FVec Ideal S5000x128 .f32) (b : FVec Ideal S128x128 .f32) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact pay2_lhs0 _ _
    | ⟨1, _⟩ => exact (pay2_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (pay2_rhs0 _ _).trans hk
    | ⟨1, _⟩ => exact pay2_rhs1 _ _)
  rw [el, er]

/-- A 1 × 128 row broadcast down 5000 rows, at row p and column q: the row's entry at column q. -/
theorem pay2_bc_apply (r : FVec Ideal S1x128 .f32) (p : Fin 5000) (q : Fin 128) :
    broadcastTo S5000x128 r broadcasts_S1x128_S5000x128 (ix2 p q) = r (ix2 (0 : Fin 1) q) :=
  broadcastTo_apply r broadcasts_S1x128_S5000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The body's arithmetic at row p and column q of its block: the own projection plus the sent sums times one
    block plus the received sums times another plus the constant row, through the head weight, plus the head bias. -/
theorem pay2_apply (x0 x1 x2 : Vec Ideal S5000x128 .f32) (x3 x4 : Vec Ideal S128x128 .f32) (x5 : Vec Ideal S1x128 .f32)
    (x6 : Vec Ideal S128x128 .f32) (x7 : Vec Ideal S1x128 .f32) (p : Fin 5000) (q : Fin 128) :
    k2_pay1 x0 x1 x3 x2 x4 x5 x6 x7 (ix2 p q)
      = (∑ l : Fin 128,
          (((x0 (ix2 p l) + ∑ j : Fin 128, x1 (ix2 p j) * x3 (ix2 j l))
              + ∑ j : Fin 128, x2 (ix2 p j) * x4 (ix2 j l))
            + x5 (ix2 (0 : Fin 1) l))
          * x6 (ix2 l q))
        + x7 (ix2 (0 : Fin 1) q) := by
  unfold k2_pay1
  simp only [shapeCast_self]
  rw [addf_apply, pay2_mm_apply, pay2_bc_apply]
  refine congrArg (· + x7 (ix2 (0 : Fin 1) q)) (Finset.sum_congr rfl fun l _ => ?_)
  rw [addf_apply, addf_apply, addf_apply, pay2_mm_apply, pay2_mm_apply, pay2_bc_apply]

/-- The zero offsets of a whole-block access. -/
theorem hz2 : (![0, 0] : Fin 2 → Nat) = fun _ => 0 := funext fun a => match a with | ⟨0, _⟩ => rfl | ⟨1, _⟩ => rfl

/-- The result array as one function of the arrays the call reads, index by index. -/
def G2 (c : Dev nD) : Mat 50000 128 := fun i =>
  (∑ l : Fin 128,
      (((r2Pn V c (ix2 (i 0) l) + ∑ j : Fin 128, r2Sent V c (ix2 (i 0) j) * r2Ws V c (ix2 j l))
          + ∑ j : Fin 128, r2Recv V c (ix2 (i 0) j) * r2Wr V c (ix2 j l))
        + r2B V c (ix2 (0 : Fin 1) l))
      * r2Wo V c (ix2 l (i 1)))
    + r2Bo V c (ix2 (0 : Fin 1) (i 1))

/-- The index maps over the ten grid points: the row-blocked windows sit at block t of the rows, the weights and
    rows at block 0 on both axes. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Window 0's block at point t holds rows 5000 t … 5000 t + 4999 of the own projection. -/
theorem iblk2_0_apply (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = r2Pn V c k := by
  have e := idx_facts2 t
  have e0 : win2_0.index t (0 : Fin 2) = t.val := by omega
  have e1 : win2_0.index t (1 : Fin 2) = 0 := by omega
  unfold iblk2
  rw [View.read_apply]
  show V c main_v19_2 _ = V c main_v19_2 _
  refine congrArg (V c main_v19_2) (funext fun a => Fin.ext ?_)
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- Window 1's block at point t holds rows 5000 t … 5000 t + 4999 of the sent sums. -/
theorem iblk2_1_apply (c : Dev nD) (t : Fin cfg2.N) (x : S5000x128.Idx) (k : S50000x128.Idx)
    (hk0 : (k 0).val = t.val * 5000 + (x 0).val) (hk1 : (k 1).val = (x 1).val) :
    (iblk2 V c 1 t : Vec Ideal S5000x128 .f32) x = r2Sent V c k := by
  have e := idx_facts2 t
  have e0 : win2_1.index t (0 : Fin 2) = t.val := by omega
  have e1 : win2_1.index t (1 : Fin 2) = 0 := by omega
  unfold iblk2
  rw [View.read_apply]
  show V c main_v25 _ = V c main_v25 _
  refine congrArg (V c main_v25) (funext fun a => Fin.ext ?_)
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- Window 2's block at point t holds rows 5000 t … 5000 t + 4999 of the received sums. -/
theorem iblk2_2_apply (c : Dev nD) (t : Fin cfg2.N) (x : S5000x128.Idx) (k : S50000x128.Idx)
    (hk0 : (k 0).val = t.val * 5000 + (x 0).val) (hk1 : (k 1).val = (x 1).val) :
    (iblk2 V c 2 t : Vec Ideal S5000x128 .f32) x = r2Recv V c k := by
  have e := idx_facts2 t
  have e0 : win2_2.index t (0 : Fin 2) = t.val := by omega
  have e1 : win2_2.index t (1 : Fin 2) = 0 := by omega
  unfold iblk2
  rw [View.read_apply]
  show V c main_v28 _ = V c main_v28 _
  refine congrArg (V c main_v28) (funext fun a => Fin.ext ?_)
  match a with
  | ⟨0, _⟩ => show win2_2.index t (0 : Fin 2) * 5000 + 1 * (x 0).val = (k 0).val; rw [e0, hk0]; omega
  | ⟨1, _⟩ => show win2_2.index t (1 : Fin 2) * 128 + 1 * (x 1).val = (k 1).val; rw [e1, hk1]; omega

/-- Window 3's block at every point is the whole of the sent sums' weight block. -/
theorem iblk2_3_apply (c : Dev nD) (t : Fin cfg2.N) (x : S128x128.Idx) :
    (iblk2 V c 3 t : Vec Ideal S128x128 .f32) x = r2Ws V c x := by
  have e := idx_facts2 t
  have e0 : win2_3.index t (0 : Fin 2) = 0 := by omega
  have e1 : win2_3.index t (1 : Fin 2) = 0 := by omega
  unfold iblk2
  rw [View.read_apply]
  show V c main_v5 _ = V c main_v5 _
  refine congrArg (V c main_v5) (funext fun a => Fin.ext ?_)
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- Window 4's block at every point is the whole of the received sums' weight block. -/
theorem iblk2_4_apply (c : Dev nD) (t : Fin cfg2.N) (x : S128x128.Idx) :
    (iblk2 V c 4 t : Vec Ideal S128x128 .f32) x = r2Wr V c x := by
  have e := idx_facts2 t
  have e0 : win2_4.index t (0 : Fin 2) = 0 := by omega
  have e1 : win2_4.index t (1 : Fin 2) = 0 := by omega
  unfold iblk2
  rw [View.read_apply]
  show V c main_v6 _ = V c main_v6 _
  refine congrArg (V c main_v6) (funext fun a => Fin.ext ?_)
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- Window 5's block at every point is the whole of the constant row. -/
theorem iblk2_5_apply (c : Dev nD) (t : Fin cfg2.N) (x : S1x128.Idx) :
    (iblk2 V c 5 t : Vec Ideal S1x128 .f32) x = r2B V c x := by
  have e := idx_facts2 t
  have e0 : win2_5.index t (0 : Fin 2) = 0 := by omega
  have e1 : win2_5.index t (1 : Fin 2) = 0 := by omega
  unfold iblk2
  rw [View.read_apply]
  show V c main_v17 _ = V c main_v17 _
  refine congrArg (V c main_v17) (funext fun a => Fin.ext ?_)
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-- Window 6's block at every point is the whole of the padded head weight. -/
theorem iblk2_6_apply (c : Dev nD) (t : Fin cfg2.N) (x : S128x128.Idx) :
    (iblk2 V c 6 t : Vec Ideal S128x128 .f32) x = r2Wo V c x := by
  have e := idx_facts2 t
  have e0 : win2_6.index t (0 : Fin 2) = 0 := by omega
  have e1 : win2_6.index t (1 : Fin 2) = 0 := by omega
  unfold iblk2
  rw [View.read_apply]
  show V c main_v31 _ = V c main_v31 _
  refine congrArg (V c main_v31) (funext fun a => Fin.ext ?_)
  match a with
  | ⟨0, _⟩ => show win2_6.index t (0 : Fin 2) * 128 + 1 * (x 0).val = (x 0).val; rw [e0]; omega
  | ⟨1, _⟩ => show win2_6.index t (1 : Fin 2) * 128 + 1 * (x 1).val = (x 1).val; rw [e1]; omega

/-- Window 7's block at every point is the whole of the padded head bias. -/
theorem iblk2_7_apply (c : Dev nD) (t : Fin cfg2.N) (x : S1x128.Idx) :
    (iblk2 V c 7 t : Vec Ideal S1x128 .f32) x = r2Bo V c x := by
  have e := idx_facts2 t
  have e0 : win2_7.index t (0 : Fin 2) = 0 := by omega
  have e1 : win2_7.index t (1 : Fin 2) = 0 := by omega
  unfold iblk2
  rw [View.read_apply]
  show V c main_v35 _ = V c main_v35 _
  refine congrArg (V c main_v35) (funext fun a => Fin.ext ?_)
  match a with
  | ⟨0, _⟩ => show win2_7.index t (0 : Fin 2) * 1 + 1 * (x 0).val = (x 0).val; rw [e0]; omega
  | ⟨1, _⟩ => show win2_7.index t (1 : Fin 2) * 128 + 1 * (x 1).val = (x 1).val; rw [e1]; omega

/-- The body's result at point t, at an index of its block, is the whole-array function at the index's place in
    the array. -/
theorem point2_8 (c : Dev nD) (t : Fin cfg2.N) (j : S5000x128.Idx) :
    k2_pay1 (iblk2 V c 0 t) (iblk2 V c 1 t) (iblk2 V c 3 t) (iblk2 V c 2 t) (iblk2 V c 4 t) (iblk2 V c 5 t)
        (iblk2 V c 6 t) (iblk2 V c 7 t) j
      = G2 V c (((cfg2.win 8).blk t).view.emb j) := by
  have e := idx_facts2 t
  have e80 : win2_8.index t (0 : Fin 2) = t.val := by omega
  have e81 : win2_8.index t (1 : Fin 2) = 0 := by omega
  have hi0 : ((((cfg2.win 8).blk t).view.emb j) 0).val = t.val * 5000 + (j 0).val := by
    show win2_8.index t (0 : Fin 2) * 5000 + 1 * (j 0).val = _; rw [e80]; omega
  have hi1 : ((((cfg2.win 8).blk t).view.emb j) 1).val = (j 1).val := by
    show win2_8.index t (1 : Fin 2) * 128 + 1 * (j 1).val = _; rw [e81]; omega
  have hp := pay2_apply (iblk2 V c 0 t) (iblk2 V c 1 t) (iblk2 V c 2 t) (iblk2 V c 3 t) (iblk2 V c 4 t) (iblk2 V c 5 t)
    (iblk2 V c 6 t) (iblk2 V c 7 t) (j 0) (j 1)
  have hj : k2_pay1 (iblk2 V c 0 t) (iblk2 V c 1 t) (iblk2 V c 3 t) (iblk2 V c 2 t) (iblk2 V c 4 t) (iblk2 V c 5 t)
        (iblk2 V c 6 t) (iblk2 V c 7 t) j
      = k2_pay1 (iblk2 V c 0 t) (iblk2 V c 1 t) (iblk2 V c 3 t) (iblk2 V c 2 t) (iblk2 V c 4 t) (iblk2 V c 5 t)
        (iblk2 V c 6 t) (iblk2 V c 7 t) (ix2 (j 0) (j 1)) :=
    congrArg (k2_pay1 (iblk2 V c 0 t) (iblk2 V c 1 t) (iblk2 V c 3 t) (iblk2 V c 2 t) (iblk2 V c 4 t) (iblk2 V c 5 t)
        (iblk2 V c 6 t) (iblk2 V c 7 t)) (eq_ix2 j)
  refine hj.trans (hp.trans ?_)
  have hq : (((cfg2.win 8).blk t).view.emb j) 1 = j 1 := Fin.ext hi1
  unfold G2
  rw [hq]
  have h0 : ∀ l : Fin 128, (iblk2 V c 0 t : Vec Ideal S5000x128 .f32) (ix2 (j 0) l) = r2Pn V c (ix2 ((((cfg2.win 8).blk t).view.emb j) 0) l) :=
    fun l => iblk2_0_apply V c t _ _ hi0 rfl
  have h1 : ∀ l : Fin 128, (iblk2 V c 1 t : Vec Ideal S5000x128 .f32) (ix2 (j 0) l) = r2Sent V c (ix2 ((((cfg2.win 8).blk t).view.emb j) 0) l) :=
    fun l => iblk2_1_apply V c t _ _ hi0 rfl
  have h2 : ∀ l : Fin 128, (iblk2 V c 2 t : Vec Ideal S5000x128 .f32) (ix2 (j 0) l) = r2Recv V c (ix2 ((((cfg2.win 8).blk t).view.emb j) 0) l) :=
    fun l => iblk2_2_apply V c t _ _ hi0 rfl
  simp only [h0, h1, h2, iblk2_3_apply, iblk2_4_apply, iblk2_5_apply, iblk2_6_apply, iblk2_7_apply]

/-- What point t writes back is block t of the whole-array function. -/
theorem flushed2_8_eq (c : Dev nD) (t : Fin cfg2.N) :
    (dat2 (F := Ideal) V c).flushed 8 t = ((cfg2.win 8).blk t).view.read (Elt Ideal) (G2 V c) := by
  show (cfg2.win 8).cut (grid2.coords t) ((dat2 V c).after 8 t) = _
  rw [after2_8]
  unfold out2_8
  rw [View.canon_unit_zero hz2]
  simp only [View.ld_unit_zero (S := S5000x128) hz2, View.ld_unit_zero (S := S128x128) hz2, View.ld_unit_zero (S := S1x128) hz2]
  exact funext fun (j : S5000x128.Idx) => point2_8 V c t j

/-- An index of the result array is in point t's block iff each coordinate is in the block's range on its axis. -/
theorem mem_blk2_8 (t : Fin cfg2.N) (i : S50000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v36).slice (win2_8.rect t)).set ↔ _
  rw [View.set_slice_whole, Rect.mem_set_unit]
  exact Iff.rfl

/-- Every index of the result array is in some point's block: row n is in the block of point n / 5000. -/
theorem covered2_8 (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 10 := by decide
  obtain ⟨t, ht⟩ : ∃ t : Fin cfg2.N, t.val = (i 0).val / 5000 := ⟨⟨(i 0).val / 5000, by rw [hN]; omega⟩, rfl⟩
  have e := idx_facts2 t
  have e80 : win2_8.index t (0 : Fin 2) = t.val := by omega
  have e81 : win2_8.index t (1 : Fin 2) = 0 := by omega
  refine ⟨t, flush2_8 t, ?_⟩
  rw [mem_blk2_8]
  intro a
  match a with
  | ⟨0, _⟩ => show win2_8.index t (0 : Fin 2) * 5000 ≤ (i 0).val ∧ (i 0).val < win2_8.index t (0 : Fin 2) * 5000 + 5000; rw [e80, ht]; omega
  | ⟨1, _⟩ => show win2_8.index t (1 : Fin 2) * 128 ≤ (i 1).val ∧ (i 1).val < win2_8.index t (1 : Fin 2) * 128 + 128; rw [e81]; omega

/-- The result array when the call ends is the whole-array function. -/
theorem final2_8 (c : Dev nD) : (dat2 (F := Ideal) V c).arrAt 8 cfg2.N = G2 V c :=
  (dat2 V c).arrAt_eq_of_cover 8 (G2 V c) (fun t _ => flushed2_8_eq V c t) covered2_8

/-- The padded result at node n, column o. -/
theorem arr2_8 (c : Dev nD) (n : Fin 50000) (o : Fin 128) :
    r2Out V c (ix2 n o)
      = (∑ l : Fin 128,
          (((r2Pn V c (ix2 n l) + ∑ j : Fin 128, r2Sent V c (ix2 n j) * r2Ws V c (ix2 j l))
              + ∑ j : Fin 128, r2Recv V c (ix2 n j) * r2Wr V c (ix2 j l))
            + r2B V c (ix2 (0 : Fin 1) l))
          * r2Wo V c (ix2 l o))
        + r2Bo V c (ix2 (0 : Fin 1) o) :=
  congrFun (final2_8 V c) (ix2 n o)

end Cert.KernelIdeal.Hand

end
-- ==== Proof.LibGather.lean ====
/-
  A gather of whole rows read at an index: with one start index per result row, on the table's row axis, and the
  whole row as the slice, result element (e, l) is the table's element (r, l), where the row r is the start index
  clamped into the table: it depends on e alone.
-/
import proofs.«426872_j55293408968886_3_alg».proof.Proof.Ops

noncomputable section

namespace GraphNet

open Idealize.ShloMosaic Idealize.ShloMosaic.ValueIdx

/-- Axis 0 is the one collapsed axis, so it is not a kept axis. -/
theorem rowDims_zero_not_kept : (0 : Fin SNL.rank) ∉ rowDims.sKept :=
  fun h => ((GatherDims.mem_sKept _ _).mp h).1 (List.mem_singleton.mpr rfl)

/-- The start-indices index read for component 0 depends on the result index through its row alone. -/
theorem rowDims_siIdx (e : Fin 600000) (l : Fin 128) (c : Fin rowDims.startIndexMap.length) :
    rowDims.siIdx (ix2 e l) c = rowDims.siIdx (ix2 e (0 : Fin 128)) c := by
  funext b; refine Fin.ext ?_
  match b with
  | ⟨0, _⟩ => rfl
  | ⟨1, _⟩ => rfl

/-- The clamped start on the row axis depends on the result index through its row alone. -/
theorem rowDims_start_zero (idx : IVec SEc 32) (e : Fin 600000) (l : Fin 128) :
    rowDims.start (ix2 e l) idx 0 = rowDims.start (ix2 e (0 : Fin 128)) idx 0 := by
  unfold GatherDims.start
  rw [dif_pos (show (0 : Fin SNL.rank) ∈ rowDims.startIndexMap from List.mem_singleton.mpr rfl)]
  rw [dif_pos (show (0 : Fin SNL.rank) ∈ rowDims.startIndexMap from List.mem_singleton.mpr rfl)]
  rw [rowDims_siIdx]

/-- Axis 1 is not named by the start index map, so the slice starts at 0 on it. -/
theorem rowDims_start_one (idx : IVec SEc 32) (j : SEL.Idx) : rowDims.start j idx 1 = 0 := by
  unfold GatherDims.start
  rw [dif_neg (show (1 : Fin SNL.rank) ∉ rowDims.startIndexMap by decide)]

/-- Axis 1 is the one kept axis, read by the result's offset axis 1: the offset coordinate is the column. -/
theorem rowDims_offCoord_one (e : Fin 600000) (l : Fin 128) : rowDims.offCoord (ix2 e l) 1 = l.val := by
  unfold GatherDims.offCoord
  rw [dif_pos (show (1 : Fin SNL.rank) ∈ rowDims.sKept from
    (GatherDims.mem_sKept _ _).mpr ⟨by decide, List.not_mem_nil⟩)]
  rfl

/-- The row gather at (e, l) reads the table at (gatherRow idx e, l). -/
theorem gather_rows {α : Type} (x : SNL.Idx → α) (idx : IVec SEc 32) (e : Fin 600000) (l : Fin 128) :
    Host.gather rowDims x idx (ix2 e l) = x (ix2 (gatherRow idx e) l) := by
  unfold Host.gather
  congr 1
  funext a
  refine Fin.ext ?_
  match a with
  | ⟨0, _⟩ =>
    show rowDims.start (ix2 e l) idx 0 + rowDims.batchCoord (ix2 e l) 0 + rowDims.offCoord (ix2 e l) 0
      = rowDims.start (ix2 e (0 : Fin 128)) idx 0 + rowDims.batchCoord (ix2 e (0 : Fin 128)) 0
        + rowDims.offCoord (ix2 e (0 : Fin 128)) 0
    rw [GatherDims.batchCoord_eq_zero _ _ _ List.not_mem_nil, GatherDims.batchCoord_eq_zero _ _ _ List.not_mem_nil,
      GatherDims.offCoord_eq_zero _ _ _ rowDims_zero_not_kept, GatherDims.offCoord_eq_zero _ _ _ rowDims_zero_not_kept,
      rowDims_start_zero idx e l]
  | ⟨1, _⟩ =>
    show rowDims.start (ix2 e l) idx 1 + rowDims.batchCoord (ix2 e l) 1 + rowDims.offCoord (ix2 e l) 1 = l.val
    rw [GatherDims.batchCoord_eq_zero _ _ _ List.not_mem_nil, rowDims_start_one, rowDims_offCoord_one, Nat.add_zero, Nat.zero_add]

end GraphNet

end
-- ==== Proof.KTake.lean ====
/-
  The two row takes between the first and the second call.  Each wraps a negative index, gathers whole rows of a
  projected table at the index column, and keeps a gathered row only where the wrapped index lies in 0..49999
  (elsewhere it would put a not-a-number fill).  With every sender and receiver in range the mask is all ones and
  each take is the plain gather: edge e reads the table's row rowsOf a e.  The buffers the second call reads besides
  are untouched by both takes.
-/
import proofs.«426872_j55293408968886_3_alg».proof.Proof.KArgs
import proofs.«426872_j55293408968886_3_alg».proof.Proof.Ops
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«426872_j55293408968886_3_alg».proof.Proof.LibGather
import Idealize.ShloMosaic.Lib.ReduceAll

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open GraphNet (Mat Row blk tail16)

variable (m : (ℓ : Loc nD τ sig) → Buf (Elt Ideal) ℓ) (ρ : Dev nD → PrngReg)

/-- A left fold by and, from 1, over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduce by and, from an initial 1, of an array of ones is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-- With no negative entry the index column of a row gather holds the index vector itself. -/
theorem takeIndex_apply (a : IVec GraphNet.SE1 32) (h : ∀ i, 0 ≤ (a i).toInt) (e : Fin 600000) (k : Fin 1) :
    GraphNet.takeIndex a (ix2 e k) = a (ix1 e) := by
  unfold GraphNet.takeIndex
  refine (broadcastInDim_apply (s := GraphNet.SE1) (t := GraphNet.SEc) ![0] GraphNet.bcast_SE1_SEc _ (ix2 e k) (ix1 e) ?_).trans ?_
  · intro b
    have hb : b = (0 : Fin 1) := Subsingleton.elim _ _
    subst hb
    exact (if_neg (by decide)).symm
  · show Scalar.select (IntOp.cmpi .slt (a (ix1 e)) 0#32) _ _ = _
    have h0 : IntOp.cmpi .slt (a (ix1 e)) 0#32 = 0#1 := by
      apply eq_zero_of_ne_one
      rw [IntOp.cmpi_slt]
      have := h (ix1 e)
      have hz : (0#32 : BitVec 32).toInt = 0 := by decide
      omega
    rw [h0, select_zero]

/-- With every entry in 0..49999 the range test of a row take passes at row e. -/
theorem takeMask_apply_ix (a : IVec GraphNet.SE1 32) (h : ∀ i, 0 ≤ (a i).toInt ∧ (a i).toInt < 50000) (e : Fin 600000) (k : Fin 1) :
    andi (cmpi .sge (GraphNet.takeIndex a) (broadcastInDim S600000x1 ![] bcast_S_S600000x1 (constantI S_ 32 0#32)))
      (cmpi .sle (GraphNet.takeIndex a) (broadcastInDim S600000x1 ![0, 1] bcast_S1x1_S600000x1_0_1
        (broadcastInDim S1x1 ![1] bcast_S1_S1x1_1 (constantI S1 32 49999#32)))) (ix2 e k) = 1#1 := by
  show IntOp.andi (IntOp.cmpi .sge (GraphNet.takeIndex a (ix2 e k)) 0#32) (IntOp.cmpi .sle (GraphNet.takeIndex a (ix2 e k)) 49999#32) = 1#1
  rw [takeIndex_apply a (fun i => (h i).1), IntOp.andi_eq_one, IntOp.cmpi_sge, IntOp.cmpi_sle]
  have := h (ix1 e)
  have hz : (0#32 : BitVec 32).toInt = 0 := by decide
  have hc : (49999#32 : BitVec 32).toInt = 49999 := by decide
  omega

/-- With every entry in 0..49999 the range test of a row take passes at every index. -/
theorem takeMask_apply (a : IVec GraphNet.SE1 32) (h : ∀ i, 0 ≤ (a i).toInt ∧ (a i).toInt < 50000) (j : GraphNet.SEc.Idx) :
    andi (cmpi .sge (GraphNet.takeIndex a) (broadcastInDim S600000x1 ![] bcast_S_S600000x1 (constantI S_ 32 0#32)))
      (cmpi .sle (GraphNet.takeIndex a) (broadcastInDim S600000x1 ![0, 1] bcast_S1x1_S600000x1_0_1
        (broadcastInDim S1x1 ![1] bcast_S1_S1x1_1 (constantI S1 32 49999#32)))) j = 1#1 := by
  have hj : j = ix2 (n0 := 600000) (n1 := 1) (j 0) (j 1) := eq_ix2 j
  rw [hj]
  exact takeMask_apply_ix a h (j 0) (j 1)

/-- What a row take returns: the gathered rows where the wrapped index is in range, a not-a-number fill elsewhere. -/
def takeVal (x : Mat 50000 128) (a : IVec GraphNet.SE1 32) : Mat 600000 128 :=
  select
    (broadcastInDim S600000x128 ![0] bcast_S600000_S600000x128_0
      (Host.reduce IntOp.andi
        (andi (cmpi .sge (GraphNet.takeIndex a) (broadcastInDim S600000x1 ![] bcast_S_S600000x1 (constantI S_ 32 0#32)))
          (cmpi .sle (GraphNet.takeIndex a) (broadcastInDim S600000x1 ![0, 1] bcast_S1x1_S600000x1_0_1
            (broadcastInDim S1x1 ![1] bcast_S1_S1x1_1 (constantI S1 32 49999#32)))))
        (constantI S_ 1 1#1) reducesTo_S600000x1_S600000_d1 h_S_))
    (Host.gather GraphNet.rowDims x (GraphNet.takeIndex a))
    (broadcastInDim S600000x128 ![] bcast_S_S600000x128 (constant (F := Ideal) S_ .f32 0x7FC00000#32))

/-- With every entry in range a row take is the plain gather of rows. -/
theorem takeVal_apply (x : Mat 50000 128) (a : IVec GraphNet.SE1 32) (h : ∀ i, 0 ≤ (a i).toInt ∧ (a i).toInt < 50000)
    (e : Fin 600000) (l : Fin 128) :
    takeVal x a (ix2 e l) = x (ix2 (GraphNet.rowsOf a e) l) := by
  unfold takeVal
  rw [select_apply]
  have hm : broadcastInDim S600000x128 ![0] bcast_S600000_S600000x128_0
      (Host.reduce IntOp.andi
        (andi (cmpi .sge (GraphNet.takeIndex a) (broadcastInDim S600000x1 ![] bcast_S_S600000x1 (constantI S_ 32 0#32)))
          (cmpi .sle (GraphNet.takeIndex a) (broadcastInDim S600000x1 ![0, 1] bcast_S1x1_S600000x1_0_1
            (broadcastInDim S1x1 ![1] bcast_S1_S1x1_1 (constantI S1 32 49999#32)))))
        (constantI S_ 1 1#1) reducesTo_S600000x1_S600000_d1 h_S_) (ix2 e l) = 1#1 := by
    unfold broadcastInDim
    exact reduce_andi_one _ _ _ _ (takeMask_apply a h) (fun _ => rfl) _
  rw [hm, select_one]
  exact GraphNet.gather_rows x (GraphNet.takeIndex a) e l
/-- The second take does not write the first take's result. -/
theorem W4_eq_W3_v20 (c : Dev nD) : W4 m ρ c (Proc.devRef .tc main_v20) = W3 m ρ c (Proc.devRef .tc main_v20) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The second take does not write the edge features. -/
theorem W4_eq_W3_arg1 (c : Dev nD) : W4 m ρ c (Proc.devRef .tc main_arg1) = W3 m ρ c (Proc.devRef .tc main_arg1) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The second take does not write the folded weight. -/
theorem W4_eq_W3_v8 (c : Dev nD) : W4 m ρ c (Proc.devRef .tc main_v8) = W3 m ρ c (Proc.devRef .tc main_v8) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The second take does not write the constant row. -/
theorem W4_eq_W3_v14 (c : Dev nD) : W4 m ρ c (Proc.devRef .tc main_v14) = W3 m ρ c (Proc.devRef .tc main_v14) :=
  StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The first take does not write the edge features. -/
theorem W3_eq_W2_arg1 (c : Dev nD) : W3 m ρ c (Proc.devRef .tc main_arg1) = W2 m ρ c (Proc.devRef .tc main_arg1) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The first take does not write the folded weight. -/
theorem W3_eq_W2_v8 (c : Dev nD) : W3 m ρ c (Proc.devRef .tc main_v8) = W2 m ρ c (Proc.devRef .tc main_v8) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The first take does not write the constant row. -/
theorem W3_eq_W2_v14 (c : Dev nD) : W3 m ρ c (Proc.devRef .tc main_v14) = W2 m ρ c (Proc.devRef .tc main_v14) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The first take does not write the second projection. -/
theorem W3_eq_W2_v19_1 (c : Dev nD) : W3 m ρ c (Proc.devRef .tc main_v19_1) = W2 m ρ c (Proc.devRef .tc main_v19_1) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The first take does not write the receiver vector. -/
theorem W3_eq_W2_arg4 (c : Dev nD) : W3 m ρ c (Proc.devRef .tc main_arg4) = W2 m ρ c (Proc.devRef .tc main_arg4) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The operations before the first call do not write the sender vector. -/
theorem W1_eq_W0_arg3 (c : Dev nD) : W1 m ρ c (Proc.devRef .tc main_arg3) = W0 m ρ c (Proc.devRef .tc main_arg3) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The operations before the first call do not write the receiver vector. -/
theorem W1_eq_W0_arg4 (c : Dev nD) : W1 m ρ c (Proc.devRef .tc main_arg4) = W0 m ρ c (Proc.devRef .tc main_arg4) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- After the first call the sender vector is as launched. -/
theorem W2_arg3 (c : Dev nD) : W2 m ρ c (Proc.devRef .tc main_arg3) = m ((c : Thread nD τ).loc main_arg3) :=
  ((W2_of_ne m ρ c main_arg3 (by decide)).trans (W1_eq_W0_arg3 m ρ c)).trans rfl

/-- After the first take the receiver vector is as launched. -/
theorem W3_arg4 (c : Dev nD) : W3 m ρ c (Proc.devRef .tc main_arg4) = m ((c : Thread nD τ).loc main_arg4) :=
  (((W3_eq_W2_arg4 m ρ c).trans (W2_of_ne m ρ c main_arg4 (by decide))).trans (W1_eq_W0_arg4 m ρ c)).trans rfl

set_option maxRecDepth 8192 in
set_option maxHeartbeats 2000000 in
/-- The first take's result is the take of the first projection at the sender vector. -/
theorem W3_v20 (c : Dev nD) :
    (W3 m ρ c (Proc.devRef .tc main_v20) : Mat 600000 128)
      = takeVal (W2 m ρ c (Proc.devRef .tc main_v19_0)) (W2 m ρ c (Proc.devRef .tc main_arg3)) := by
  show StableHlo.after hostOps1 (W2 m ρ c) (Proc.devRef .tc main_v20) = _
  after_results_simp
  simp only [TRef.ofBuf, TRef.toBuf, cast_eq]
  rfl

set_option maxRecDepth 8192 in
set_option maxHeartbeats 2000000 in
/-- The second take's result is the take of the second projection at the receiver vector. -/
theorem W4_v21_eq (c : Dev nD) :
    (W4 m ρ c (Proc.devRef .tc main_v21) : Mat 600000 128)
      = takeVal (W3 m ρ c (Proc.devRef .tc main_v19_1)) (W3 m ρ c (Proc.devRef .tc main_arg4)) := by
  show StableHlo.after hostOps1_1 (W3 m ρ c) (Proc.devRef .tc main_v21) = _
  after_results_simp
  simp only [TRef.ofBuf, TRef.toBuf, cast_eq]
  rfl

/-- The sender rows gathered from the first projection. -/
theorem W4_v20 (c : Dev nD) (hs : ∀ i, 0 ≤ (aSnd m c i).toInt ∧ (aSnd m c i).toInt < 50000) (e : Fin 600000) (l : Fin 128) :
    (W4 m ρ c (Proc.devRef .tc main_v20) : Mat 600000 128) (ix2 e l)
      = (W2 m ρ c (Proc.devRef .tc main_v19_0) : Mat 50000 128) (ix2 (GraphNet.rowsOf (aSnd m c) e) l) := by
  rw [W4_eq_W3_v20, W3_v20, W2_arg3]
  exact takeVal_apply _ _ hs e l
/-- The receiver rows gathered from the second projection. -/
theorem W4_v21 (c : Dev nD) (hr : ∀ i, 0 ≤ (aRcv m c i).toInt ∧ (aRcv m c i).toInt < 50000) (e : Fin 600000) (l : Fin 128) :
    (W4 m ρ c (Proc.devRef .tc main_v21) : Mat 600000 128) (ix2 e l)
      = (W2 m ρ c (Proc.devRef .tc main_v19_1) : Mat 50000 128) (ix2 (GraphNet.rowsOf (aRcv m c) e) l) := by
  rw [W4_v21_eq, W3_arg4, W3_eq_W2_v19_1]
  exact takeVal_apply _ _ hr e l
/-- Neither take nor the first call writes the edge features, the folded weight or the constant row. -/
theorem W4_arg1 (c : Dev nD) : W4 m ρ c (Proc.devRef .tc main_arg1) = W1 m ρ c (Proc.devRef .tc main_arg1) :=
  ((W4_eq_W3_arg1 m ρ c).trans (W3_eq_W2_arg1 m ρ c)).trans (W2_of_ne m ρ c main_arg1 (by decide))
theorem W4_v8 (c : Dev nD) : W4 m ρ c (Proc.devRef .tc main_v8) = W1 m ρ c (Proc.devRef .tc main_v8) :=
  ((W4_eq_W3_v8 m ρ c).trans (W3_eq_W2_v8 m ρ c)).trans (W2_of_ne m ρ c main_v8 (by decide))
theorem W4_v14 (c : Dev nD) : W4 m ρ c (Proc.devRef .tc main_v14) = W1 m ρ c (Proc.devRef .tc main_v14) :=
  ((W4_eq_W3_v14 m ρ c).trans (W3_eq_W2_v14 m ρ c)).trans (W2_of_ne m ρ c main_v14 (by decide))

end Cert.KernelIdeal.Hand

end
-- ==== Proof.LibScatterSet.lean ====
/-
  A scatter whose body returns the update (a set), read at an index that exactly one update lands on: the result
  there is that update.  Two instances: a 128 × 5 block set into the first five columns of a 128 × 128 array at the
  start column 0, and a length-5 vector set into the first five entries of a length-128 vector at start 0.
-/
import Idealize.ShloMosaic.PureOps
import Idealize.ShloMosaic.Lib.ValueIdx

noncomputable section

namespace GraphNet

open Idealize.ShloMosaic Idealize.ShloMosaic.ValueIdx

/-- A fold of set steps over any list of update positions, read at an index i on which only update n0 can land:
    if the accumulator already holds update n0 at i, or some position of the list lands on i, the fold leaves
    update n0 at i. -/
theorem foldl_set_apply {s si u : Shape} {w : Nat} {α : Type} (d : ScatterDims s si u) (idx : IVec si w)
    (upd : u.Idx → α) (i : s.Idx) (n0 : u.Idx)
    (huniq : ∀ n, d.resultIdx? n idx = some i → n = n0)
    (L : List (Fin u.numel)) (r : s.Idx → α)
    (h : r i = upd n0 ∨ ∃ n ∈ L, d.resultIdx? (u.rowMajor.symm n) idx = some i) :
    (L.foldl (fun r n =>
      match d.resultIdx? (u.rowMajor.symm n) idx with
      | some i => fun i' => if i' = i then (fun _ b => b) (r i) (upd (u.rowMajor.symm n)) else r i'
      | none => r) r) i = upd n0 := by
  induction L generalizing r with
  | nil =>
    rcases h with h | ⟨n, hn, _⟩
    · exact h
    · cases hn
  | cons a L ih =>
    rw [List.foldl_cons]
    apply ih
    rcases h with h | ⟨n, hn, hhit⟩
    · left
      cases hres : d.resultIdx? (u.rowMajor.symm a) idx with
      | none => exact h
      | some i' =>
        show (if i = i' then upd (u.rowMajor.symm a) else r i) = upd n0
        by_cases hi : i = i'
        · subst hi
          rw [if_pos rfl, huniq _ hres]
        · rw [if_neg hi]
          exact h
    · rcases List.mem_cons.1 hn with rfl | hn
      · left
        rw [hhit]
        show (if i = i then upd (u.rowMajor.symm n) else r i) = upd n0
        rw [if_pos rfl, huniq _ hhit]
      · right
        exact ⟨n, hn, hhit⟩

/-- If update n0 lands on index i and no other update does, a set-scatter leaves update n0 there. -/
theorem scatter_set_apply {s si u : Shape} {w : Nat} {α : Type} (d : ScatterDims s si u) (x : s.Idx → α) (idx : IVec si w)
    (upd : u.Idx → α) (i : s.Idx) (n0 : u.Idx) (h0 : d.resultIdx? n0 idx = some i)
    (huniq : ∀ n, d.resultIdx? n idx = some i → n = n0) :
    Host.scatter d (fun _ b => b) x idx upd i = upd n0 := by
  unfold Host.scatter
  refine foldl_set_apply d idx upd i n0 huniq _ x (Or.inr ⟨u.rowMajor n0, List.mem_finRange _, ?_⟩)
  rw [Equiv.symm_apply_apply]
  exact h0

/-- The dimension numbers of a 128 × 5 block set into a 128 × 128 array at a start column. -/
def padColsDims (wf : ScatterDims.WF ⟨2, ![128, 128]⟩ ⟨1, ![1]⟩ ⟨2, ![128, 5]⟩ [0, 1] [] [1] 0) :
    ScatterDims ⟨2, ![128, 128]⟩ ⟨1, ![1]⟩ ⟨2, ![128, 5]⟩ where
  updateWindowDims := [0, 1]
  insertedWindowDims := []
  scatterDimsToOperandDims := [1]
  indexVectorDim := 0
  wf := wf

/-- With every scatter index 0, the window of the block scatter starts at 0 on both axes. -/
theorem padCols_start (wf : ScatterDims.WF ⟨2, ![128, 128]⟩ ⟨1, ![1]⟩ ⟨2, ![128, 5]⟩ [0, 1] [] [1] 0)
    (idx : IVec ⟨1, ![1]⟩ 32) (hidx : ∀ i, idx i = 0#32) (j : (⟨2, ![128, 5]⟩ : Shape).Idx) (a : Fin 2) :
    (padColsDims wf).start j idx a = 0 := by
  unfold ScatterDims.start
  split
  · rw [hidx]
    decide
  · rfl

/-- The block scatter's window coordinate on axis 0 is the update's row. -/
theorem padCols_window0 (wf : ScatterDims.WF ⟨2, ![128, 128]⟩ ⟨1, ![1]⟩ ⟨2, ![128, 5]⟩ [0, 1] [] [1] 0)
    (j : (⟨2, ![128, 5]⟩ : Shape).Idx) : (padColsDims wf).window j 0 = (j 0).val := by
  unfold ScatterDims.window
  have hm : (0 : Fin 2) ∈ (padColsDims wf).sKept := by
    show (0 : Fin 2) ∈ Shape.kept ⟨2, ![128, 128]⟩ []
    decide
  rw [dif_pos hm]
  rfl

/-- The block scatter's window coordinate on axis 1 is the update's column. -/
theorem padCols_window1 (wf : ScatterDims.WF ⟨2, ![128, 128]⟩ ⟨1, ![1]⟩ ⟨2, ![128, 5]⟩ [0, 1] [] [1] 0)
    (j : (⟨2, ![128, 5]⟩ : Shape).Idx) : (padColsDims wf).window j 1 = (j 1).val := by
  unfold ScatterDims.window
  have hm : (1 : Fin 2) ∈ (padColsDims wf).sKept := by
    show (1 : Fin 2) ∈ Shape.kept ⟨2, ![128, 128]⟩ []
    decide
  rw [dif_pos hm]
  rfl

/-- With every scatter index 0, update (r, c) of the block scatter lands on (r, c). -/
theorem padCols_resultIdx (wf : ScatterDims.WF ⟨2, ![128, 128]⟩ ⟨1, ![1]⟩ ⟨2, ![128, 5]⟩ [0, 1] [] [1] 0)
    (idx : IVec ⟨1, ![1]⟩ 32) (hidx : ∀ i, idx i = 0#32) (j : (⟨2, ![128, 5]⟩ : Shape).Idx) :
    (padColsDims wf).resultIdx? j idx
      = some (ix2 (⟨(j 0).val, idx2_lt0 j⟩ : Fin 128) (⟨(j 1).val, by have := idx2_lt1 j; omega⟩ : Fin 128)) := by
  have hs := padCols_start wf idx hidx j
  have hw0 := padCols_window0 wf j
  have hw1 := padCols_window1 wf j
  have hall : ∀ a, 0 ≤ (padColsDims wf).start j idx a + (padColsDims wf).window j a ∧
      (padColsDims wf).start j idx a + (padColsDims wf).window j a < (⟨2, ![128, 128]⟩ : Shape).size a := by
    intro a
    rw [hs a]
    match a with
    | ⟨0, _⟩ =>
      show 0 ≤ (0 : Int) + ((padColsDims wf).window j 0 : Nat) ∧ (0 : Int) + ((padColsDims wf).window j 0 : Nat) < (128 : Nat)
      rw [hw0]
      have := idx2_lt0 j
      omega
    | ⟨1, _⟩ =>
      show 0 ≤ (0 : Int) + ((padColsDims wf).window j 1 : Nat) ∧ (0 : Int) + ((padColsDims wf).window j 1 : Nat) < (128 : Nat)
      rw [hw1]
      have := idx2_lt1 j
      omega
  unfold ScatterDims.resultIdx?
  rw [dif_pos hall]
  congr 1
  funext a
  apply Fin.ext
  match a with
  | ⟨0, _⟩ =>
    show ((padColsDims wf).start j idx 0 + ((padColsDims wf).window j 0 : Nat)).toNat = (j 0).val
    rw [hs, hw0]
    omega
  | ⟨1, _⟩ =>
    show ((padColsDims wf).start j idx 1 + ((padColsDims wf).window j 1 : Nat)).toNat = (j 1).val
    rw [hs, hw1]
    omega

/-- At start column 0 the set array's element (l, o), o < 5, is the block's (l, o). -/
theorem padCols_apply (wf : ScatterDims.WF ⟨2, ![128, 128]⟩ ⟨1, ![1]⟩ ⟨2, ![128, 5]⟩ [0, 1] [] [1] 0) {α : Type}
    (x : (⟨2, ![128, 128]⟩ : Shape).Idx → α) (idx : IVec ⟨1, ![1]⟩ 32) (hidx : ∀ i, idx i = 0#32)
    (upd : (⟨2, ![128, 5]⟩ : Shape).Idx → α) (l : Fin 128) (o : Fin 5) :
    Host.scatter (padColsDims wf) (fun _ b => b) x idx upd (ix2 l (⟨o.val, by have := o.isLt; omega⟩ : Fin 128)) = upd (ix2 l o) := by
  apply scatter_set_apply (padColsDims wf) x idx upd _ (ix2 l o)
  · rw [padCols_resultIdx wf idx hidx]
  · intro n hn
    rw [padCols_resultIdx wf idx hidx] at hn
    have h := Option.some.inj hn
    obtain ⟨a, b, rfl⟩ : ∃ a b, n = ix2 a b := ⟨n 0, n 1, eq_ix2 n⟩
    have h0 : a.val = l.val := by
      have := congrArg Fin.val (congrFun h 0)
      exact this
    have h1 : b.val = o.val := by
      have := congrArg Fin.val (congrFun h 1)
      exact this
    rw [Fin.ext h0, Fin.ext h1]

/-- The dimension numbers of a length-5 vector set into a length-128 vector at a start entry. -/
def padVecDims (wf : ScatterDims.WF ⟨1, ![128]⟩ ⟨1, ![1]⟩ ⟨1, ![5]⟩ [0] [] [0] 0) :
    ScatterDims ⟨1, ![128]⟩ ⟨1, ![1]⟩ ⟨1, ![5]⟩ where
  updateWindowDims := [0]
  insertedWindowDims := []
  scatterDimsToOperandDims := [0]
  indexVectorDim := 0
  wf := wf

/-- With every scatter index 0, the window of the vector scatter starts at 0. -/
theorem padVec_start (wf : ScatterDims.WF ⟨1, ![128]⟩ ⟨1, ![1]⟩ ⟨1, ![5]⟩ [0] [] [0] 0)
    (idx : IVec ⟨1, ![1]⟩ 32) (hidx : ∀ i, idx i = 0#32) (j : (⟨1, ![5]⟩ : Shape).Idx) (a : Fin 1) :
    (padVecDims wf).start j idx a = 0 := by
  unfold ScatterDims.start
  split
  · rw [hidx]
    decide
  · rfl

/-- The vector scatter's window coordinate is the update's entry. -/
theorem padVec_window0 (wf : ScatterDims.WF ⟨1, ![128]⟩ ⟨1, ![1]⟩ ⟨1, ![5]⟩ [0] [] [0] 0)
    (j : (⟨1, ![5]⟩ : Shape).Idx) : (padVecDims wf).window j 0 = (j 0).val := by
  unfold ScatterDims.window
  have hm : (0 : Fin 1) ∈ (padVecDims wf).sKept := by
    show (0 : Fin 1) ∈ Shape.kept ⟨1, ![128]⟩ []
    decide
  rw [dif_pos hm]
  rfl

/-- With every scatter index 0, update c of the vector scatter lands on entry c. -/
theorem padVec_resultIdx (wf : ScatterDims.WF ⟨1, ![128]⟩ ⟨1, ![1]⟩ ⟨1, ![5]⟩ [0] [] [0] 0)
    (idx : IVec ⟨1, ![1]⟩ 32) (hidx : ∀ i, idx i = 0#32) (j : (⟨1, ![5]⟩ : Shape).Idx) :
    (padVecDims wf).resultIdx? j idx
      = some (ix1 (⟨(j 0).val, by have : (j 0).val < 5 := (j 0).isLt; omega⟩ : Fin 128)) := by
  have hs := padVec_start wf idx hidx j
  have hw0 := padVec_window0 wf j
  have hlt : (j 0).val < 5 := (j 0).isLt
  have hall : ∀ a, 0 ≤ (padVecDims wf).start j idx a + (padVecDims wf).window j a ∧
      (padVecDims wf).start j idx a + (padVecDims wf).window j a < (⟨1, ![128]⟩ : Shape).size a := by
    intro a
    rw [hs a]
    match a with
    | ⟨0, _⟩ =>
      show 0 ≤ (0 : Int) + ((padVecDims wf).window j 0 : Nat) ∧ (0 : Int) + ((padVecDims wf).window j 0 : Nat) < (128 : Nat)
      rw [hw0]
      omega
  unfold ScatterDims.resultIdx?
  rw [dif_pos hall]
  congr 1
  funext a
  apply Fin.ext
  match a with
  | ⟨0, _⟩ =>
    show ((padVecDims wf).start j idx 0 + ((padVecDims wf).window j 0 : Nat)).toNat = (j 0).val
    rw [hs, hw0]
    omega

/-- At start entry 0 the set vector's entry o, o < 5, is the short vector's entry o. -/
theorem padVec_apply (wf : ScatterDims.WF ⟨1, ![128]⟩ ⟨1, ![1]⟩ ⟨1, ![5]⟩ [0] [] [0] 0) {α : Type}
    (x : (⟨1, ![128]⟩ : Shape).Idx → α) (idx : IVec ⟨1, ![1]⟩ 32) (hidx : ∀ i, idx i = 0#32)
    (upd : (⟨1, ![5]⟩ : Shape).Idx → α) (o : Fin 5) :
    Host.scatter (padVecDims wf) (fun _ b => b) x idx upd (ix1 (⟨o.val, by have := o.isLt; omega⟩ : Fin 128)) = upd (ix1 o) := by
  apply scatter_set_apply (padVecDims wf) x idx upd _ (ix1 o)
  · rw [padVec_resultIdx wf idx hidx]
  · intro n hn
    rw [padVec_resultIdx wf idx hidx] at hn
    have h := Option.some.inj hn
    obtain ⟨a, rfl⟩ : ∃ a, n = ix1 a := ⟨n 0, eq_ix1 n⟩
    have h0 : a.val = o.val := by
      have := congrArg Fin.val (congrFun h 0)
      exact this
    rw [Fin.ext h0]

end GraphNet

end
-- ==== Proof.KHost2.lean ====
/-
  The host operations between the second and the third call: the two segment sums of the updated edges (by
  senders, by receivers), and the head's weight and bias padded with zero columns from 5 to 128 (a set of the first
  five columns into zeros, read back at a column below 5).  The other buffers the third call reads are untouched
  since they were written.
-/
import proofs.«426872_j55293408968886_3_alg».proof.Proof.KArgs
import proofs.«426872_j55293408968886_3_alg».proof.Proof.Ops
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«426872_j55293408968886_3_alg».proof.Proof.LibScatterSet

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open GraphNet (Mat Row blk tail16)

variable (m : (ℓ : Loc nD τ sig) → Buf (Elt Ideal) ℓ) (ρ : Dev nD → PrngReg)

/-- The argument buffer main_arg3 holds its launch contents after the second call. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The argument buffer main_arg4 holds its launch contents after the second call. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The argument buffer main_arg13 holds its launch contents after the second call. -/
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- The argument buffer main_arg14 holds its launch contents after the second call. -/
theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- The sent sums: the segment sum of the second call's result by the senders. -/
theorem W6_v25 (c : Dev nD) :
    (W6 m ρ c (Proc.devRef .tc main_v25) : Mat 50000 128)
      = GraphNet.segSum (aSnd m c) (W5 m ρ c (Proc.devRef .tc main_v22) : Mat 600000 128) := by
  show StableHlo.after hostOps2 (W5 m ρ c) (Proc.devRef .tc main_v25) = _
  after_results
  rw [W5_main_arg3]
  rfl
/-- The received sums: the segment sum of the second call's result by the receivers. -/
theorem W6_v28 (c : Dev nD) :
    (W6 m ρ c (Proc.devRef .tc main_v28) : Mat 50000 128)
      = GraphNet.segSum (aRcv m c) (W5 m ρ c (Proc.devRef .tc main_v22) : Mat 600000 128) := by
  show StableHlo.after hostOps2 (W5 m ρ c) (Proc.devRef .tc main_v28) = _
  after_results
  rw [W5_main_arg4]
  rfl
/-- The padded head weight at a column below 5 is the head weight. -/
theorem W6_v31 (c : Dev nD) (l : Fin 128) (o : Fin 5) :
    (W6 m ρ c (Proc.devRef .tc main_v31) : Mat 128 128) (ix2 l (⟨o.val, by have := o.isLt; omega⟩ : Fin 128)) = aWout m c (ix2 l o) := by
  show StableHlo.after hostOps2 (W5 m ρ c) (Proc.devRef .tc main_v31) (ix2 l (⟨o.val, _⟩ : Fin 128)) = _
  after_results
  rw [W5_main_arg13]
  exact GraphNet.padCols_apply scatter_S128x128_S1_S128x5_01_n_1_0_wf _ _ (fun _ => rfl) _ l o
/-- The padded head bias at a column below 5 is the head bias. -/
theorem W6_v35 (c : Dev nD) (o : Fin 5) :
    (W6 m ρ c (Proc.devRef .tc main_v35) : Mat 1 128) (ix2 (0 : Fin 1) (⟨o.val, by have := o.isLt; omega⟩ : Fin 128)) = aBout m c (ix1 o) := by
  show StableHlo.after hostOps2 (W5 m ρ c) (Proc.devRef .tc main_v35) (ix2 (0 : Fin 1) (⟨o.val, _⟩ : Fin 128)) = _
  after_results
  rw [W5_main_arg14]
  show shapeCast (⟨2, ![1, 128]⟩ : Shape) _ shapeCasts_S128_S1x128 (ix2 (0 : Fin 1) (⟨o.val, _⟩ : Fin 128)) = _
  rw [shapeCast_a_1a_apply]
  exact GraphNet.padVec_apply scatter_S128_S1_S5_0_n_0_0_wf _ _ (fun _ => rfl) _ o
/-- Untouched since the first host stretch wrote them: two blocks of the node update's weight and its constant row. -/
theorem W6_v5 (c : Dev nD) : W6 m ρ c (Proc.devRef .tc main_v5) = W1 m ρ c (Proc.devRef .tc main_v5) :=
  calc W6 m ρ c (Proc.devRef .tc main_v5)
    _ = W5 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v5) := W5_of_ne m ρ c main_v5 (by decide)
    _ = W3 m ρ c (Proc.devRef .tc main_v5) := StableHlo.after_of_forall_not_mem (b := Proc.devRef .tc main_v5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)
theorem W6_v6 (c : Dev nD) : W6 m ρ c (Proc.devRef .tc main_v6) = W1 m ρ c (Proc.devRef .tc main_v6) :=
  calc W6 m ρ c (Proc.devRef .tc main_v6)
    _ = W5 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v6) := W5_of_ne m ρ c main_v6 (by decide)
    _ = W3 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)
theorem W6_v17 (c : Dev nD) : W6 m ρ c (Proc.devRef .tc main_v17) = W1 m ρ c (Proc.devRef .tc main_v17) :=
  calc W6 m ρ c (Proc.devRef .tc main_v17)
    _ = W5 m ρ c (Proc.devRef .tc main_v17) := StableHlo.after_of_forall_not_mem (b := Proc.devRef .tc main_v17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v17) := W5_of_ne m ρ c main_v17 (by decide)
    _ = W3 m ρ c (Proc.devRef .tc main_v17) := StableHlo.after_of_forall_not_mem (b := Proc.devRef .tc main_v17) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v17) := W2_of_ne m ρ c main_v17 (by decide)
/-- Untouched since the first call wrote it: the node's own projection. -/
theorem W6_v19_2 (c : Dev nD) : W6 m ρ c (Proc.devRef .tc main_v19_2) = W2 m ρ c (Proc.devRef .tc main_v19_2) :=
  calc W6 m ρ c (Proc.devRef .tc main_v19_2)
    _ = W5 m ρ c (Proc.devRef .tc main_v19_2) := StableHlo.after_of_forall_not_mem (b := Proc.devRef .tc main_v19_2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v19_2) := W5_of_ne m ρ c main_v19_2 (by decide)
    _ = W3 m ρ c (Proc.devRef .tc main_v19_2) := StableHlo.after_of_forall_not_mem (b := Proc.devRef .tc main_v19_2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v19_2) := StableHlo.after_of_forall_not_mem (b := Proc.devRef .tc main_v19_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Hand

end
-- ==== Proof.KValue.lean ====
/-
  The kernel program's result, composed through the program: the first call's three projections of the encoded
  nodes, the two row takes, the second call's updated edges, the two segment sums, the third call's updated nodes
  through the padded head, and the final cut to five columns — each stage read at an index from the stage before —
  give the kernel's form of the graph-network layer (GraphNet.outKer) at every node and column.
-/
import proofs.«426872_j55293408968886_3_alg».proof.Proof.KArgs
import proofs.«426872_j55293408968886_3_alg».proof.Proof.Ops
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«426872_j55293408968886_3_alg».proof.Proof.KHost0
import proofs.«426872_j55293408968886_3_alg».proof.Proof.KRegion0
import proofs.«426872_j55293408968886_3_alg».proof.Proof.KRegion1
import proofs.«426872_j55293408968886_3_alg».proof.Proof.KRegion2
import proofs.«426872_j55293408968886_3_alg».proof.Proof.KTake
import proofs.«426872_j55293408968886_3_alg».proof.Proof.KHost2

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open GraphNet (Mat Row blk tail16)

variable (m : (ℓ : Loc nD τ sig) → Buf (Elt Ideal) ℓ) (ρ : Dev nD → PrngReg)

/-! ## After the first call: the three projections of the encoded nodes -/

/-- What the first call reads is what the first host stretch left: the arguments, the bias row, the three blocks. -/
theorem r0_reads (c : Dev nD) :
    r0X (V1 m ρ) c = aX m c ∧ r0Wne (V1 m ρ) c = aWne m c
      ∧ (∀ q : Fin 128, r0Bne (V1 m ρ) c (ix2 (0 : Fin 1) q) = aBne m c (ix1 q))
      ∧ (∀ p q : Fin 128, r0Ws (V1 m ρ) c (ix2 p q) = aWeu m c (ix2 (blk 128 (by omega) p) q))
      ∧ (∀ p q : Fin 128, r0Wr (V1 m ρ) c (ix2 p q) = aWeu m c (ix2 (blk 256 (by omega) p) q))
      ∧ (∀ p q : Fin 128, r0Wn (V1 m ρ) c (ix2 p q) = aWnu m c (ix2 (blk 0 (by omega) p) q)) :=
  ⟨W1_arg0 m ρ c, W1_arg5 m ρ c, W1_v18 m ρ c, W1_v1 m ρ c, W1_v2 m ρ c, W1_v4 m ρ c⟩

/-- Result 0 of the first call: the encoded nodes through rows 128..255 of the edge update's weight. -/
theorem W2_v19_0 (c : Dev nD) (n : Fin 50000) (l : Fin 128) :
    (W2 m ρ c (Proc.devRef .tc main_v19_0) : Mat 50000 128) (ix2 n l)
      = GraphNet.proj (aX m c) (aWne m c) (aBne m c) (aWeu m c) 128 (by omega) n l := by
  have e : (W2 m ρ c (Proc.devRef .tc main_v19_0) : Mat 50000 128) = r0Out6 (V1 m ρ) c := W2_arr m ρ c 6
  obtain ⟨hX, hW, hB, hs, -, -⟩ := r0_reads m ρ c
  rw [e, arr0_6 (V1 m ρ) c n l, hX, hW]
  unfold GraphNet.proj GraphNet.enc
  simp only [hB, hs]

/-- Result 1 of the first call: the encoded nodes through rows 256..383 of the edge update's weight. -/
theorem W2_v19_1 (c : Dev nD) (n : Fin 50000) (l : Fin 128) :
    (W2 m ρ c (Proc.devRef .tc main_v19_1) : Mat 50000 128) (ix2 n l)
      = GraphNet.proj (aX m c) (aWne m c) (aBne m c) (aWeu m c) 256 (by omega) n l := by
  have e : (W2 m ρ c (Proc.devRef .tc main_v19_1) : Mat 50000 128) = r0Out7 (V1 m ρ) c := W2_arr m ρ c 7
  obtain ⟨hX, hW, hB, -, hr, -⟩ := r0_reads m ρ c
  rw [e, arr0_7 (V1 m ρ) c n l, hX, hW]
  unfold GraphNet.proj GraphNet.enc
  simp only [hB, hr]

/-- Result 2 of the first call: the encoded nodes through rows 0..127 of the node update's weight. -/
theorem W2_v19_2 (c : Dev nD) (n : Fin 50000) (l : Fin 128) :
    (W2 m ρ c (Proc.devRef .tc main_v19_2) : Mat 50000 128) (ix2 n l)
      = GraphNet.proj (aX m c) (aWne m c) (aBne m c) (aWnu m c) 0 (by omega) n l := by
  have e : (W2 m ρ c (Proc.devRef .tc main_v19_2) : Mat 50000 128) = r0Out8 (V1 m ρ) c := W2_arr m ρ c 8
  obtain ⟨hX, hW, hB, -, -, hn⟩ := r0_reads m ρ c
  rw [e, arr0_8 (V1 m ρ) c n l, hX, hW]
  unfold GraphNet.proj GraphNet.enc
  simp only [hB, hn]

/-! ## After the second call: the updated edges -/

section Ranges

variable (c : Dev nD)
  (hs : ∀ i, 0 ≤ (aSnd m c i).toInt ∧ (aSnd m c i).toInt < 50000)
  (hr : ∀ i, 0 ≤ (aRcv m c i).toInt ∧ (aRcv m c i).toInt < 50000)

include hs hr

/-- The second call's result: the kernel's form of the updated edge e, column l. -/
theorem W5_v22 (e : Fin 600000) (l : Fin 128) :
    (W5 m ρ c (Proc.devRef .tc main_v22) : Mat 600000 128) (ix2 e l)
      = GraphNet.newEdgesKer (aX m c) (aE m c) (aG m c) (aWne m c) (aBne m c) (aWee m c) (aBee m c) (aWeu m c) (aBeu m c)
          (GraphNet.rowsOf (aSnd m c)) (GraphNet.rowsOf (aRcv m c)) e l := by
  have e5 : (W5 m ρ c (Proc.devRef .tc main_v22) : Mat 600000 128) = r1Out (V4 m ρ) c := W5_arr m ρ c 5
  have hE : r1E (V4 m ρ) c = aE m c := (W4_arg1 m ρ c).trans (W1_arg1 m ρ c)
  have hW : ∀ (k : Fin 16) (q : Fin 128), r1W (V4 m ρ) c (ix2 k q) = GraphNet.wcomb (aWee m c) (aWeu m c) k q := fun k q => by
    show (W4 m ρ c (Proc.devRef .tc main_v8) : Mat 16 128) (ix2 k q) = _
    rw [W4_v8 m ρ c]; exact W1_v8 m ρ c k q
  have hB : ∀ q : Fin 128, r1B (V4 m ρ) c (ix2 (0 : Fin 1) q) = GraphNet.bcomb (aG m c) (aBee m c) (aWeu m c) (aBeu m c) q := fun q => by
    show (W4 m ρ c (Proc.devRef .tc main_v14) : Mat 1 128) (ix2 (0 : Fin 1) q) = _
    rw [W4_v14 m ρ c]; exact W1_v14 m ρ c q
  have hPs : r1Ps (V4 m ρ) c (ix2 e l) = GraphNet.proj (aX m c) (aWne m c) (aBne m c) (aWeu m c) 128 (by omega) (GraphNet.rowsOf (aSnd m c) e) l :=
    (W4_v20 m ρ c hs e l).trans (W2_v19_0 m ρ c _ l)
  have hPr : r1Pr (V4 m ρ) c (ix2 e l) = GraphNet.proj (aX m c) (aWne m c) (aBne m c) (aWeu m c) 256 (by omega) (GraphNet.rowsOf (aRcv m c) e) l :=
    (W4_v21 m ρ c hr e l).trans (W2_v19_1 m ρ c _ l)
  rw [e5, arr1_5 (V4 m ρ) c e l, hE, hPs, hPr, hB]
  unfold GraphNet.newEdgesKer
  simp only [hW]

/-- The second call's result as one array: the kernel's updated edges. -/
theorem W5_v22_arr :
    (W5 m ρ c (Proc.devRef .tc main_v22) : Mat 600000 128)
      = GraphNet.edgesArrKer (aX m c) (aE m c) (aG m c) (aWne m c) (aBne m c) (aWee m c) (aBee m c) (aWeu m c) (aBeu m c)
          (GraphNet.rowsOf (aSnd m c)) (GraphNet.rowsOf (aRcv m c)) := by
  funext i
  obtain ⟨e, l, rfl⟩ : ∃ (e : Fin 600000) (l : Fin 128), i = ix2 e l := ⟨i 0, i 1, eq_ix2 i⟩
  exact W5_v22 m ρ c hs hr e l

/-! ## After the third call, and the final cut -/

/-- The third call's result at a column below 5: the kernel's form of the layer's result. -/
theorem W7_v36 (n : Fin 50000) (o : Fin 5) :
    (W7 m ρ c (Proc.devRef .tc main_v36) : Mat 50000 128) (ix2 n (⟨o.val, by have := o.isLt; omega⟩ : Fin 128))
      = GraphNet.outKer (aX m c) (aE m c) (aG m c) (aWne m c) (aBne m c) (aWee m c) (aBee m c) (aWeu m c) (aBeu m c)
          (aWnu m c) (aBnu m c) (aWout m c) (aBout m c) (GraphNet.rowsOf (aSnd m c)) (GraphNet.rowsOf (aRcv m c))
          (GraphNet.segSum (aSnd m c)) (GraphNet.segSum (aRcv m c)) n o := by
  have e7 : (W7 m ρ c (Proc.devRef .tc main_v36) : Mat 50000 128) = r2Out (V6 m ρ) c := W7_arr m ρ c 8
  have hPn : ∀ q : Fin 128, r2Pn (V6 m ρ) c (ix2 n q) = GraphNet.proj (aX m c) (aWne m c) (aBne m c) (aWnu m c) 0 (by omega) n q := fun q => by
    show (W6 m ρ c (Proc.devRef .tc main_v19_2) : Mat 50000 128) (ix2 n q) = _
    rw [W6_v19_2 m ρ c]; exact W2_v19_2 m ρ c n q
  have hS : r2Sent (V6 m ρ) c = GraphNet.segSum (aSnd m c) (GraphNet.edgesArrKer (aX m c) (aE m c) (aG m c) (aWne m c) (aBne m c) (aWee m c) (aBee m c) (aWeu m c) (aBeu m c)
          (GraphNet.rowsOf (aSnd m c)) (GraphNet.rowsOf (aRcv m c))) := by
    show (W6 m ρ c (Proc.devRef .tc main_v25) : Mat 50000 128) = _
    rw [W6_v25 m ρ c, W5_v22_arr m ρ c hs hr]
  have hR : r2Recv (V6 m ρ) c = GraphNet.segSum (aRcv m c) (GraphNet.edgesArrKer (aX m c) (aE m c) (aG m c) (aWne m c) (aBne m c) (aWee m c) (aBee m c) (aWeu m c) (aBeu m c)
          (GraphNet.rowsOf (aSnd m c)) (GraphNet.rowsOf (aRcv m c))) := by
    show (W6 m ρ c (Proc.devRef .tc main_v28) : Mat 50000 128) = _
    rw [W6_v28 m ρ c, W5_v22_arr m ρ c hs hr]
  have hWs : ∀ p q : Fin 128, r2Ws (V6 m ρ) c (ix2 p q) = aWnu m c (ix2 (blk 128 (by omega) p) q) := fun p q => by
    show (W6 m ρ c (Proc.devRef .tc main_v5) : Mat 128 128) (ix2 p q) = _
    rw [W6_v5 m ρ c]; exact W1_v5 m ρ c p q
  have hWr : ∀ p q : Fin 128, r2Wr (V6 m ρ) c (ix2 p q) = aWnu m c (ix2 (blk 256 (by omega) p) q) := fun p q => by
    show (W6 m ρ c (Proc.devRef .tc main_v6) : Mat 128 128) (ix2 p q) = _
    rw [W6_v6 m ρ c]; exact W1_v6 m ρ c p q
  have hB : ∀ q : Fin 128, r2B (V6 m ρ) c (ix2 (0 : Fin 1) q) = GraphNet.bnuc (aG m c) (aWnu m c) (aBnu m c) q := fun q => by
    show (W6 m ρ c (Proc.devRef .tc main_v17) : Mat 1 128) (ix2 (0 : Fin 1) q) = _
    rw [W6_v17 m ρ c]; exact W1_v17 m ρ c q
  have hWo : ∀ q : Fin 128, r2Wo (V6 m ρ) c (ix2 q (⟨o.val, by have := o.isLt; omega⟩ : Fin 128)) = aWout m c (ix2 q o) := fun q =>
    W6_v31 m ρ c q o
  have hBo : r2Bo (V6 m ρ) c (ix2 (0 : Fin 1) (⟨o.val, by have := o.isLt; omega⟩ : Fin 128)) = aBout m c (ix1 o) := W6_v35 m ρ c o
  rw [e7, arr2_8 (V6 m ρ) c n _, hS, hR, hBo]
  unfold GraphNet.outKer GraphNet.newNodesKer
  simp only [hPn, hWs, hWr, hB, hWo]

/-- The program's result buffer at node n, column o: the kernel's form of the layer's result. -/
theorem result_value (n : Fin 50000) (o : Fin 5) :
    (W8 m ρ c (Proc.devRef .tc main_v37) : Mat 50000 5) (ix2 n o)
      = GraphNet.outKer (aX m c) (aE m c) (aG m c) (aWne m c) (aBne m c) (aWee m c) (aBee m c) (aWeu m c) (aBeu m c)
          (aWnu m c) (aBnu m c) (aWout m c) (aBout m c) (GraphNet.rowsOf (aSnd m c)) (GraphNet.rowsOf (aRcv m c))
          (GraphNet.segSum (aSnd m c)) (GraphNet.segSum (aRcv m c)) n o := by
  have e8 : (W8 m ρ c (Proc.devRef .tc main_v37) : Mat 50000 5)
      = extractStridedSlice S50000x5 ![0, 0] (W7 m ρ c (Proc.devRef .tc main_v36) : Mat 50000 128) slices_S50000x128_S50000x5_0_0 := by
    show StableHlo.after hostOps3 (W7 m ρ c) (Proc.devRef .tc main_v37) = _
    after_results
  rw [e8, ← W7_v36 m ρ c hs hr n o]
  refine extractStridedSlice_apply _ _ _ _ _ fun a => ?_
  match a with
  | ⟨0, _⟩ => show n.val = 0 + n.val; omega
  | ⟨1, _⟩ => show o.val = 0 + o.val; omega

end Ranges

end Cert.KernelIdeal.Hand

end
-- ==== Proof.RefStages.lean ====
/-
  The reference program's fifty host operations, cut into five stretches — the 28 operations up to the two row
  gathers, the join of [edge, sender row, receiver row, globals], the 12 operations through the two segment sums,
  the join of [node, sent, received, globals], and the last 8 — so that the fold of the whole list over any starting
  contents W is read one stretch at a time: each stretch's results are the stage functions (val_…) of the results
  of the stretch before.  The result buffer then holds the last stage function of W's argument buffers.
-/
import proofs.«426872_j55293408968886_3_alg».proof.Proof.RefRead
import Idealize.ShloMosaic.Lib.StableHlo.Run

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Operations 0..27: the two encoders, the globals' broadcasts, the wrapped index columns, the two row gathers. -/
abbrev opsA : List (HloOp τ sig (Elt F)) :=
  [ binary main_arg0 main_arg5 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    binary main_arg1 main_arg7 main_v4 ((fun l r => Host.dotGeneral dot_S600000x16_S16x128_S600000x128_1_0_0_1_n_n none l r) : (⟨S600000x16, .f32⟩ : BufTy).Contents (Elt F) → (⟨S16x128, .f32⟩ : BufTy).Contents (Elt F) → (⟨S600000x128, .f32⟩ : BufTy).Contents (Elt F)),
    unary main_arg8 main_v5 (broadcastInDim S1x128 ![1] bcast_S128_S1x128_1 : (⟨S128, .f32⟩ : BufTy).Contents (Elt F) → (⟨S1x128, .f32⟩ : BufTy).Contents (Elt F)),
    unary main_v5 main_v6 (broadcastInDim S600000x128 ![0, 1] bcast_S1x128_S600000x128_0_1 : (⟨S1x128, .f32⟩ : BufTy).Contents (Elt F) → (⟨S600000x128, .f32⟩ : BufTy).Contents (Elt F)),
    binary main_v4 main_v6 main_v7 (addf : (⟨S600000x128, .f32⟩ : BufTy).Contents (Elt F) → (⟨S600000x128, .f32⟩ : BufTy).Contents (Elt F) → (⟨S600000x128, .f32⟩ : BufTy).Contents (Elt F)),
    unary main_arg2 main_v8 (broadcastInDim S600000x16 ![0, 1] bcast_S1x16_S600000x16_0_1 : (⟨S1x16, .f32⟩ : BufTy).Contents (Elt F) → (⟨S600000x16, .f32⟩ : BufTy).Contents (Elt F)),
    unary main_arg2 main_v9 (broadcastInDim S50000x16 ![0, 1] bcast_S1x16_S50000x16_0_1 : (⟨S1x16, .f32⟩ : BufTy).Contents (Elt F) → (⟨S50000x16, .f32⟩ : BufTy).Contents (Elt F)),
    nullary main_c (constantI S_ 32 0#32),
    unary main_c main_v10 (broadcastInDim S600000 ![] bcast_S_S600000 : (⟨S_, .i32⟩ : BufTy).Contents (Elt F) → (⟨S600000, .i32⟩ : BufTy).Contents (Elt F)),
    binary main_arg3 main_v10 main_v11 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v12 (broadcastInDim S600000 ![] bcast_S_S600000 : (⟨S_, .i32⟩ : BufTy).Contents (Elt F) → (⟨S600000, .i32⟩ : BufTy).Contents (Elt F)),
    binary main_arg3 main_v12 main_v13 (addi : (⟨S600000, .i32⟩ : BufTy).Contents (Elt F) → (⟨S600000, .i32⟩ : BufTy).Contents (Elt F) → (⟨S600000, .i32⟩ : BufTy).Contents (Elt F)),
    ternary main_v11 main_v13 main_arg3 main_v14 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v14 main_v15 (broadcastInDim S600000x1 ![0] bcast_S600000_S600000x1_0 : (⟨S600000, .i32⟩ : BufTy).Contents (Elt F) → (⟨S600000x1, .i32⟩ : BufTy).Contents (Elt F)),
    binary main_v3 main_v15 main_v16 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v17 (broadcastInDim S600000 ![] bcast_S_S600000 : (⟨S_, .i32⟩ : BufTy).Contents (Elt F) → (⟨S600000, .i32⟩ : BufTy).Contents (Elt F)),
    binary main_arg4 main_v17 main_v18 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v19 (broadcastInDim S600000 ![] bcast_S_S600000 : (⟨S_, .i32⟩ : BufTy).Contents (Elt F) → (⟨S600000, .i32⟩ : BufTy).Contents (Elt F)),
    binary main_arg4 main_v19 main_v20 (addi : (⟨S600000, .i32⟩ : BufTy).Contents (Elt F) → (⟨S600000, .i32⟩ : BufTy).Contents (Elt F) → (⟨S600000, .i32⟩ : BufTy).Contents (Elt F)),
    ternary main_v18 main_v20 main_arg4 main_v21 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v21 main_v22 (broadcastInDim S600000x1 ![0] bcast_S600000_S600000x1_0 : (⟨S600000, .i32⟩ : BufTy).Contents (Elt F) → (⟨S600000x1, .i32⟩ : BufTy).Contents (Elt F)),
    binary main_v3 main_v22 main_v23 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]
/-- Operation 28: the join of [edge, sender row, receiver row, globals]. -/
abbrev opJ1 : HloOp τ sig (Elt F) :=
  nary ![main_v7, main_v16, main_v23, main_v8] main_v24 (fun u => concatenate S600000x400 1 [⟨S600000x128, u 0⟩, ⟨S600000x128, u 1⟩, ⟨S600000x128, u 2⟩, ⟨S600000x16, u 3⟩] concatenates_S600000x128_S600000x128_S600000x128_S600000x16_S600000x400_d1)
/-- Operations 29..40: the edge update and the two segment sums. -/
abbrev opsB : List (HloOp τ sig (Elt F)) :=
  [ binary main_v24 main_arg9 main_v25 ((fun l r => Host.dotGeneral dot_S600000x400_S400x128_S600000x128_1_0_0_1_n_n none l r) : (⟨S600000x400, .f32⟩ : BufTy).Contents (Elt F) → (⟨S400x128, .f32⟩ : BufTy).Contents (Elt F) → (⟨S600000x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    unary main_v26 main_v27 (broadcastInDim S600000x128 ![0, 1] bcast_S1x128_S600000x128_0_1 : (⟨S1x128, .f32⟩ : BufTy).Contents (Elt F) → (⟨S600000x128, .f32⟩ : BufTy).Contents (Elt F)),
    binary main_v25 main_v27 main_v28 (addf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    unary main_cst main_v29 (broadcastInDim S50000x128 ![] bcast_S_S50000x128 : (⟨S_, .f32⟩ : BufTy).Contents (Elt F) → (⟨S50000x128, .f32⟩ : BufTy).Contents (Elt F)),
    unary main_arg3 main_v30 (broadcastInDim S600000x1 ![0] bcast_S600000_S600000x1_0 : (⟨S600000, .i32⟩ : BufTy).Contents (Elt F) → (⟨S600000x1, .i32⟩ : BufTy).Contents (Elt F)),
    ternary main_v29 main_v30 main_v28 main_v31 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_3 (constant S_ .f32 0x00000000#32),
    unary main_cst_3 main_v32 (broadcastInDim S50000x128 ![] bcast_S_S50000x128 : (⟨S_, .f32⟩ : BufTy).Contents (Elt F) → (⟨S50000x128, .f32⟩ : BufTy).Contents (Elt F)),
    unary main_arg4 main_v33 (broadcastInDim S600000x1 ![0] bcast_S600000_S600000x1_0 : (⟨S600000, .i32⟩ : BufTy).Contents (Elt F) → (⟨S600000x1, .i32⟩ : BufTy).Contents (Elt F)),
    ternary main_v32 main_v33 main_v28 main_v34 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
/-- Operation 41: the join of [node, sent, received, globals]. -/
abbrev opJ2 : HloOp τ sig (Elt F) :=
  nary ![main_v3, main_v31, main_v34, main_v9] main_v35 (fun u => concatenate S50000x400 1 [⟨S50000x128, u 0⟩, ⟨S50000x128, u 1⟩, ⟨S50000x128, u 2⟩, ⟨S50000x16, u 3⟩] concatenates_S50000x128_S50000x128_S50000x128_S50000x16_S50000x400_d1)
/-- Operations 42..49: the node update and the head. -/
abbrev opsC : List (HloOp τ sig (Elt F)) :=
  [ binary main_v35 main_arg11 main_v36 ((fun l r => Host.dotGeneral dot_S50000x400_S400x128_S50000x128_1_0_0_1_n_n none l r) : (⟨S50000x400, .f32⟩ : BufTy).Contents (Elt F) → (⟨S400x128, .f32⟩ : BufTy).Contents (Elt F) → (⟨S50000x128, .f32⟩ : BufTy).Contents (Elt F)),
    unary main_arg12 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    binary main_v39 main_arg13 main_v40 ((fun l r => Host.dotGeneral dot_S50000x128_S128x5_S50000x5_1_0_0_1_n_n none l r) : (⟨S50000x128, .f32⟩ : BufTy).Contents (Elt F) → (⟨S128x5, .f32⟩ : BufTy).Contents (Elt F) → (⟨S50000x5, .f32⟩ : BufTy).Contents (Elt F)),
    unary main_arg14 main_v41 (broadcastInDim S1x5 ![1] bcast_S5_S1x5_1 : (⟨S5, .f32⟩ : BufTy).Contents (Elt F) → (⟨S1x5, .f32⟩ : BufTy).Contents (Elt F)),
    unary main_v41 main_v42 (broadcastInDim S50000x5 ![0, 1] bcast_S1x5_S50000x5_0_1 : (⟨S1x5, .f32⟩ : BufTy).Contents (Elt F) → (⟨S50000x5, .f32⟩ : BufTy).Contents (Elt F)),
    binary main_v40 main_v42 main_v43 (addf : (⟨S50000x5, .f32⟩ : BufTy).Contents (Elt F) → (⟨S50000x5, .f32⟩ : BufTy).Contents (Elt F) → (⟨S50000x5, .f32⟩ : BufTy).Contents (Elt F)) ]

/-- The operation list is the five stretches in order. -/
theorem ops_cut : (ops : List (HloOp τ sig (Elt F))) = opsA ++ (opJ1 :: opsB) ++ (opJ2 :: opsC) := rfl

/-! ## The first stretch: the stage functions of the buffers read later -/

/-- After the first stretch the encoded edges are their stage function of the starting contents. -/
theorem A_v7 (W : Valuation τ sig (Elt F)) :
    StableHlo.after (opsA : List (HloOp τ sig (Elt F))) W (Proc.devRef .tc main_v7) = val_main_v7 (F := F) (W (Proc.devRef .tc main_arg1)) (W (Proc.devRef .tc main_arg7)) (W (Proc.devRef .tc main_arg8)) := by
  after_results_simp <;> rfl

/-- After the first stretch the sender rows are their stage function of the starting contents. -/
theorem A_v16 (W : Valuation τ sig (Elt F)) :
    StableHlo.after (opsA : List (HloOp τ sig (Elt F))) W (Proc.devRef .tc main_v16) = val_main_v16 (F := F) (W (Proc.devRef .tc main_arg0)) (W (Proc.devRef .tc main_arg3)) (W (Proc.devRef .tc main_arg5)) (W (Proc.devRef .tc main_arg6)) := by
  after_results_simp <;> rfl

/-- After the first stretch the receiver rows are their stage function of the starting contents. -/
theorem A_v23 (W : Valuation τ sig (Elt F)) :
    StableHlo.after (opsA : List (HloOp τ sig (Elt F))) W (Proc.devRef .tc main_v23) = val_main_v23 (F := F) (W (Proc.devRef .tc main_arg0)) (W (Proc.devRef .tc main_arg4)) (W (Proc.devRef .tc main_arg5)) (W (Proc.devRef .tc main_arg6)) := by
  after_results_simp <;> rfl

/-- After the first stretch the globals broadcast over the edges are their stage function. -/
theorem A_v8 (W : Valuation τ sig (Elt F)) :
    StableHlo.after (opsA : List (HloOp τ sig (Elt F))) W (Proc.devRef .tc main_v8) = val_main_v8 (F := F) (W (Proc.devRef .tc main_arg2)) := by
  after_results_simp <;> rfl

/-- After the first stretch the encoded nodes are their stage function of the starting contents. -/
theorem A_v3 (W : Valuation τ sig (Elt F)) :
    StableHlo.after (opsA : List (HloOp τ sig (Elt F))) W (Proc.devRef .tc main_v3) = val_main_v3 (F := F) (W (Proc.devRef .tc main_arg0)) (W (Proc.devRef .tc main_arg5)) (W (Proc.devRef .tc main_arg6)) := by
  after_results_simp <;> rfl

/-- After the first stretch the globals broadcast over the nodes are their stage function. -/
theorem A_v9 (W : Valuation τ sig (Elt F)) :
    StableHlo.after (opsA : List (HloOp τ sig (Elt F))) W (Proc.devRef .tc main_v9) = val_main_v9 (F := F) (W (Proc.devRef .tc main_arg2)) := by
  after_results_simp <;> rfl

/-- The first stretch leaves this argument buffer as it was. -/
theorem A_arg3 (W : Valuation τ sig (Elt F)) :
    StableHlo.after (opsA : List (HloOp τ sig (Elt F))) W (Proc.devRef .tc main_arg3) = W (Proc.devRef .tc main_arg3) := by
  after_results_simp <;> rfl

/-- The first stretch leaves this argument buffer as it was. -/
theorem A_arg4 (W : Valuation τ sig (Elt F)) :
    StableHlo.after (opsA : List (HloOp τ sig (Elt F))) W (Proc.devRef .tc main_arg4) = W (Proc.devRef .tc main_arg4) := by
  after_results_simp <;> rfl

/-- The first stretch leaves this argument buffer as it was. -/
theorem A_arg9 (W : Valuation τ sig (Elt F)) :
    StableHlo.after (opsA : List (HloOp τ sig (Elt F))) W (Proc.devRef .tc main_arg9) = W (Proc.devRef .tc main_arg9) := by
  after_results_simp <;> rfl

/-- The first stretch leaves this argument buffer as it was. -/
theorem A_arg10 (W : Valuation τ sig (Elt F)) :
    StableHlo.after (opsA : List (HloOp τ sig (Elt F))) W (Proc.devRef .tc main_arg10) = W (Proc.devRef .tc main_arg10) := by
  after_results_simp <;> rfl

/-- The first stretch leaves this argument buffer as it was. -/
theorem A_arg11 (W : Valuation τ sig (Elt F)) :
    StableHlo.after (opsA : List (HloOp τ sig (Elt F))) W (Proc.devRef .tc main_arg11) = W (Proc.devRef .tc main_arg11) := by
  after_results_simp <;> rfl

/-- The first stretch leaves this argument buffer as it was. -/
theorem A_arg12 (W : Valuation τ sig (Elt F)) :
    StableHlo.after (opsA : List (HloOp τ sig (Elt F))) W (Proc.devRef .tc main_arg12) = W (Proc.devRef .tc main_arg12) := by
  after_results_simp <;> rfl

/-- The first stretch leaves this argument buffer as it was. -/
theorem A_arg13 (W : Valuation τ sig (Elt F)) :
    StableHlo.after (opsA : List (HloOp τ sig (Elt F))) W (Proc.devRef .tc main_arg13) = W (Proc.devRef .tc main_arg13) := by
  after_results_simp <;> rfl

/-- The first stretch leaves this argument buffer as it was. -/
theorem A_arg14 (W : Valuation τ sig (Elt F)) :
    StableHlo.after (opsA : List (HloOp τ sig (Elt F))) W (Proc.devRef .tc main_arg14) = W (Proc.devRef .tc main_arg14) := by
  after_results_simp <;> rfl

/-! ## The stage functions past a join, with the joined rows as a variable -/

/-- The updated edges as a function of the joined edge rows, the edge update's weight and its bias. -/
def edgeUpd (v24 : (⟨S600000x400, .f32⟩ : BufTy).Contents (Elt F)) (x9 : (⟨S400x128, .f32⟩ : BufTy).Contents (Elt F)) (x10 : (⟨S128, .f32⟩ : BufTy).Contents (Elt F)) : (⟨S600000x128, .f32⟩ : BufTy).Contents (Elt F) :=
  addf (Host.dotGeneral dot_S600000x400_S400x128_S600000x128_1_0_0_1_n_n none v24 x9) (val_main_v27 (F := F) x10)

/-- The updated edges summed into their senders' rows, from zero. -/
def sentSum (v24 : (⟨S600000x400, .f32⟩ : BufTy).Contents (Elt F)) (x3 : (⟨S600000, .i32⟩ : BufTy).Contents (Elt F)) (x9 : (⟨S400x128, .f32⟩ : BufTy).Contents (Elt F)) (x10 : (⟨S128, .f32⟩ : BufTy).Contents (Elt F)) : (⟨S50000x128, .f32⟩ : BufTy).Contents (Elt F) :=
  Host.scatterAdd scatter_S50000x128_S600000x1_S600000x128_1_0_0_1 (val_main_v29 (F := F)) (val_main_v30 (F := F) x3) (edgeUpd v24 x9 x10)

/-- The updated edges summed into their receivers' rows, from zero. -/
def recvSum (v24 : (⟨S600000x400, .f32⟩ : BufTy).Contents (Elt F)) (x4 : (⟨S600000, .i32⟩ : BufTy).Contents (Elt F)) (x9 : (⟨S400x128, .f32⟩ : BufTy).Contents (Elt F)) (x10 : (⟨S128, .f32⟩ : BufTy).Contents (Elt F)) : (⟨S50000x128, .f32⟩ : BufTy).Contents (Elt F) :=
  Host.scatterAdd scatter_S50000x128_S600000x1_S600000x128_1_0_0_1 (val_main_v32 (F := F)) (val_main_v33 (F := F) x4) (edgeUpd v24 x9 x10)

/-- The output as a function of the joined node rows, the node update's weight and bias and the head's. -/
def headOf (v35 : (⟨S50000x400, .f32⟩ : BufTy).Contents (Elt F)) (x11 : (⟨S400x128, .f32⟩ : BufTy).Contents (Elt F)) (x12 : (⟨S128, .f32⟩ : BufTy).Contents (Elt F)) (x13 : (⟨S128x5, .f32⟩ : BufTy).Contents (Elt F)) (x14 : (⟨S5, .f32⟩ : BufTy).Contents (Elt F)) : (⟨S50000x5, .f32⟩ : BufTy).Contents (Elt F) :=
  addf (Host.dotGeneral dot_S50000x128_S128x5_S50000x5_1_0_0_1_n_n none
      (addf (Host.dotGeneral dot_S50000x400_S400x128_S50000x128_1_0_0_1_n_n none v35 x11) (val_main_v38 (F := F) x12)) x13)
    (val_main_v42 (F := F) x14)

/-! ## The first join -/

/-- The first join writes the four joined buffers' contents, side by side, into its result buffer. -/
theorem J1_v24 (U : Valuation τ sig (Elt F)) :
    StableHlo.after ([opJ1] : List (HloOp τ sig (Elt F))) U (Proc.devRef .tc main_v24)
      = concatenate S600000x400 1 [⟨S600000x128, U (Proc.devRef .tc main_v7)⟩, ⟨S600000x128, U (Proc.devRef .tc main_v16)⟩, ⟨S600000x128, U (Proc.devRef .tc main_v23)⟩, ⟨S600000x16, U (Proc.devRef .tc main_v8)⟩] concatenates_S600000x128_S600000x128_S600000x128_S600000x16_S600000x400_d1 := by
  simp only [after_cons, after_nil]
  rw [nary4_result]
  rfl

/-- The first join leaves every other buffer as it was. -/
theorem J1_ne {r : Ref sig .tc} (h : r ≠ main_v24) (U : Valuation τ sig (Elt F)) :
    StableHlo.after ([opJ1] : List (HloOp τ sig (Elt F))) U (Proc.devRef .tc r) = U (Proc.devRef .tc r) := by
  simp only [after_cons, after_nil]
  exact nary_result_ne _ _ _ _ _ U h

/-! ## The second stretch -/

/-- After the second stretch the sent sums are their stage function of the contents before it. -/
theorem B_v31 (U : Valuation τ sig (Elt F)) :
    StableHlo.after (opsB : List (HloOp τ sig (Elt F))) U (Proc.devRef .tc main_v31) = sentSum (F := F) (U (Proc.devRef .tc main_v24)) (U (Proc.devRef .tc main_arg3)) (U (Proc.devRef .tc main_arg9)) (U (Proc.devRef .tc main_arg10)) := by
  after_results_simp <;> rfl

/-- After the second stretch the received sums are their stage function of the contents before it. -/
theorem B_v34 (U : Valuation τ sig (Elt F)) :
    StableHlo.after (opsB : List (HloOp τ sig (Elt F))) U (Proc.devRef .tc main_v34) = recvSum (F := F) (U (Proc.devRef .tc main_v24)) (U (Proc.devRef .tc main_arg4)) (U (Proc.devRef .tc main_arg9)) (U (Proc.devRef .tc main_arg10)) := by
  after_results_simp <;> rfl

/-- The second stretch leaves this buffer as it was. -/
theorem B_v3 (U : Valuation τ sig (Elt F)) :
    StableHlo.after (opsB : List (HloOp τ sig (Elt F))) U (Proc.devRef .tc main_v3) = U (Proc.devRef .tc main_v3) := by
  after_results_simp <;> rfl

/-- The second stretch leaves this buffer as it was. -/
theorem B_v9 (U : Valuation τ sig (Elt F)) :
    StableHlo.after (opsB : List (HloOp τ sig (Elt F))) U (Proc.devRef .tc main_v9) = U (Proc.devRef .tc main_v9) := by
  after_results_simp <;> rfl

/-- The second stretch leaves this buffer as it was. -/
theorem B_arg11 (U : Valuation τ sig (Elt F)) :
    StableHlo.after (opsB : List (HloOp τ sig (Elt F))) U (Proc.devRef .tc main_arg11) = U (Proc.devRef .tc main_arg11) := by
  after_results_simp <;> rfl

/-- The second stretch leaves this buffer as it was. -/
theorem B_arg12 (U : Valuation τ sig (Elt F)) :
    StableHlo.after (opsB : List (HloOp τ sig (Elt F))) U (Proc.devRef .tc main_arg12) = U (Proc.devRef .tc main_arg12) := by
  after_results_simp <;> rfl

/-- The second stretch leaves this buffer as it was. -/
theorem B_arg13 (U : Valuation τ sig (Elt F)) :
    StableHlo.after (opsB : List (HloOp τ sig (Elt F))) U (Proc.devRef .tc main_arg13) = U (Proc.devRef .tc main_arg13) := by
  after_results_simp <;> rfl

/-- The second stretch leaves this buffer as it was. -/
theorem B_arg14 (U : Valuation τ sig (Elt F)) :
    StableHlo.after (opsB : List (HloOp τ sig (Elt F))) U (Proc.devRef .tc main_arg14) = U (Proc.devRef .tc main_arg14) := by
  after_results_simp <;> rfl

/-! ## The second join -/

/-- The second join writes the four joined buffers' contents, side by side, into its result buffer. -/
theorem J2_v35 (U : Valuation τ sig (Elt F)) :
    StableHlo.after ([opJ2] : List (HloOp τ sig (Elt F))) U (Proc.devRef .tc main_v35)
      = concatenate S50000x400 1 [⟨S50000x128, U (Proc.devRef .tc main_v3)⟩, ⟨S50000x128, U (Proc.devRef .tc main_v31)⟩, ⟨S50000x128, U (Proc.devRef .tc main_v34)⟩, ⟨S50000x16, U (Proc.devRef .tc main_v9)⟩] concatenates_S50000x128_S50000x128_S50000x128_S50000x16_S50000x400_d1 := by
  simp only [after_cons, after_nil]
  rw [nary4_result]
  rfl

/-- The second join leaves every other buffer as it was. -/
theorem J2_ne {r : Ref sig .tc} (h : r ≠ main_v35) (U : Valuation τ sig (Elt F)) :
    StableHlo.after ([opJ2] : List (HloOp τ sig (Elt F))) U (Proc.devRef .tc r) = U (Proc.devRef .tc r) := by
  simp only [after_cons, after_nil]
  exact nary_result_ne _ _ _ _ _ U h

/-! ## The last stretch -/

/-- After the last stretch the result buffer is the output's stage function of the contents before it. -/
theorem C_v43 (U : Valuation τ sig (Elt F)) :
    StableHlo.after (opsC : List (HloOp τ sig (Elt F))) U (Proc.devRef .tc main_v43) = headOf (F := F) (U (Proc.devRef .tc main_v35)) (U (Proc.devRef .tc main_arg11)) (U (Proc.devRef .tc main_arg12)) (U (Proc.devRef .tc main_arg13)) (U (Proc.devRef .tc main_arg14)) := by
  after_results_simp <;> rfl

/-! ## The stage functions of the whole program, folded over the joins -/

/-- The output's stage function is `headOf` of the joined node rows' stage function. -/
theorem val_main_v43_eq (x0 : (⟨S50000x128, .f32⟩ : BufTy).Contents (Elt F)) (x1 : (⟨S600000x16, .f32⟩ : BufTy).Contents (Elt F)) (x2 : (⟨S1x16, .f32⟩ : BufTy).Contents (Elt F)) (x3 : (⟨S600000, .i32⟩ : BufTy).Contents (Elt F)) (x4 : (⟨S600000, .i32⟩ : BufTy).Contents (Elt F)) (x5 : (⟨S128x128, .f32⟩ : BufTy).Contents (Elt F)) (x6 : (⟨S128, .f32⟩ : BufTy).Contents (Elt F)) (x7 : (⟨S16x128, .f32⟩ : BufTy).Contents (Elt F)) (x8 : (⟨S128, .f32⟩ : BufTy).Contents (Elt F)) (x9 : (⟨S400x128, .f32⟩ : BufTy).Contents (Elt F)) (x10 : (⟨S128, .f32⟩ : BufTy).Contents (Elt F)) (x11 : (⟨S400x128, .f32⟩ : BufTy).Contents (Elt F)) (x12 : (⟨S128, .f32⟩ : BufTy).Contents (Elt F)) (x13 : (⟨S128x5, .f32⟩ : BufTy).Contents (Elt F)) (x14 : (⟨S5, .f32⟩ : BufTy).Contents (Elt F)) :
    val_main_v43 (F := F) x0 x1 x2 x3 x4 x5 x6 x7 x8 x9 x10 x11 x12 x13 x14 = headOf (F := F) (val_main_v35 (F := F) x0 x1 x2 x3 x4 x5 x6 x7 x8 x9 x10) x11 x12 x13 x14 := rfl

/-- The joined edge rows' stage function, unfolded once. -/
theorem val_main_v24_eq (x0 : (⟨S50000x128, .f32⟩ : BufTy).Contents (Elt F)) (x1 : (⟨S600000x16, .f32⟩ : BufTy).Contents (Elt F)) (x2 : (⟨S1x16, .f32⟩ : BufTy).Contents (Elt F)) (x3 : (⟨S600000, .i32⟩ : BufTy).Contents (Elt F)) (x4 : (⟨S600000, .i32⟩ : BufTy).Contents (Elt F)) (x5 : (⟨S128x128, .f32⟩ : BufTy).Contents (Elt F)) (x6 : (⟨S128, .f32⟩ : BufTy).Contents (Elt F)) (x7 : (⟨S16x128, .f32⟩ : BufTy).Contents (Elt F)) (x8 : (⟨S128, .f32⟩ : BufTy).Contents (Elt F)) :
    val_main_v24 (F := F) x0 x1 x2 x3 x4 x5 x6 x7 x8
      = concatenate S600000x400 1 [⟨S600000x128, val_main_v7 (F := F) x1 x7 x8⟩, ⟨S600000x128, val_main_v16 (F := F) x0 x3 x5 x6⟩, ⟨S600000x128, val_main_v23 (F := F) x0 x4 x5 x6⟩, ⟨S600000x16, val_main_v8 (F := F) x2⟩] concatenates_S600000x128_S600000x128_S600000x128_S600000x16_S600000x400_d1 := rfl

/-- The joined node rows' stage function, with the two segment sums folded over the first join. -/
theorem val_main_v35_eq (x0 : (⟨S50000x128, .f32⟩ : BufTy).Contents (Elt F)) (x1 : (⟨S600000x16, .f32⟩ : BufTy).Contents (Elt F)) (x2 : (⟨S1x16, .f32⟩ : BufTy).Contents (Elt F)) (x3 : (⟨S600000, .i32⟩ : BufTy).Contents (Elt F)) (x4 : (⟨S600000, .i32⟩ : BufTy).Contents (Elt F)) (x5 : (⟨S128x128, .f32⟩ : BufTy).Contents (Elt F)) (x6 : (⟨S128, .f32⟩ : BufTy).Contents (Elt F)) (x7 : (⟨S16x128, .f32⟩ : BufTy).Contents (Elt F)) (x8 : (⟨S128, .f32⟩ : BufTy).Contents (Elt F)) (x9 : (⟨S400x128, .f32⟩ : BufTy).Contents (Elt F)) (x10 : (⟨S128, .f32⟩ : BufTy).Contents (Elt F)) :
    val_main_v35 (F := F) x0 x1 x2 x3 x4 x5 x6 x7 x8 x9 x10
      = concatenate S50000x400 1 [⟨S50000x128, val_main_v3 (F := F) x0 x5 x6⟩, ⟨S50000x128, sentSum (F := F) (val_main_v24 (F := F) x0 x1 x2 x3 x4 x5 x6 x7 x8) x3 x9 x10⟩, ⟨S50000x128, recvSum (F := F) (val_main_v24 (F := F) x0 x1 x2 x3 x4 x5 x6 x7 x8) x4 x9 x10⟩, ⟨S50000x16, val_main_v9 (F := F) x2⟩] concatenates_S50000x128_S50000x128_S50000x128_S50000x16_S50000x400_d1 := rfl

/-! ## The five stretches in a row -/

/-- The fold of the whole list is the folds of the five stretches, one after the other. -/
theorem after_ops_split (W : Valuation τ sig (Elt F)) :
    StableHlo.after (ops : List (HloOp τ sig (Elt F))) W
      = StableHlo.after opsC (StableHlo.after [opJ2] (StableHlo.after opsB (StableHlo.after [opJ1] (StableHlo.after opsA W)))) := by
  rw [ops_cut, StableHlo.after_append, StableHlo.after_append]
  rfl

/-- The fold of the whole list over W at the result buffer is the last stage function of W's argument buffers. -/
theorem after_ops_result (W : Valuation τ sig (Elt F)) :
    StableHlo.after (ops : List (HloOp τ sig (Elt F))) W (Proc.devRef .tc main_v43)
      = val_main_v43 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [after_ops_split W, C_v43, J2_v35,
    J2_ne (r := main_arg11) (by decide), J2_ne (r := main_arg12) (by decide), J2_ne (r := main_arg13) (by decide), J2_ne (r := main_arg14) (by decide),
    B_v31, B_v34, B_v3, B_v9, B_arg11, B_arg12, B_arg13, B_arg14, J1_v24,
    J1_ne (r := main_v3) (by decide),
    J1_ne (r := main_v9) (by decide),
    J1_ne (r := main_arg3) (by decide),
    J1_ne (r := main_arg4) (by decide),
    J1_ne (r := main_arg9) (by decide),
    J1_ne (r := main_arg10) (by decide),
    J1_ne (r := main_arg11) (by decide),
    J1_ne (r := main_arg12) (by decide),
    J1_ne (r := main_arg13) (by decide),
    J1_ne (r := main_arg14) (by decide),
    A_v7, A_v16, A_v23, A_v8, A_v3, A_v9, A_arg3, A_arg4, A_arg9, A_arg10, A_arg11, A_arg12, A_arg13, A_arg14,
    val_main_v43_eq, val_main_v35_eq, val_main_v24_eq]

end Cert.ReferenceIdeal.Hand

end
-- ==== Proof.LibConcat.lean ====
/-
  Four arrays of n rows and 128, 128, 128, 16 columns joined along the column axis, read at row r and column c:
  the piece is chosen by the column — below 128 the first, below 256 the second at column c − 128, below 384 the
  third at c − 256, else the fourth at c − 384.
-/
import proofs.«426872_j55293408968886_3_alg».proof.Proof.Spec
import Idealize.ShloMosaic.Lib.Pipeline.Value

noncomputable section

namespace GraphNet

open Idealize.ShloMosaic Idealize.ShloMosaic.ValueIdx

/-- The join of four arrays along the columns, at (r, c), is GraphNet.cat4 of the four rows at column c. -/
theorem concat4_apply {n : Nat}
    (h : Shape.Concatenates [(⟨2, ![n, 128]⟩ : Shape), ⟨2, ![n, 128]⟩, ⟨2, ![n, 128]⟩, ⟨2, ![n, 16]⟩] ⟨2, ![n, 400]⟩ 1)
    (u0 u1 u2 : Mat n 128) (u3 : Mat n 16) (r : Fin n) (c : Fin 400) :
    concatenate (⟨2, ![n, 400]⟩ : Shape) 1
        [⟨(⟨2, ![n, 128]⟩ : Shape), u0⟩, ⟨(⟨2, ![n, 128]⟩ : Shape), u1⟩, ⟨(⟨2, ![n, 128]⟩ : Shape), u2⟩, ⟨(⟨2, ![n, 16]⟩ : Shape), u3⟩] h (ix2 r c)
      = cat4 (fun j => u0 (ix2 r j)) (fun j => u1 (ix2 r j)) (fun j => u2 (ix2 r j)) (fun k => u3 (ix2 r k)) c := by
  have P := concatenate_apply_piece (t := (⟨2, ![n, 400]⟩ : Shape)) (1 : Fin 2)
    [⟨(⟨2, ![n, 128]⟩ : Shape), u0⟩, ⟨(⟨2, ![n, 128]⟩ : Shape), u1⟩, ⟨(⟨2, ![n, 128]⟩ : Shape), u2⟩,
      ⟨(⟨2, ![n, 16]⟩ : Shape), u3⟩] h (ix2 r c)
  unfold cat4
  by_cases h0 : c.val < 128
  · rw [dif_pos h0]
    refine P 0 (show (0 : Nat) < 4 by decide) (⟨2, ![n, 128]⟩ : Shape) u0 rfl rfl 0 rfl (ix2 r ⟨c.val, h0⟩) ?_ ?_
    · intro b hb
      match b with
      | ⟨0, _⟩ => rfl
      | ⟨1, _⟩ => exact absurd (Fin.ext rfl) hb
    · show 0 + c.val = c.val
      omega
  · rw [dif_neg h0]
    by_cases h1 : c.val < 256
    · rw [dif_pos h1]
      refine P 1 (show (1 : Nat) < 4 by decide) (⟨2, ![n, 128]⟩ : Shape) u1 rfl rfl 128 rfl
        (ix2 r ⟨c.val - 128, by omega⟩) ?_ ?_
      · intro b hb
        match b with
        | ⟨0, _⟩ => rfl
        | ⟨1, _⟩ => exact absurd (Fin.ext rfl) hb
      · show 128 + (c.val - 128) = c.val
        omega
    · rw [dif_neg h1]
      by_cases h2 : c.val < 384
      · rw [dif_pos h2]
        refine P 2 (show (2 : Nat) < 4 by decide) (⟨2, ![n, 128]⟩ : Shape) u2 rfl rfl 256 rfl
          (ix2 r ⟨c.val - 256, by omega⟩) ?_ ?_
        · intro b hb
          match b with
          | ⟨0, _⟩ => rfl
          | ⟨1, _⟩ => exact absurd (Fin.ext rfl) hb
        · show 256 + (c.val - 256) = c.val
          omega
      · rw [dif_neg h2]
        refine P 3 (show (3 : Nat) < 4 by decide) (⟨2, ![n, 16]⟩ : Shape) u3 rfl rfl 384 rfl
          (ix2 r ⟨c.val - 384, by have := c.isLt; omega⟩) ?_ ?_
        · intro b hb
          match b with
          | ⟨0, _⟩ => rfl
          | ⟨1, _⟩ => exact absurd (Fin.ext rfl) hb
        · show 384 + (c.val - 384) = c.val
          omega

end GraphNet

end
-- ==== Proof.RefValue.lean ====
/-
  The reference program's result read at an index: its chain of host operations — two encoders (a product plus a
  broadcast bias), the wrapped index columns and the two row gathers, the join of [edge, sender row, receiver row,
  globals] and the product with the edge update's weight, the two segment sums, the join of [node, sent, received,
  globals] and the product with the node update's weight, the head — is, at node n and column o, the reference's
  form of the graph-network layer (GraphNet.outRef) with the row maps rowsOf and the segment sums segSum of the two
  index vectors.
-/
import proofs.«426872_j55293408968886_3_alg».proof.Proof.RefRead
import proofs.«426872_j55293408968886_3_alg».proof.Proof.Ops
import proofs.«426872_j55293408968886_3_alg».proof.Proof.LibGather
import proofs.«426872_j55293408968886_3_alg».proof.Proof.LibConcat
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo Idealize.ShloMosaic.ValueIdx
open GraphNet (Mat Row blk tail16)

/-- The encoded nodes read at node n, column j. -/
theorem v3_at (x0 : Mat 50000 128) (x5 : Mat 128 128) (x6 : Row 128) (n : Fin 50000) (j : Fin 128) :
    (val_main_v3 (F := Ideal) x0 x5 x6 : Mat 50000 128) (ix2 n j) = GraphNet.enc x0 x5 x6 n j := by
  rw [val_main_v3_apply, val_main_v0_apply, val_main_v2_apply, val_main_v1_apply, Ideal.addf_def]
  unfold GraphNet.enc
  congr 1
  · refine Finset.sum_congr rfl fun k _ => ?_
    rw [show lidx_main_v0 (ix2 n j) k = ix2 n k from eq_ix2 _, show ridx_main_v0 (ix2 n j) k = ix2 k j from eq_ix2 _]
  · rw [show idx_main_v1 (idx_main_v2 (ix2 n j)) = ix1 j from eq_ix1 _]

/-- The encoded edges read at edge e, column j. -/
theorem v7_at (x1 : Mat 600000 16) (x7 : Mat 16 128) (x8 : Row 128) (e : Fin 600000) (j : Fin 128) :
    (val_main_v7 (F := Ideal) x1 x7 x8 : Mat 600000 128) (ix2 e j) = GraphNet.eenc x1 x7 x8 e j := by
  rw [val_main_v7_apply, val_main_v4_apply, val_main_v6_apply, val_main_v5_apply, Ideal.addf_def]
  unfold GraphNet.eenc
  congr 1
  · refine Finset.sum_congr rfl fun k _ => ?_
    rw [show lidx_main_v4 (ix2 e j) k = ix2 e k from eq_ix2 _, show ridx_main_v4 (ix2 e j) k = ix2 k j from eq_ix2 _]
  · rw [show idx_main_v5 (idx_main_v6 (ix2 e j)) = ix1 j from eq_ix1 _]

/-- The wrapped index column of the senders is the index column of a row gather. -/
theorem v15_eq (x3 : IVec ⟨1, ![600000]⟩ 32) : val_main_v15 (F := Ideal) x3 = GraphNet.takeIndex x3 := rfl

/-- The wrapped index column of the receivers is the index column of a row gather. -/
theorem v22_eq (x4 : IVec ⟨1, ![600000]⟩ 32) : val_main_v22 (F := Ideal) x4 = GraphNet.takeIndex x4 := rfl

/-- The program's gather record is the record of a gather of whole rows. -/
theorem gatherDims_eq : gather_S50000x128_S600000x1_S600000x128_1_0_n_n_0_1_1128 = GraphNet.rowDims := rfl

/-- The sender rows gathered from the encoded nodes, at edge e, column j. -/
theorem v16_at (x0 : Mat 50000 128) (x3 : IVec ⟨1, ![600000]⟩ 32) (x5 : Mat 128 128) (x6 : Row 128)
    (e : Fin 600000) (j : Fin 128) :
    (val_main_v16 (F := Ideal) x0 x3 x5 x6 : Mat 600000 128) (ix2 e j)
      = GraphNet.enc x0 x5 x6 (GraphNet.rowsOf x3 e) j := by
  unfold val_main_v16
  rw [gatherDims_eq, v15_eq, GraphNet.gather_rows]
  exact v3_at x0 x5 x6 _ j

/-- The receiver rows gathered from the encoded nodes, at edge e, column j. -/
theorem v23_at (x0 : Mat 50000 128) (x4 : IVec ⟨1, ![600000]⟩ 32) (x5 : Mat 128 128) (x6 : Row 128)
    (e : Fin 600000) (j : Fin 128) :
    (val_main_v23 (F := Ideal) x0 x4 x5 x6 : Mat 600000 128) (ix2 e j)
      = GraphNet.enc x0 x5 x6 (GraphNet.rowsOf x4 e) j := by
  unfold val_main_v23
  rw [gatherDims_eq, v22_eq, GraphNet.gather_rows]
  exact v3_at x0 x5 x6 _ j

/-- The globals broadcast over the edges, at edge e, column k. -/
theorem v8_at (x2 : Mat 1 16) (e : Fin 600000) (k : Fin 16) :
    (val_main_v8 (F := Ideal) x2 : Mat 600000 16) (ix2 e k) = x2 (ix2 0 k) := by
  rw [val_main_v8_apply, show idx_main_v8 (ix2 e k) = ix2 0 k from eq_ix2 _]

/-- The globals broadcast over the nodes, at node n, column k. -/
theorem v9_at (x2 : Mat 1 16) (n : Fin 50000) (k : Fin 16) :
    (val_main_v9 (F := Ideal) x2 : Mat 50000 16) (ix2 n k) = x2 (ix2 0 k) := by
  rw [val_main_v9_apply, show idx_main_v9 (ix2 n k) = ix2 0 k from eq_ix2 _]

/-- The first join [edge, sender row, receiver row, globals], at edge e, column c. -/
theorem v24_at (x0 : Mat 50000 128) (x1 : Mat 600000 16) (x2 : Mat 1 16) (x3 x4 : IVec ⟨1, ![600000]⟩ 32)
    (x5 : Mat 128 128) (x6 : Row 128) (x7 : Mat 16 128) (x8 : Row 128) (e : Fin 600000) (c : Fin 400) :
    (val_main_v24 (F := Ideal) x0 x1 x2 x3 x4 x5 x6 x7 x8 : Mat 600000 400) (ix2 e c)
      = GraphNet.cat4 (GraphNet.eenc x1 x7 x8 e) (GraphNet.enc x0 x5 x6 (GraphNet.rowsOf x3 e))
          (GraphNet.enc x0 x5 x6 (GraphNet.rowsOf x4 e)) (fun k => x2 (ix2 0 k)) c := by
  unfold val_main_v24
  rw [GraphNet.concat4_apply]
  congr 1
  · funext j; exact v7_at x1 x7 x8 e j
  · funext j; exact v16_at x0 x3 x5 x6 e j
  · funext j; exact v23_at x0 x4 x5 x6 e j
  · funext k; exact v8_at x2 e k

/-- The updated edges, at edge e, column l. -/
theorem v28_at (x0 : Mat 50000 128) (x1 : Mat 600000 16) (x2 : Mat 1 16) (x3 x4 : IVec ⟨1, ![600000]⟩ 32)
    (x5 : Mat 128 128) (x6 : Row 128) (x7 : Mat 16 128) (x8 : Row 128) (x9 : Mat 400 128) (x10 : Row 128) (e : Fin 600000) (l : Fin 128) :
    (val_main_v28 (F := Ideal) x0 x1 x2 x3 x4 x5 x6 x7 x8 x9 x10 : Mat 600000 128) (ix2 e l)
      = GraphNet.newEdgesRef x0 x1 x2 x5 x6 x7 x8 x9 x10 (GraphNet.rowsOf x3) (GraphNet.rowsOf x4) e l := by
  rw [val_main_v28_apply, val_main_v25_apply, val_main_v27_apply, val_main_v26_apply, Ideal.addf_def]
  unfold GraphNet.newEdgesRef
  congr 1
  · refine Finset.sum_congr rfl fun c _ => ?_
    rw [show lidx_main_v25 (ix2 e l) c = ix2 e c from eq_ix2 _, show ridx_main_v25 (ix2 e l) c = ix2 c l from eq_ix2 _,
      v24_at]
  · rw [show idx_main_v26 (idx_main_v27 (ix2 e l)) = ix1 l from eq_ix1 _]

/-- The updated edges as one array. -/
theorem v28_eq (x0 : Mat 50000 128) (x1 : Mat 600000 16) (x2 : Mat 1 16) (x3 x4 : IVec ⟨1, ![600000]⟩ 32)
    (x5 : Mat 128 128) (x6 : Row 128) (x7 : Mat 16 128) (x8 : Row 128) (x9 : Mat 400 128) (x10 : Row 128) :
    (val_main_v28 (F := Ideal) x0 x1 x2 x3 x4 x5 x6 x7 x8 x9 x10 : Mat 600000 128) = GraphNet.edgesArrRef x0 x1 x2 x5 x6 x7 x8 x9 x10 (GraphNet.rowsOf x3) (GraphNet.rowsOf x4) := by
  funext i
  obtain ⟨e, l, rfl⟩ : ∃ e l, i = ix2 e l := ⟨i 0, i 1, eq_ix2 i⟩
  exact v28_at x0 x1 x2 x3 x4 x5 x6 x7 x8 x9 x10 e l

/-- The sent sum is the segment sum of the updated edges by the senders. -/
theorem v31_eq (x0 : Mat 50000 128) (x1 : Mat 600000 16) (x2 : Mat 1 16) (x3 x4 : IVec ⟨1, ![600000]⟩ 32)
    (x5 : Mat 128 128) (x6 : Row 128) (x7 : Mat 16 128) (x8 : Row 128) (x9 : Mat 400 128) (x10 : Row 128) :
    (val_main_v31 (F := Ideal) x0 x1 x2 x3 x4 x5 x6 x7 x8 x9 x10 : Mat 50000 128) = GraphNet.segSum x3 (GraphNet.edgesArrRef x0 x1 x2 x5 x6 x7 x8 x9 x10 (GraphNet.rowsOf x3) (GraphNet.rowsOf x4)) := by
  rw [← v28_eq]
  rfl

/-- The received sum is the segment sum of the updated edges by the receivers. -/
theorem v34_eq (x0 : Mat 50000 128) (x1 : Mat 600000 16) (x2 : Mat 1 16) (x3 x4 : IVec ⟨1, ![600000]⟩ 32)
    (x5 : Mat 128 128) (x6 : Row 128) (x7 : Mat 16 128) (x8 : Row 128) (x9 : Mat 400 128) (x10 : Row 128) :
    (val_main_v34 (F := Ideal) x0 x1 x2 x3 x4 x5 x6 x7 x8 x9 x10 : Mat 50000 128) = GraphNet.segSum x4 (GraphNet.edgesArrRef x0 x1 x2 x5 x6 x7 x8 x9 x10 (GraphNet.rowsOf x3) (GraphNet.rowsOf x4)) := by
  rw [← v28_eq]
  rfl

/-- The second join [node, sent sum, received sum, globals], at node n, column c. -/
theorem v35_at (x0 : Mat 50000 128) (x1 : Mat 600000 16) (x2 : Mat 1 16) (x3 x4 : IVec ⟨1, ![600000]⟩ 32)
    (x5 : Mat 128 128) (x6 : Row 128) (x7 : Mat 16 128) (x8 : Row 128) (x9 : Mat 400 128) (x10 : Row 128) (n : Fin 50000) (c : Fin 400) :
    (val_main_v35 (F := Ideal) x0 x1 x2 x3 x4 x5 x6 x7 x8 x9 x10 : Mat 50000 400) (ix2 n c)
      = GraphNet.cat4 (GraphNet.enc x0 x5 x6 n)
          (fun j => GraphNet.segSum x3 (GraphNet.edgesArrRef x0 x1 x2 x5 x6 x7 x8 x9 x10 (GraphNet.rowsOf x3) (GraphNet.rowsOf x4)) (ix2 n j))
          (fun j => GraphNet.segSum x4 (GraphNet.edgesArrRef x0 x1 x2 x5 x6 x7 x8 x9 x10 (GraphNet.rowsOf x3) (GraphNet.rowsOf x4)) (ix2 n j))
          (fun k => x2 (ix2 0 k)) c := by
  unfold val_main_v35
  rw [GraphNet.concat4_apply, v31_eq, v34_eq]
  congr 1
  · funext j; exact v3_at x0 x5 x6 n j
  · funext k; exact v9_at x2 n k

/-- The updated nodes, at node n, column l. -/
theorem v39_at (x0 : Mat 50000 128) (x1 : Mat 600000 16) (x2 : Mat 1 16) (x3 x4 : IVec ⟨1, ![600000]⟩ 32)
    (x5 : Mat 128 128) (x6 : Row 128) (x7 : Mat 16 128) (x8 : Row 128) (x9 : Mat 400 128) (x10 : Row 128)
    (x11 : Mat 400 128) (x12 : Row 128) (n : Fin 50000) (l : Fin 128) :
    (val_main_v39 (F := Ideal) x0 x1 x2 x3 x4 x5 x6 x7 x8 x9 x10 x11 x12 : Mat 50000 128) (ix2 n l)
      = GraphNet.newNodesRef x0 x1 x2 x5 x6 x7 x8 x9 x10 x11 x12 (GraphNet.rowsOf x3) (GraphNet.rowsOf x4)
          (GraphNet.segSum x3) (GraphNet.segSum x4) n l := by
  rw [val_main_v39_apply, val_main_v36_apply, val_main_v38_apply, val_main_v37_apply, Ideal.addf_def]
  unfold GraphNet.newNodesRef
  congr 1
  · refine Finset.sum_congr rfl fun c _ => ?_
    rw [show lidx_main_v36 (ix2 n l) c = ix2 n c from eq_ix2 _, show ridx_main_v36 (ix2 n l) c = ix2 c l from eq_ix2 _,
      v35_at]
  · rw [show idx_main_v37 (idx_main_v38 (ix2 n l)) = ix1 l from eq_ix1 _]

/-- The reference's result at node n, column o. -/
theorem ref_value (x0 : Mat 50000 128) (x1 : Mat 600000 16) (x2 : Mat 1 16) (x3 x4 : IVec ⟨1, ![600000]⟩ 32)
    (x5 : Mat 128 128) (x6 : Row 128) (x7 : Mat 16 128) (x8 : Row 128) (x9 : Mat 400 128) (x10 : Row 128)
    (x11 : Mat 400 128) (x12 : Row 128) (x13 : Mat 128 5) (x14 : Row 5) (n : Fin 50000) (o : Fin 5) :
    (val_main_v43 (F := Ideal) x0 x1 x2 x3 x4 x5 x6 x7 x8 x9 x10 x11 x12 x13 x14 : Mat 50000 5) (ix2 n o)
      = GraphNet.outRef x0 x1 x2 x5 x6 x7 x8 x9 x10 x11 x12 x13 x14 (GraphNet.rowsOf x3) (GraphNet.rowsOf x4)
          (GraphNet.segSum x3) (GraphNet.segSum x4) n o := by
  rw [val_main_v43_apply, val_main_v40_apply, val_main_v42_apply, val_main_v41_apply, Ideal.addf_def]
  unfold GraphNet.outRef
  congr 1
  · refine Finset.sum_congr rfl fun l _ => ?_
    rw [show lidx_main_v40 (ix2 n o) l = ix2 n l from eq_ix2 _, show ridx_main_v40 (ix2 n o) l = ix2 l o from eq_ix2 _,
      v39_at]
  · rw [show idx_main_v41 (idx_main_v42 (ix2 n o)) = ix1 o from eq_ix1 _]

end Cert.ReferenceIdeal.Hand

end
-- ==== Proof.GraphAlgebra.lean ====
/-
  The kernel's form of the graph-network layer equals the reference's.

  The updated edges: the reference multiplies the joined row [edge e, node rs e, node rr e, globals] by the 400 rows
  of Weu; split that sum at columns 128, 256, 384.  The two node pieces are the kernel's projections read at rows
  rs e and rr e; the globals' piece and beu sit in the kernel's constant row; and the edge piece,
  sum_j (sum_k E[e,k] Wee[k,j] + bee[j]) Weu[j,l], is sum_k E[e,k] (sum_j Wee[k,j] Weu[j,l]) + sum_j bee[j] Weu[j,l]
  — distributing a product over a sum and exchanging two finite sums, which holds on the reals and so needs E, Wee,
  bee and Weu finite (at an infinite entry the extended reals do not distribute).  The rest is regrouping sums,
  which the extended reals allow without condition.  Equal edge arrays give equal segment sums; the updated nodes
  then differ only by the same split of the 400 columns of Wnu, and the head is applied alike.
-/
import proofs.«426872_j55293408968886_3_alg».proof.Proof.Spec
import Mathlib.Data.EReal.Operations
import Mathlib.Algebra.BigOperators.Ring.Finset
import Mathlib.Algebra.BigOperators.Fin

noncomputable section

open scoped BigOperators

namespace GraphNet

open Idealize.ShloMosaic Idealize.ShloMosaic.ValueIdx

/-- A finite sum of reals coerces to the extended reals term by term. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 400 indices splits into three blocks of 128 and a tail of 16. -/
theorem sum_split400 {M : Type*} [AddCommMonoid M] (F : Fin 400 → M) :
    ∑ c : Fin 400, F c
      = (((∑ j : Fin 128, F (blk 0 (by omega) j)) + ∑ j : Fin 128, F (blk 128 (by omega) j))
          + ∑ j : Fin 128, F (blk 256 (by omega) j)) + ∑ k : Fin 16, F (tail16 k) := by
  rw [← Fin.sum_congr' F (show 128 + 128 + 128 + 16 = 400 by norm_num), Fin.sum_univ_add, Fin.sum_univ_add,
    Fin.sum_univ_add]
  congr 1

/-- The joined row read in its first block is its first piece. -/
theorem cat4_blk0 (f0 f1 f2 : Fin 128 → EReal) (f3 : Fin 16 → EReal) (h : 0 + 128 ≤ 400) (j : Fin 128) :
    cat4 f0 f1 f2 f3 (blk 0 h j) = f0 j := by
  have hj := j.isLt
  have h0 : (blk 0 h j).val < 128 := by simp only [blk]; omega
  unfold cat4
  rw [dif_pos h0]
  congr 1
  apply Fin.ext
  simp [blk]

/-- The joined row read in its second block is its second piece. -/
theorem cat4_blk128 (f0 f1 f2 : Fin 128 → EReal) (f3 : Fin 16 → EReal) (h : 128 + 128 ≤ 400) (j : Fin 128) :
    cat4 f0 f1 f2 f3 (blk 128 h j) = f1 j := by
  have hj := j.isLt
  have h0 : ¬ (blk 128 h j).val < 128 := by simp only [blk]; omega
  have h1 : (blk 128 h j).val < 256 := by simp only [blk]; omega
  unfold cat4
  rw [dif_neg h0, dif_pos h1]
  congr 1
  apply Fin.ext
  simp [blk]

/-- The joined row read in its third block is its third piece. -/
theorem cat4_blk256 (f0 f1 f2 : Fin 128 → EReal) (f3 : Fin 16 → EReal) (h : 256 + 128 ≤ 400) (j : Fin 128) :
    cat4 f0 f1 f2 f3 (blk 256 h j) = f2 j := by
  have hj := j.isLt
  have h0 : ¬ (blk 256 h j).val < 128 := by simp only [blk]; omega
  have h1 : ¬ (blk 256 h j).val < 256 := by simp only [blk]; omega
  have h2 : (blk 256 h j).val < 384 := by simp only [blk]; omega
  unfold cat4
  rw [dif_neg h0, dif_neg h1, dif_pos h2]
  congr 1
  apply Fin.ext
  simp [blk]

/-- The joined row read in its last 16 columns is its fourth piece. -/
theorem cat4_tail16 (f0 f1 f2 : Fin 128 → EReal) (f3 : Fin 16 → EReal) (k : Fin 16) :
    cat4 f0 f1 f2 f3 (tail16 k) = f3 k := by
  have hk := k.isLt
  have h0 : ¬ (tail16 k).val < 128 := by simp only [tail16]; omega
  have h1 : ¬ (tail16 k).val < 256 := by simp only [tail16]; omega
  have h2 : ¬ (tail16 k).val < 384 := by simp only [tail16]; omega
  unfold cat4
  rw [dif_neg h0, dif_neg h1, dif_neg h2]
  congr 1
  apply Fin.ext
  simp [tail16]

/-- The joined row against 400 weights is the sum of its four pieces against the matching rows. -/
theorem sum_cat4 (f0 f1 f2 : Fin 128 → EReal) (f3 : Fin 16 → EReal) (w : Fin 400 → EReal) :
    ∑ c : Fin 400, cat4 f0 f1 f2 f3 c * w c
      = (((∑ j : Fin 128, f0 j * w (blk 0 (by omega) j)) + ∑ j : Fin 128, f1 j * w (blk 128 (by omega) j))
          + ∑ j : Fin 128, f2 j * w (blk 256 (by omega) j)) + ∑ k : Fin 16, f3 k * w (tail16 k) := by
  rw [sum_split400 (fun c => cat4 f0 f1 f2 f3 c * w c)]
  simp only [cat4_blk0, cat4_blk128, cat4_blk256, cat4_tail16]

/-- Over the reals: a sum of (row · matrix column + bias) against weights is the row against the folded matrix
    plus the bias against the weights. -/
theorem real_edge_law (a : Fin 16 → ℝ) (b : Fin 16 → Fin 128 → ℝ) (c d : Fin 128 → ℝ) :
    ∑ j : Fin 128, ((∑ k : Fin 16, a k * b k j) + c j) * d j
      = (∑ k : Fin 16, a k * ∑ j : Fin 128, b k j * d j) + ∑ j : Fin 128, c j * d j := by
  simp only [add_mul, Finset.sum_add_distrib, Finset.sum_mul, Finset.mul_sum, mul_assoc]
  rw [Finset.sum_comm]

/-- The edge piece of the update: with finite entries the edge encoder folds into the first block of Weu. -/
theorem edge_law (E : Mat 600000 16) (Wee : Mat 16 128) (bee : Row 128) (Weu : Mat 400 128)
    (hE : ∀ i, ∃ r : ℝ, E i = (r : EReal)) (hWee : ∀ i, ∃ r : ℝ, Wee i = (r : EReal))
    (hbee : ∀ i, ∃ r : ℝ, bee i = (r : EReal)) (hWeu : ∀ i, ∃ r : ℝ, Weu i = (r : EReal))
    (e : Fin 600000) (l : Fin 128) :
    ∑ j : Fin 128, eenc E Wee bee e j * Weu (ix2 (blk 0 (by omega) j) l)
      = (∑ k : Fin 16, E (ix2 e k) * wcomb Wee Weu k l)
          + ∑ j : Fin 128, bee (ix1 j) * Weu (ix2 (blk 0 (by omega) j) l) := by
  choose rE hE using hE
  choose rWee hWee using hWee
  choose rbee hbee using hbee
  choose rWeu hWeu using hWeu
  simp only [eenc, wcomb, hE, hWee, hbee, hWeu]
  simp only [← EReal.coe_mul, ← coe_finsum, ← EReal.coe_add]
  rw [real_edge_law]

/-- Regrouping the six pieces of the updated edge. -/
theorem regroup_edges (A B P1 P2 G b : EReal) :
    ((A + P1) + P2) + ((B + b) + G) = ((((A + B) + P1) + P2) + G) + b := by
  ac_rfl

/-- Regrouping the five pieces of the updated node. -/
theorem regroup_nodes (P S R G b : EReal) :
    ((P + S) + R) + (b + G) = (((P + S) + R) + G) + b := by
  ac_rfl

/-- The updated edges agree entry by entry. -/
theorem newEdgesKer_eq_newEdgesRef (X : Mat 50000 128) (E : Mat 600000 16) (g : Mat 1 16)
    (Wne : Mat 128 128) (bne : Row 128) (Wee : Mat 16 128) (bee : Row 128)
    (Weu : Mat 400 128) (beu : Row 128) (rs rr : Fin 600000 → Fin 50000)
    (hE : ∀ i, ∃ r : ℝ, E i = (r : EReal)) (hWee : ∀ i, ∃ r : ℝ, Wee i = (r : EReal))
    (hbee : ∀ i, ∃ r : ℝ, bee i = (r : EReal)) (hWeu : ∀ i, ∃ r : ℝ, Weu i = (r : EReal))
    (e : Fin 600000) (l : Fin 128) :
    newEdgesKer X E g Wne bne Wee bee Weu beu rs rr e l = newEdgesRef X E g Wne bne Wee bee Weu beu rs rr e l := by
  unfold newEdgesKer newEdgesRef bcomb proj
  rw [sum_cat4 _ _ _ _ (fun c => Weu (ix2 c l)), edge_law E Wee bee Weu hE hWee hbee hWeu e l]
  exact regroup_edges _ _ _ _ _ _

/-- The updated edge arrays agree. -/
theorem edgesArrKer_eq_edgesArrRef (X : Mat 50000 128) (E : Mat 600000 16) (g : Mat 1 16)
    (Wne : Mat 128 128) (bne : Row 128) (Wee : Mat 16 128) (bee : Row 128)
    (Weu : Mat 400 128) (beu : Row 128) (rs rr : Fin 600000 → Fin 50000)
    (hE : ∀ i, ∃ r : ℝ, E i = (r : EReal)) (hWee : ∀ i, ∃ r : ℝ, Wee i = (r : EReal))
    (hbee : ∀ i, ∃ r : ℝ, bee i = (r : EReal)) (hWeu : ∀ i, ∃ r : ℝ, Weu i = (r : EReal)) :
    edgesArrKer X E g Wne bne Wee bee Weu beu rs rr = edgesArrRef X E g Wne bne Wee bee Weu beu rs rr := by
  funext i
  exact newEdgesKer_eq_newEdgesRef X E g Wne bne Wee bee Weu beu rs rr hE hWee hbee hWeu (i 0) (i 1)

/-- The updated nodes agree entry by entry. -/
theorem newNodesKer_eq_newNodesRef (X : Mat 50000 128) (E : Mat 600000 16) (g : Mat 1 16)
    (Wne : Mat 128 128) (bne : Row 128) (Wee : Mat 16 128) (bee : Row 128)
    (Weu : Mat 400 128) (beu : Row 128) (Wnu : Mat 400 128) (bnu : Row 128)
    (rs rr : Fin 600000 → Fin 50000) (SA RA : Mat 600000 128 → Mat 50000 128)
    (hE : ∀ i, ∃ r : ℝ, E i = (r : EReal)) (hWee : ∀ i, ∃ r : ℝ, Wee i = (r : EReal))
    (hbee : ∀ i, ∃ r : ℝ, bee i = (r : EReal)) (hWeu : ∀ i, ∃ r : ℝ, Weu i = (r : EReal))
    (n : Fin 50000) (l : Fin 128) :
    newNodesKer X E g Wne bne Wee bee Weu beu Wnu bnu rs rr SA RA n l
      = newNodesRef X E g Wne bne Wee bee Weu beu Wnu bnu rs rr SA RA n l := by
  unfold newNodesKer newNodesRef bnuc proj
  rw [edgesArrKer_eq_edgesArrRef X E g Wne bne Wee bee Weu beu rs rr hE hWee hbee hWeu,
    sum_cat4 _ _ _ _ (fun c => Wnu (ix2 c l))]
  exact regroup_nodes _ _ _ _ _

/-- With the edge features, the edge encoder and the edge update's weight finite, the kernel's form of the result
    is the reference's, at every node and column, whatever the row maps and the two segment-sum functions. -/
theorem outKer_eq_outRef (X : Mat 50000 128) (E : Mat 600000 16) (g : Mat 1 16)
    (Wne : Mat 128 128) (bne : Row 128) (Wee : Mat 16 128) (bee : Row 128)
    (Weu : Mat 400 128) (beu : Row 128) (Wnu : Mat 400 128) (bnu : Row 128)
    (Wout : Mat 128 5) (bout : Row 5)
    (rs rr : Fin 600000 → Fin 50000)
    (SA RA : Mat 600000 128 → Mat 50000 128)
    (hE : ∀ i, ∃ r : ℝ, E i = (r : EReal)) (hWee : ∀ i, ∃ r : ℝ, Wee i = (r : EReal))
    (hbee : ∀ i, ∃ r : ℝ, bee i = (r : EReal)) (hWeu : ∀ i, ∃ r : ℝ, Weu i = (r : EReal))
    (n : Fin 50000) (o : Fin 5) :
    outKer X E g Wne bne Wee bee Weu beu Wnu bnu Wout bout rs rr SA RA n o
      = outRef X E g Wne bne Wee bee Weu beu Wnu bnu Wout bout rs rr SA RA n o := by
  unfold outKer outRef
  congr 1
  refine Finset.sum_congr rfl fun l _ => ?_
  rw [newNodesKer_eq_newNodesRef X E g Wne bne Wee bee Weu beu Wnu bnu rs rr SA RA hE hWee hbee hWeu n l]

end GraphNet

end
-- ==== Proof.PreFacts.lean ====
/-
  What the precondition says of the inputs, read out of its printed form: a conjunction of seventeen reductions by
  "and", thirteen of them "every entry of this float input is below +inf in absolute value" and four "every sender
  (receiver) is at least 0 (below 50000)".  Wanted here: the edge features, the edge encoder's weight and bias and
  the edge update's weight have real entries, and every sender and receiver lies in 0..49999.
-/
import proofs.«426872_j55293408968886_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The rank-0 shape has a single index. -/
local instance subsingleton_scalar_idx : Subsingleton S_.Idx := ⟨fun a b => funext fun d => d.elim0⟩

/-- An extended real whose absolute value is strictly below +inf is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff, decide_eq_true_eq, max_lt_iff] at h
  obtain ⟨h1, h2⟩ := h
  induction x using EReal.rec with
  | bot => simp at h2
  | coe r => exact ⟨r, rfl⟩
  | top => simp at h1

/-- An "and"-reduction to a scalar of "|entry| < +inf" that came out 1 says every entry is a real number. -/
theorem real_of_reduce {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
          (cmpf .olt (Host.absf a) (broadcastInDim s ![] hb (constant (F := Ideal) S_ .f32 0x7F800000#32)))
          (constantI S_ 1 1#1) hr h0 ValueIdx.ix0 = 1#1) :
    ∀ i, ∃ r : ℝ, (a i : EReal) = (r : EReal) := by
  intro i
  exact real_of_abs_lt_inf (a i) (Host.reduce_andi_all _ _ hr h0 _ e i)

/-- An "and"-reduction of "entry ≥ 0" that came out 1 says every entry is non-negative. -/
theorem nonneg_of_reduce {s : Shape} {axes : List (Fin s.rank)} (a : IVec s 32)
    (hb : S_.BroadcastsInDim s (![] : Fin 0 → Fin s.rank)) (hr : s.ReducesTo axes S_) (h0 : 0 < S_.numel)
    (e : Host.reduce IntOp.andi (cmpi .sge a (broadcastInDim s ![] hb (constantI S_ 32 0#32)))
          (constantI S_ 1 1#1) hr h0 ValueIdx.ix0 = 1#1) :
    ∀ i, 0 ≤ (a i).toInt := by
  intro i
  have hi := Host.reduce_andi_all _ _ hr h0 _ e i
  change IntOp.cmpi .sge (a i) (0#32) = 1#1 at hi
  unfold IntOp.cmpi at hi
  rw [StableHlo.Predicate.ofBool_eq_one_iff] at hi
  have h := BitVec.sle_iff_toInt_le.1 hi
  simpa using h

/-- An "and"-reduction of "entry < 50000" that came out 1 says every entry is below 50000. -/
theorem lt_of_reduce {s : Shape} {axes : List (Fin s.rank)} (a : IVec s 32)
    (hb : S_.BroadcastsInDim s (![] : Fin 0 → Fin s.rank)) (hr : s.ReducesTo axes S_) (h0 : 0 < S_.numel)
    (e : Host.reduce IntOp.andi (cmpi .slt a (broadcastInDim s ![] hb (constantI S_ 32 50000#32)))
          (constantI S_ 1 1#1) hr h0 ValueIdx.ix0 = 1#1) :
    ∀ i, (a i).toInt < 50000 := by
  intro i
  have hi := Host.reduce_andi_all _ _ hr h0 _ e i
  change IntOp.cmpi .slt (a i) (50000#32) = 1#1 at hi
  unfold IntOp.cmpi at hi
  rw [StableHlo.Predicate.ofBool_eq_one_iff] at hi
  have h := BitVec.slt_iff_toInt_lt.1 hi
  have h5 : (50000#32 : BitVec 32).toInt = 50000 := by decide
  rw [h5] at h
  exact h

/-- A pointwise "and" of two one-bit vectors that is 1 at an index has both operands 1 there. -/
theorem andi_split {s : Shape} (x y : IVec s 1) (i : s.Idx) (h : andi x y i = 1#1) : x i = 1#1 ∧ y i = 1#1 :=
  IntOp.andi_eq_one.1 h

/-- From the precondition: four float inputs have real entries, and both index vectors lie in 0..49999. -/
theorem of_pre [Cert.Pre_finite_inputs.Facts]
    (a0 : FVec Ideal S50000x128 .f32) (a1 : FVec Ideal S600000x16 .f32) (a2 : FVec Ideal S1x16 .f32)
    (a3 a4 : IVec S600000 32) (a5 : FVec Ideal S128x128 .f32) (a6 : FVec Ideal S128 .f32)
    (a7 : FVec Ideal S16x128 .f32) (a8 : FVec Ideal S128 .f32) (a9 : FVec Ideal S400x128 .f32)
    (a10 : FVec Ideal S128 .f32) (a11 : FVec Ideal S400x128 .f32) (a12 : FVec Ideal S128 .f32)
    (a13 : FVec Ideal S128x5 .f32) (a14 : FVec Ideal S5 .f32)
    (h : fn (F := Ideal) a0 a1 a2 a3 a4 a5 a6 a7 a8 a9 a10 a11 a12 a13 a14 = fun _ => 1#1) :
    (∀ i, ∃ r : ℝ, (a1 i : EReal) = (r : EReal)) ∧ (∀ i, ∃ r : ℝ, (a7 i : EReal) = (r : EReal))
      ∧ (∀ i, ∃ r : ℝ, (a8 i : EReal) = (r : EReal)) ∧ (∀ i, ∃ r : ℝ, (a9 i : EReal) = (r : EReal))
      ∧ (∀ i, 0 ≤ (a3 i).toInt ∧ (a3 i).toInt < 50000) ∧ (∀ i, 0 ≤ (a4 i).toInt ∧ (a4 i).toInt < 50000) := by
  have h0 := congrFun h ValueIdx.ix0
  clear h
  dsimp only [fn, fn_part1, fn_part2, fn_part3, fn_part4] at h0
  obtain ⟨h0, e17⟩ := andi_split _ _ _ h0
  obtain ⟨h0, e16⟩ := andi_split _ _ _ h0
  obtain ⟨h0, e15⟩ := andi_split _ _ _ h0
  obtain ⟨h0, e14⟩ := andi_split _ _ _ h0
  obtain ⟨h0, e13⟩ := andi_split _ _ _ h0
  obtain ⟨h0, e12⟩ := andi_split _ _ _ h0
  obtain ⟨h0, e11⟩ := andi_split _ _ _ h0
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨e1, e2⟩ := andi_split _ _ _ h0
  exact ⟨real_of_reduce a1 _ _ _ e2, real_of_reduce a7 _ _ _ e6, real_of_reduce a8 _ _ _ e7, real_of_reduce a9 _ _ _ e8,
    fun i => ⟨nonneg_of_reduce a3 _ _ _ e14 i, lt_of_reduce a3 _ _ _ e15 i⟩,
    fun i => ⟨nonneg_of_reduce a4 _ _ _ e16 i, lt_of_reduce a4 _ _ _ e17 i⟩⟩

end Cert.PreFacts

end
-- ==== Proof.Bridge.lean ====
/-
  The two idealized programs compute one function.  Run from memories that agree on the fifteen arguments, the
  kernel program ends with its result buffer at the kernel's form of the graph-network layer (the first call's
  projections, the row takes, the second call's updated edges, the segment sums, the third call's updated nodes
  through the head) and the reference program with its result at the reference's form (encoders, gathers, the joined
  rows through the two update weights, the head).  Under the precondition — finite float inputs, every sender and
  receiver a node index — the two forms are equal at every node and column: splitting the 400 rows of the update
  weights into blocks is a regrouping of sums, and folding the edge encoder into the first block distributes a
  product over a finite sum of reals.
-/
import proofs.«426872_j55293408968886_3_alg».proof.Defs
import proofs.«426872_j55293408968886_3_alg».proof.Proof.Gen.Kernel.Frame
import proofs.«426872_j55293408968886_3_alg».proof.Proof.Gen.KernelIdeal.Frame
import proofs.«426872_j55293408968886_3_alg».proof.Proof.Gen.ReferenceIdeal
import proofs.«426872_j55293408968886_3_alg».proof.Proof.Gen.Pre_finite_inputs
import proofs.«426872_j55293408968886_3_alg».proof.Proof.KRun
import proofs.«426872_j55293408968886_3_alg».proof.Proof.KValue
import proofs.«426872_j55293408968886_3_alg».proof.Proof.RefStages
import proofs.«426872_j55293408968886_3_alg».proof.Proof.RefValue
import proofs.«426872_j55293408968886_3_alg».proof.Proof.GraphAlgebra
import proofs.«426872_j55293408968886_3_alg».proof.Proof.PreFacts

noncomputable section

namespace Cert.Proof.Bridge

open Idealize.ShloMosaic Idealize.ShloMosaic.TcCoe Idealize.SL.Sem Idealize.ShloMosaic.StableHlo Idealize.ShloMosaic.ValueIdx
open Cert.KernelIdeal.Hand
open GraphNet (Mat Row)

/-- The word-level program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run_after (F := Ideal) m ρ)

/-- Both idealized programs end with the graph-network layer's result: the kernel's form of it, which under the
    precondition is the reference's form. -/
theorem algebraic : Cert.algebraic_KernelIdeal_ReferenceIdeal := by
  intro m ρ m' ρ' hpre hagree
  refine ⟨fun c => ((fun i => GraphNet.outKer (aX m c) (aE m c) (aG m c) (aWne m c) (aBne m c) (aWee m c) (aBee m c) (aWeu m c) (aBeu m c) (aWnu m c) (aBnu m c) (aWout m c) (aBout m c) (GraphNet.rowsOf (aSnd m c)) (GraphNet.rowsOf (aRcv m c)) (GraphNet.segSum (aSnd m c)) (GraphNet.segSum (aRcv m c)) (i 0) (i 1)) : Mat 50000 5), ?_, ?_⟩
  · refine (θ_run Cert.KernelIdeal.defs _ _).mono (fun r h c => ⟨(h c).1.trans ?_, (h c).2⟩)
      (Cert.KernelIdeal.HandRun.run_result (F := Ideal) m ρ)
    obtain ⟨-, -, -, -, hs, hr⟩ := Cert.PreFacts.of_pre _ _ _ _ _ _ _ _ _ _ _ _ _ _ _ (hpre c)
    funext i
    obtain ⟨n, o, rfl⟩ : ∃ (n : Fin 50000) (o : Fin 5), i = ix2 n o := ⟨i 0, i 1, eq_ix2 i⟩
    exact Cert.KernelIdeal.Hand.result_value m ρ c hs hr n o
  · refine (θ_run Cert.ReferenceIdeal.defs _ _).mono (fun r h c => ⟨(h c).1.trans ?_, (h c).2⟩)
      (Cert.ReferenceIdeal.ValueP.run_after (F := Ideal) m' ρ')
    obtain ⟨hE, hWee, hbee, hWeu, -, -⟩ := Cert.PreFacts.of_pre _ _ _ _ _ _ _ _ _ _ _ _ _ _ _ (hpre c)
    rw [Cert.ReferenceIdeal.Hand.after_ops_result]
    funext i
    obtain ⟨n, o, rfl⟩ : ∃ (n : Fin 50000) (o : Fin 5), i = ix2 n o := ⟨i 0, i 1, eq_ix2 i⟩
    refine (Cert.ReferenceIdeal.Hand.ref_value _ _ _ _ _ _ _ _ _ _ _ _ _ _ _ n o).trans ?_
    obtain ⟨e0, e1, e2, e3, e4, e5, e6, e7, e8, e9, e10, e11, e12, e13, e14⟩ := hagree c
    rw [show launchContents m' c (Proc.devRef .tc Cert.ReferenceIdeal.main_arg0) = aX m c from e0,
      show launchContents m' c (Proc.devRef .tc Cert.ReferenceIdeal.main_arg1) = aE m c from e1,
      show launchContents m' c (Proc.devRef .tc Cert.ReferenceIdeal.main_arg2) = aG m c from e2,
      show launchContents m' c (Proc.devRef .tc Cert.ReferenceIdeal.main_arg3) = aSnd m c from e3,
      show launchContents m' c (Proc.devRef .tc Cert.ReferenceIdeal.main_arg4) = aRcv m c from e4,
      show launchContents m' c (Proc.devRef .tc Cert.ReferenceIdeal.main_arg5) = aWne m c from e5,
      show launchContents m' c (Proc.devRef .tc Cert.ReferenceIdeal.main_arg6) = aBne m c from e6,
      show launchContents m' c (Proc.devRef .tc Cert.ReferenceIdeal.main_arg7) = aWee m c from e7,
      show launchContents m' c (Proc.devRef .tc Cert.ReferenceIdeal.main_arg8) = aBee m c from e8,
      show launchContents m' c (Proc.devRef .tc Cert.ReferenceIdeal.main_arg9) = aWeu m c from e9,
      show launchContents m' c (Proc.devRef .tc Cert.ReferenceIdeal.main_arg10) = aBeu m c from e10,
      show launchContents m' c (Proc.devRef .tc Cert.ReferenceIdeal.main_arg11) = aWnu m c from e11,
      show launchContents m' c (Proc.devRef .tc Cert.ReferenceIdeal.main_arg12) = aBnu m c from e12,
      show launchContents m' c (Proc.devRef .tc Cert.ReferenceIdeal.main_arg13) = aWout m c from e13,
      show launchContents m' c (Proc.devRef .tc Cert.ReferenceIdeal.main_arg14) = aBout m c from e14]
    exact (GraphNet.outKer_eq_outRef _ _ _ _ _ _ _ _ _ _ _ _ _ _ _ _ _ hE hWee hbee hWeu n o).symm

end Cert.Proof.Bridge

end
-- ==== Proof.lean ====
/-
  A graph-network layer on 50000 nodes and 600000 edges: nodes and edges are encoded, each edge is updated from
  [its encoding, its sender's node, its receiver's node, the globals] through a 400 × 128 weight, the updated edges
  are summed per sender and per receiver, each node is updated from [its encoding, the two sums, the globals]
  through another 400 × 128 weight, and a 128 × 5 head gives the result.

  The kernel program computes the same function in another arrangement: it cuts the two update weights into row
  blocks, projects the encoded nodes through the sender and receiver blocks before reading them per edge, folds the
  edge encoder into the edge block and the globals and biases into constant rows, and pads the head to 128 columns.
  Over the extended reals the two arrangements agree once the edge features, the edge encoder and the edge update's
  weight are finite (folding the encoder distributes a product over a sum) and every sender and receiver is a node
  index (outside 0..49999 the kernel's row take fills with a not-a-number where the reference's gather clamps).

  The three programs run to the end leaving their arguments as launched; the idealization rewrote no operation;
  and the two idealized programs, from memories that agree on the arguments, end with equal results.
-/
import proofs.«426872_j55293408968886_3_alg».proof.Defs
import proofs.«426872_j55293408968886_3_alg».proof.Proof.Gen.Kernel
import proofs.«426872_j55293408968886_3_alg».proof.Proof.Gen.Kernel.Skeleton
import proofs.«426872_j55293408968886_3_alg».proof.Proof.Gen.Kernel.Launch
import proofs.«426872_j55293408968886_3_alg».proof.Proof.Gen.Kernel.Points
import proofs.«426872_j55293408968886_3_alg».proof.Proof.Gen.Kernel.Frame
import proofs.«426872_j55293408968886_3_alg».proof.Proof.Gen.KernelIdeal
import proofs.«426872_j55293408968886_3_alg».proof.Proof.Gen.KernelIdeal.Skeleton
import proofs.«426872_j55293408968886_3_alg».proof.Proof.Gen.KernelIdeal.Launch
import proofs.«426872_j55293408968886_3_alg».proof.Proof.Gen.KernelIdeal.Points
import proofs.«426872_j55293408968886_3_alg».proof.Proof.Gen.KernelIdeal.Frame
import proofs.«426872_j55293408968886_3_alg».proof.Proof.Gen.ReferenceIdeal
import proofs.«426872_j55293408968886_3_alg».proof.Proof.Gen.Pre_finite_inputs
import proofs.«426872_j55293408968886_3_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Bridge.frame_k, Cert.Proof.Bridge.frame_ki, Cert.Proof.Bridge.frame_ri, trivial, Cert.Proof.Bridge.algebraic⟩

end Cert.Proof

end
